-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x128 : Shape := ⟨4, ![8, 128, 128, 128]⟩
abbrev S72x128 : Shape := ⟨2, ![72, 128]⟩
abbrev S72x72 : Shape := ⟨2, ![72, 72]⟩
abbrev S72 : Shape := ⟨1, ![72]⟩
abbrev S_ : Shape := ⟨0, ![]⟩

class Facts : Prop where
  bcast_S_S8x128x128x128 : S_.BroadcastsInDim S8x128x128x128 (![] : Fin 0 → Fin S8x128x128x128.rank)
  reducesTo_S8x128x128x128_S_d0_1_2_3 : S8x128x128x128.ReducesTo [0, 1, 2, 3] S_
  h_S_ : 0 < S_.numel
  bcast_S_S72x128 : S_.BroadcastsInDim S72x128 (![] : Fin 0 → Fin S72x128.rank)
  reducesTo_S72x128_S_d0_1 : S72x128.ReducesTo [0, 1] S_
  bcast_S_S72x72 : S_.BroadcastsInDim S72x72 (![] : Fin 0 → Fin S72x72.rank)
  reducesTo_S72x72_S_d0_1 : S72x72.ReducesTo [0, 1] S_
  bcast_S_S72 : S_.BroadcastsInDim S72 (![] : Fin 0 → Fin S72.rank)
  reducesTo_S72_S_d0 : S72.ReducesTo [0] S_

variable [Facts]

def fn_part1 {F : FTy → Type} [FloatOps F] (main_arg4 : FVec F S72 .f32) (main_arg5 : FVec F S72 .f32) (main_arg6 : FVec F S72 .f32) (main_v13 : IVec S_ 1) (main_v16 : IVec S72 1) : IVec S_ 1 :=
  let main_c_5 : IVec S_ 1 := constantI S_ 1 1#1
  let main_v17 : IVec S_ 1 := (fun x v => Host.reduce IntOp.andi x v reducesTo_S72_S_d0 h_S_) main_v16 main_c_5
  let main_v18 : IVec S_ 1 := andi main_v13 main_v17
  let main_v19 : FVec F S72 .f32 := Host.absf main_arg4
  let main_cst_6 : FVec F S_ .f32 := constant S_ .f32 0x7F800000#32
  let main_v20 : FVec F S72 .f32 := broadcastInDim S72 ![] bcast_S_S72 main_cst_6
  let main_v21 : IVec S72 1 := cmpf .olt main_v19 main_v20
  let main_c_7 : IVec S_ 1 := constantI S_ 1 1#1
  let main_v22 : IVec S_ 1 := (fun x v => Host.reduce IntOp.andi x v reducesTo_S72_S_d0 h_S_) main_v21 main_c_7
  let main_v23 : IVec S_ 1 := andi main_v18 main_v22
  let main_v24 : FVec F S72 .f32 := Host.absf main_arg5
  let main_cst_8 : FVec F S_ .f32 := constant S_ .f32 0x7F800000#32
  let main_v25 : FVec F S72 .f32 := broadcastInDim S72 ![] bcast_S_S72 main_cst_8
  let main_v26 : IVec S72 1 := cmpf .olt main_v24 main_v25
  let main_c_9 : IVec S_ 1 := constantI S_ 1 1#1
  let main_v27 : IVec S_ 1 := (fun x v => Host.reduce IntOp.andi x v reducesTo_S72_S_d0 h_S_) main_v26 main_c_9
  let main_v28 : IVec S_ 1 := andi main_v23 main_v27
  let main_v29 : FVec F S72 .f32 := Host.absf main_arg6
  let main_cst_10 : FVec F S_ .f32 := constant S_ .f32 0x7F800000#32
  let main_v30 : FVec F S72 .f32 := broadcastInDim S72 ![] bcast_S_S72 main_cst_10
  let main_v31 : IVec S72 1 := cmpf .olt main_v29 main_v30
  let main_c_11 : IVec S_ 1 := constantI S_ 1 1#1
  let main_v32 : IVec S_ 1 := (fun x v => Host.reduce IntOp.andi x v reducesTo_S72_S_d0 h_S_) main_v31 main_c_11
  let main_v33 : IVec S_ 1 := andi main_v28 main_v32
  main_v33

def fn {F : FTy → Type} [FloatOps F] (main_arg0 : FVec F S8x128x128x128 .f32) (main_arg1 : FVec F S72x128 .f32) (main_arg2 : FVec F S72x72 .f32) (main_arg3 : FVec F S72 .f32) (main_arg4 : FVec F S72 .f32) (main_arg5 : FVec F S72 .f32) (main_arg6 : FVec F S72 .f32) : IVec S_ 1 :=
  let main_v0 : FVec F S8x128x128x128 .f32 := Host.absf main_arg0
  let main_cst : FVec F S_ .f32 := constant S_ .f32 0x7F800000#32
  let main_v1 : FVec F S8x128x128x128 .f32 := broadcastInDim S8x128x128x128 ![] bcast_S_S8x128x128x128 main_cst
  let main_v2 : IVec S8x128x128x128 1 := cmpf .olt main_v0 main_v1
  let main_c : IVec S_ 1 := constantI S_ 1 1#1
  let main_v3 : IVec S_ 1 := (fun x v => Host.reduce IntOp.andi x v reducesTo_S8x128x128x128_S_d0_1_2_3 h_S_) main_v2 main_c
  let main_v4 : FVec F S72x128 .f32 := Host.absf main_arg1
  let main_cst_0 : FVec F S_ .f32 := constant S_ .f32 0x7F800000#32
  let main_v5 : FVec F S72x128 .f32 := broadcastInDim S72x128 ![] bcast_S_S72x128 main_cst_0
  let main_v6 : IVec S72x128 1 := cmpf .olt main_v4 main_v5
  let main_c_1 : IVec S_ 1 := constantI S_ 1 1#1
  let main_v7 : IVec S_ 1 := (fun x v => Host.reduce IntOp.andi x v reducesTo_S72x128_S_d0_1 h_S_) main_v6 main_c_1
  let main_v8 : IVec S_ 1 := andi main_v3 main_v7
  let main_v9 : FVec F S72x72 .f32 := Host.absf main_arg2
  let main_cst_2 : FVec F S_ .f32 := constant S_ .f32 0x7F800000#32
  let main_v10 : FVec F S72x72 .f32 := broadcastInDim S72x72 ![] bcast_S_S72x72 main_cst_2
  let main_v11 : IVec S72x72 1 := cmpf .olt main_v9 main_v10
  let main_c_3 : IVec S_ 1 := constantI S_ 1 1#1
  let main_v12 : IVec S_ 1 := (fun x v => Host.reduce IntOp.andi x v reducesTo_S72x72_S_d0_1 h_S_) main_v11 main_c_3
  let main_v13 : IVec S_ 1 := andi main_v8 main_v12
  let main_v14 : FVec F S72 .f32 := Host.absf main_arg3
  let main_cst_4 : FVec F S_ .f32 := constant S_ .f32 0x7F800000#32
  let main_v15 : FVec F S72 .f32 := broadcastInDim S72 ![] bcast_S_S72 main_cst_4
  let main_v16 : IVec S72 1 := cmpf .olt main_v14 main_v15
  fn_part1 (F := F) main_arg4 main_arg5 main_arg6 main_v13 main_v16
-- ==== Kernel.lean ====
abbrev S8x128x128x128 : Shape := ⟨4, ![8, 128, 128, 128]⟩
abbrev S72x128 : Shape := ⟨2, ![72, 128]⟩
abbrev S72x72 : Shape := ⟨2, ![72, 72]⟩
abbrev S72 : Shape := ⟨1, ![72]⟩
abbrev S128x8 : Shape := ⟨2, ![128, 8]⟩
abbrev S8x16x128x128 : Shape := ⟨4, ![8, 16, 128, 128]⟩
abbrev S16x8 : Shape := ⟨2, ![16, 8]⟩
abbrev S8x16x128 : Shape := ⟨3, ![8, 16, 128]⟩
abbrev S8x16 : Shape := ⟨2, ![8, 16]⟩
abbrev S8x128 : Shape := ⟨2, ![8, 128]⟩
abbrev S8x72 : Shape := ⟨2, ![8, 72]⟩
abbrev S_ : Shape := ⟨0, ![]⟩
abbrev S1x72 : Shape := ⟨2, ![1, 72]⟩
abbrev S8x8x9 : Shape := ⟨3, ![8, 8, 9]⟩
abbrev S8x8 : Shape := ⟨2, ![8, 8]⟩
abbrev S8x8x1 : Shape := ⟨3, ![8, 8, 1]⟩
abbrev S8x8x1x9 : Shape := ⟨4, ![8, 8, 1, 9]⟩
abbrev S1x16x128x128 : Shape := ⟨4, ![1, 16, 128, 128]⟩
abbrev S1x1x1x9 : Shape := ⟨4, ![1, 1, 1, 9]⟩
abbrev S16x128x128 : Shape := ⟨3, ![16, 128, 128]⟩
abbrev S16x1x128 : Shape := ⟨3, ![16, 1, 128]⟩
abbrev S16x130x128 : Shape := ⟨3, ![16, 130, 128]⟩
abbrev S16x130x1 : Shape := ⟨3, ![16, 130, 1]⟩
abbrev S16x130x130 : Shape := ⟨3, ![16, 130, 130]⟩
abbrev S9 : Shape := ⟨1, ![9]⟩
abbrev S1 : Shape := ⟨1, ![1]⟩

abbrev nBuf : Space → Nat
  | .hbm => 54
  | .vmem => 12
  | .smem => 0
  | _ => 0

abbrev bufTy : (tb : Table) → Fin (tcTables nBuf tb) → BufTy
  | .hbm, ⟨0, _⟩ => ⟨S8x128x128x128, .f32⟩
  | .hbm, ⟨1, _⟩ => ⟨S72x128, .f32⟩
  | .hbm, ⟨2, _⟩ => ⟨S72x72, .f32⟩
  | .hbm, ⟨3, _⟩ => ⟨S72, .f32⟩
  | .hbm, ⟨4, _⟩ => ⟨S72, .f32⟩
  | .hbm, ⟨5, _⟩ => ⟨S72, .f32⟩
  | .hbm, ⟨6, _⟩ => ⟨S72, .f32⟩
  | .hbm, ⟨7, _⟩ => ⟨S128x8, .f32⟩
  | .hbm, ⟨8, _⟩ => ⟨S8x128, .f32⟩
  | .hbm, ⟨9, _⟩ => ⟨S8x72, .f32⟩
  | .hbm, ⟨10, _⟩ => ⟨S8x72, .f32⟩
  | .hbm, ⟨11, _⟩ => ⟨S8x72, .f32⟩
  | .hbm, ⟨12, _⟩ => ⟨S8x72, .f32⟩
  | .hbm, ⟨13, _⟩ => ⟨S_, .f32⟩
  | .hbm, ⟨14, _⟩ => ⟨S8x72, .f32⟩
  | .hbm, ⟨15, _⟩ => ⟨S8x72, .f32⟩
  | .hbm, ⟨16, _⟩ => ⟨S_, .f32⟩
  | .hbm, ⟨17, _⟩ => ⟨S8x72, .f32⟩
  | .hbm, ⟨18, _⟩ => ⟨S8x72, .f32⟩
  | .hbm, ⟨19, _⟩ => ⟨S8x72, .f32⟩
  | .hbm, ⟨20, _⟩ => ⟨S1x72, .f32⟩
  | .hbm, ⟨21, _⟩ => ⟨S8x72, .f32⟩
  | .hbm, ⟨22, _⟩ => ⟨S8x72, .f32⟩
  | .hbm, ⟨23, _⟩ => ⟨S_, .f32⟩
  | .hbm, ⟨24, _⟩ => ⟨S72, .f32⟩
  | .hbm, ⟨25, _⟩ => ⟨S72, .f32⟩
  | .hbm, ⟨26, _⟩ => ⟨S72, .f32⟩
  | .hbm, ⟨27, _⟩ => ⟨S1x72, .f32⟩
  | .hbm, ⟨28, _⟩ => ⟨S8x72, .f32⟩
  | .hbm, ⟨29, _⟩ => ⟨S8x72, .f32⟩
  | .hbm, ⟨30, _⟩ => ⟨S1x72, .f32⟩
  | .hbm, ⟨31, _⟩ => ⟨S8x72, .f32⟩
  | .hbm, ⟨32, _⟩ => ⟨S8x72, .f32⟩
  | .hbm, ⟨33, _⟩ => ⟨S1x72, .f32⟩
  | .hbm, ⟨34, _⟩ => ⟨S8x72, .f32⟩
  | .hbm, ⟨35, _⟩ => ⟨S8x72, .f32⟩
  | .hbm, ⟨36, _⟩ => ⟨S8x8x9, .f32⟩
  | .hbm, ⟨37, _⟩ => ⟨S_, .f32⟩
  | .hbm, ⟨38, _⟩ => ⟨S8x8, .f32⟩
  | .hbm, ⟨39, _⟩ => ⟨S_, .f32⟩
  | .hbm, ⟨40, _⟩ => ⟨S8x8, .f32⟩
  | .hbm, ⟨41, _⟩ => ⟨S8x8, .f32⟩
  | .hbm, ⟨42, _⟩ => ⟨S8x8x1, .f32⟩
  | .hbm, ⟨43, _⟩ => ⟨S8x8x9, .f32⟩
  | .hbm, ⟨44, _⟩ => ⟨S8x8x9, .f32⟩
  | .hbm, ⟨45, _⟩ => ⟨S8x8x9, .f32⟩
  | .hbm, ⟨46, _⟩ => ⟨S_, .f32⟩
  | .hbm, ⟨47, _⟩ => ⟨S8x8, .f32⟩
  | .hbm, ⟨48, _⟩ => ⟨S8x8x1, .f32⟩
  | .hbm, ⟨49, _⟩ => ⟨S8x8x9, .f32⟩
  | .hbm, ⟨50, _⟩ => ⟨S8x8x9, .f32⟩
  | .hbm, ⟨51, _⟩ => ⟨S8x8x1x9, .f32⟩
  | .hbm, ⟨52, _⟩ => ⟨S8x128x128x128, .f32⟩
  | .hbm, ⟨53, _⟩ => ⟨S8x128x128x128, .f32⟩
  | .local _ .vmem, ⟨0, _⟩ => ⟨S8x16x128x128, .f32⟩
  | .local _ .vmem, ⟨1, _⟩ => ⟨S8x16x128x128, .f32⟩
  | .local _ .vmem, ⟨2, _⟩ => ⟨S16x8, .f32⟩
  | .local _ .vmem, ⟨3, _⟩ => ⟨S16x8, .f32⟩
  | .local _ .vmem, ⟨4, _⟩ => ⟨S1x16x128x128, .f32⟩
  | .local _ .vmem, ⟨5, _⟩ => ⟨S1x16x128x128, .f32⟩
  | .local _ .vmem, ⟨6, _⟩ => ⟨S1x1x1x9, .f32⟩
  | .local _ .vmem, ⟨7, _⟩ => ⟨S1x1x1x9, .f32⟩
  | .local _ .vmem, ⟨8, _⟩ => ⟨S1x16x128x128, .f32⟩
  | .local _ .vmem, ⟨9, _⟩ => ⟨S1x16x128x128, .f32⟩
  | .local _ .vmem, ⟨10, _⟩ => ⟨S1x16x128x128, .f32⟩
  | .local _ .vmem, ⟨11, _⟩ => ⟨S1x16x128x128, .f32⟩
  | _, _ => ⟨S8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39_0 : Ref sig .tc := ⟨.hbm, 52, rfl⟩
abbrev main_v39_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1x9 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x16x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x16x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S8x16x128x128_S8x16x128x128_0_0_0_0 : ∀ a, (![0, 0, 0, 0] : Fin 4 → Nat) a + S8x16x128x128.size a ≤ S8x16x128x128.size a
  h_S8x16x128x128 : 0 < S8x16x128x128.numel
  reduces_S8x16x128x128_S8x16x128 : S8x16x128x128.Reduces [3] S8x16x128
  reduces_S8x16x128_S8x16 : S8x16x128.Reduces [2] S8x16
  transposes_S8x16_p1_0_S16x8 : S8x16.Transposes [1, 0] S16x8
  inb_S16x8_S16x8_0_0 : ∀ a, (![0, 0] : Fin 2 → Nat) a + S16x8.size a ≤ S16x8.size a
  h_S16x8 : 0 < S16x8.numel
  transposes_S128x8_S8x128_1_0 : S128x8.Transposes [1, 0] S8x128
  bcast_S_S8x72 : S_.BroadcastsInDim S8x72 (![] : Fin 0 → Fin S8x72.rank)
  bcast_S72_S1x72_1 : S72.BroadcastsInDim S1x72 (![1] : Fin 1 → Fin S1x72.rank)
  bcast_S1x72_S8x72_0_1 : S1x72.BroadcastsInDim S8x72 (![0, 1] : Fin 2 → Fin S8x72.rank)
  bcast_S_S72 : S_.BroadcastsInDim S72 (![] : Fin 0 → Fin S72.rank)
  shapeCasts_S8x72_S8x8x9 : S8x72.ShapeCasts S8x8x9
  reducesTo_S8x8x9_S8x8_d2 : S8x8x9.ReducesTo [2] S8x8
  h_S_ : 0 < S_.numel
  bcast_S_S8x8 : S_.BroadcastsInDim S8x8 (![] : Fin 0 → Fin S8x8.rank)
  bcast_S8x8_S8x8x1_0_1 : S8x8.BroadcastsInDim S8x8x1 (![0, 1] : Fin 2 → Fin S8x8x1.rank)
  bcast_S8x8x1_S8x8x9_0_1_2 : S8x8x1.BroadcastsInDim S8x8x9 (![0, 1, 2] : Fin 3 → Fin S8x8x9.rank)
  shapeCasts_S8x8x9_S8x8x1x9 : S8x8x9.ShapeCasts S8x8x1x9
  inb_S1x16x128x128_S1x16x128x128_0_0_0_0 : ∀ a, (![0, 0, 0, 0] : Fin 4 → Nat) a + S1x16x128x128.size a ≤ S1x16x128x128.size a
  h_S1x16x128x128 : 0 < S1x16x128x128.numel
  shapeCasts_S1x16x128x128_S16x128x128 : S1x16x128x128.ShapeCasts S16x128x128
  slices_S16x128x128_o0_1_0_S16x1x128 : S16x128x128.Slices ![0, 1, 0] S16x1x128
  slices_S16x128x128_o0_126_0_S16x1x128 : S16x128x128.Slices ![0, 126, 0] S16x1x128
  concatenates_S16x1x128_S16x128x128_S16x1x128_S16x130x128_d1 : Shape.Concatenates [S16x1x128, S16x128x128, S16x1x128] S16x130x128 1
  slices_S16x130x128_o0_0_1_S16x130x1 : S16x130x128.Slices ![0, 0, 1] S16x130x1
  slices_S16x130x128_o0_0_126_S16x130x1 : S16x130x128.Slices ![0, 0, 126] S16x130x1
  concatenates_S16x130x1_S16x130x128_S16x130x1_S16x130x130_d2 : Shape.Concatenates [S16x130x1, S16x130x128, S16x130x1] S16x130x130 2
  inb_S1x1x1x9_S1x1x1x9_0_0_0_0 : ∀ a, (![0, 0, 0, 0] : Fin 4 → Nat) a + S1x1x1x9.size a ≤ S1x1x1x9.size a
  h_S1x1x1x9 : 0 < S1x1x1x9.numel
  shapeCasts_S1x1x1x9_S9 : S1x1x1x9.ShapeCasts S9
  slices_S16x130x130_o0_0_0_S16x128x128 : S16x130x130.Slices ![0, 0, 0] S16x128x128
  slices_S9_o0_S1 : S9.Slices ![0] S1
  inpos_S1_p0 : ∀ a, (![0] : Fin 1 → Nat) a < S1.size a
  slices_S16x130x130_o0_0_1_S16x128x128 : S16x130x130.Slices ![0, 0, 1] S16x128x128
  slices_S9_o1_S1 : S9.Slices ![1] S1
  slices_S16x130x130_o0_0_2_S16x128x128 : S16x130x130.Slices ![0, 0, 2] S16x128x128
  slices_S9_o2_S1 : S9.Slices ![2] S1
  slices_S16x130x130_o0_1_0_S16x128x128 : S16x130x130.Slices ![0, 1, 0] S16x128x128
  slices_S9_o3_S1 : S9.Slices ![3] S1
  slices_S16x130x130_o0_1_1_S16x128x128 : S16x130x130.Slices ![0, 1, 1] S16x128x128
  slices_S9_o4_S1 : S9.Slices ![4] S1
  slices_S16x130x130_o0_1_2_S16x128x128 : S16x130x130.Slices ![0, 1, 2] S16x128x128
  slices_S9_o5_S1 : S9.Slices ![5] S1
  slices_S16x130x130_o0_2_0_S16x128x128 : S16x130x130.Slices ![0, 2, 0] S16x128x128
  slices_S9_o6_S1 : S9.Slices ![6] S1
  slices_S16x130x130_o0_2_1_S16x128x128 : S16x130x130.Slices ![0, 2, 1] S16x128x128
  slices_S9_o7_S1 : S9.Slices ![7] S1
  slices_S16x130x130_o0_2_2_S16x128x128 : S16x130x130.Slices ![0, 2, 2] S16x128x128
  slices_S9_o8_S1 : S9.Slices ![8] S1
  shapeCasts_S16x128x128_S1x16x128x128 : S16x128x128.ShapeCasts S1x16x128x128
  dot_S8x128_S72x128_S8x72_1_1_0_0_n_n_wf : DotDims.WF S8x128 S72x128 S8x72 [1] [1] [0] [0] [] []
  dot_S8x72_S72x72_S8x72_1_1_0_0_n_n_wf : DotDims.WF S8x72 S72x72 S8x72 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x128x128.size a ≤ S8x128x128x128.size a
  hwx0_0 : ∀ i : grid0.Coords, EltTy.bits .f32 = 32 ∨ (Rect.block (s := S8x128x128x128) S8x16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x8.size a ≤ S128x8.size a
  hwx0_1 : ∀ i : grid0.Coords, EltTy.bits .f32 = 32 ∨ (Rect.block (s := S128x8) S16x8.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x128x128.size a ≤ S8x128x128x128.size a
  hwx1_0 : ∀ i : grid1.Coords, EltTy.bits .f32 = 32 ∨ (Rect.block (s := S8x128x128x128) S1x16x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1x9.size a ≤ S8x8x1x9.size a
  hwx1_1 : ∀ i : grid1.Coords, EltTy.bits .f32 = 32 ∨ (Rect.block (s := S8x8x1x9) S1x1x1x9.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x128x128.size a ≤ S8x128x128x128.size a
  hwx1_2 : ∀ i : grid1.Coords, EltTy.bits .f32 = 32 ∨ (Rect.block (s := S8x128x128x128) S1x16x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x128x128.size a ≤ S8x128x128x128.size a
  hwx1_3 : ∀ i : grid1.Coords, EltTy.bits .f32 = 32 ∨ (Rect.block (s := S8x128x128x128) S1x16x128x128.size (cc1_transform_3 i) (hinb1_3 i)).WholeWords (EltTy.packing .f32)

variable [Facts₀]

def dot_S8x128_S72x128_S8x72_1_1_0_0_n_n : DotDims S8x128 S72x128 S8x72 where
  lhsContracting := [1]
  rhsContracting := [1]
  lhsNonContracting := [0]
  rhsNonContracting := [0]
  lhsBatch := []
  rhsBatch := []
  wf := dot_S8x128_S72x128_S8x72_1_1_0_0_n_n_wf
def dot_S8x72_S72x72_S8x72_1_1_0_0_n_n : DotDims S8x72 S72x72 S8x72 where
  lhsContracting := [1]
  rhsContracting := [1]
  lhsNonContracting := [0]
  rhsNonContracting := [0]
  lhsBatch := []
  rhsBatch := []
  wf := dot_S8x72_S72x72_S8x72_1_1_0_0_n_n_wf

abbrev win0_0 : Pipeline.Window sig grid0 :=
  Pipeline.Window.ofSpec (Memref.whole main_arg0) S8x16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x8.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x16x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x1x1x9.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39_0) S1x16x128x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39_1) S1x16x128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x128x128x128 : Shape := ⟨4, ![8, 128, 128, 128]⟩
abbrev S72x128 : Shape := ⟨2, ![72, 128]⟩
abbrev S72x72 : Shape := ⟨2, ![72, 72]⟩
abbrev S72 : Shape := ⟨1, ![72]⟩
abbrev S_ : Shape := ⟨0, ![]⟩
abbrev S8x128 : Shape := ⟨2, ![8, 128]⟩
abbrev S8x72 : Shape := ⟨2, ![8, 72]⟩
abbrev S1x72 : Shape := ⟨2, ![1, 72]⟩
abbrev S8x8x9 : Shape := ⟨3, ![8, 8, 9]⟩
abbrev S8x8 : Shape := ⟨2, ![8, 8]⟩
abbrev S8x8x1 : Shape := ⟨3, ![8, 8, 1]⟩
abbrev S8x128x1x128 : Shape := ⟨4, ![8, 128, 1, 128]⟩
abbrev S8x128x129x128 : Shape := ⟨4, ![8, 128, 129, 128]⟩
abbrev S8x128x130x128 : Shape := ⟨4, ![8, 128, 130, 128]⟩
abbrev S8x128x130x1 : Shape := ⟨4, ![8, 128, 130, 1]⟩
abbrev S8x128x130x129 : Shape := ⟨4, ![8, 128, 130, 129]⟩
abbrev S8x128x130x130 : Shape := ⟨4, ![8, 128, 130, 130]⟩
abbrev S8x8x16x128x128 : Shape := ⟨5, ![8, 8, 16, 128, 128]⟩
abbrev S8x8x1x1x1 : Shape := ⟨5, ![8, 8, 1, 1, 1]⟩

abbrev nBuf : Space → Nat
  | .hbm => 147
  | .vmem => 0
  | .smem => 0
  | _ => 0

abbrev hbmTy0_0 (i : Nat) : BufTy := match i % 128 with
  | 0 => ⟨S8x128x128x128, .f32⟩
  | 1 => ⟨S72x128, .f32⟩
  | 2 => ⟨S72x72, .f32⟩
  | 3 => ⟨S72, .f32⟩
  | 4 => ⟨S72, .f32⟩
  | 5 => ⟨S72, .f32⟩
  | 6 => ⟨S72, .f32⟩
  | 7 => ⟨S_, .f32⟩
  | 8 => ⟨S8x128, .f32⟩
  | 9 => ⟨S_, .f32⟩
  | 10 => ⟨S8x128, .f32⟩
  | 11 => ⟨S8x128, .f32⟩
  | 12 => ⟨S8x72, .f32⟩
  | 13 => ⟨S8x72, .f32⟩
  | 14 => ⟨S8x72, .f32⟩
  | 15 => ⟨S8x72, .f32⟩
  | 16 => ⟨S_, .f32⟩
  | 17 => ⟨S8x72, .f32⟩
  | 18 => ⟨S8x72, .f32⟩
  | 19 => ⟨S_, .f32⟩
  | 20 => ⟨S8x72, .f32⟩
  | 21 => ⟨S8x72, .f32⟩
  | 22 => ⟨S8x72, .f32⟩
  | 23 => ⟨S1x72, .f32⟩
  | 24 => ⟨S8x72, .f32⟩
  | 25 => ⟨S8x72, .f32⟩
  | 26 => ⟨S_, .f32⟩
  | 27 => ⟨S72, .f32⟩
  | 28 => ⟨S72, .f32⟩
  | 29 => ⟨S72, .f32⟩
  | 30 => ⟨S1x72, .f32⟩
  | 31 => ⟨S8x72, .f32⟩
  | 32 => ⟨S8x72, .f32⟩
  | 33 => ⟨S1x72, .f32⟩
  | 34 => ⟨S8x72, .f32⟩
  | 35 => ⟨S8x72, .f32⟩
  | 36 => ⟨S1x72, .f32⟩
  | 37 => ⟨S8x72, .f32⟩
  | 38 => ⟨S8x72, .f32⟩
  | 39 => ⟨S8x8x9, .f32⟩
  | 40 => ⟨S_, .f32⟩
  | 41 => ⟨S8x8, .f32⟩
  | 42 => ⟨S_, .f32⟩
  | 43 => ⟨S8x8, .f32⟩
  | 44 => ⟨S8x8, .f32⟩
  | 45 => ⟨S8x8x1, .f32⟩
  | 46 => ⟨S8x8x9, .f32⟩
  | 47 => ⟨S8x8x9, .f32⟩
  | 48 => ⟨S8x8x9, .f32⟩
  | 49 => ⟨S_, .f32⟩
  | 50 => ⟨S8x8, .f32⟩
  | 51 => ⟨S8x8x1, .f32⟩
  | 52 => ⟨S8x8x9, .f32⟩
  | 53 => ⟨S8x8x9, .f32⟩
  | 54 => ⟨S_, .i32⟩
  | 55 => ⟨S8x128x1x128, .f32⟩
  | 56 => ⟨S8x128x1x128, .f32⟩
  | 57 => ⟨S8x128x1x128, .f32⟩
  | 58 => ⟨S8x128x129x128, .f32⟩
  | 59 => ⟨S8x128x1x128, .f32⟩
  | 60 => ⟨S8x128x1x128, .f32⟩
  | 61 => ⟨S8x128x1x128, .f32⟩
  | 62 => ⟨S8x128x130x128, .f32⟩
  | 63 => ⟨S8x128x130x1, .f32⟩
  | 64 => ⟨S8x128x130x1, .f32⟩
  | 65 => ⟨S8x128x130x1, .f32⟩
  | 66 => ⟨S8x128x130x129, .f32⟩
  | 67 => ⟨S8x128x130x1, .f32⟩
  | 68 => ⟨S8x128x130x1, .f32⟩
  | 69 => ⟨S8x128x130x1, .f32⟩
  | 70 => ⟨S8x128x130x130, .f32⟩
  | 71 => ⟨S_, .f32⟩
  | 72 => ⟨S8x8x16x128x128, .f32⟩
  | 73 => ⟨S8x128x128x128, .f32⟩
  | 74 => ⟨S8x8x16x128x128, .f32⟩
  | 75 => ⟨S8x8x1, .f32⟩
  | 76 => ⟨S8x8, .f32⟩
  | 77 => ⟨S8x8x1x1x1, .f32⟩
  | 78 => ⟨S8x8x16x128x128, .f32⟩
  | 79 => ⟨S8x8x16x128x128, .f32⟩
  | 80 => ⟨S8x8x16x128x128, .f32⟩
  | 81 => ⟨S8x128x128x128, .f32⟩
  | 82 => ⟨S8x8x16x128x128, .f32⟩
  | 83 => ⟨S8x8x1, .f32⟩
  | 84 => ⟨S8x8, .f32⟩
  | 85 => ⟨S8x8x1x1x1, .f32⟩
  | 86 => ⟨S8x8x16x128x128, .f32⟩
  | 87 => ⟨S8x8x16x128x128, .f32⟩
  | 88 => ⟨S8x8x16x128x128, .f32⟩
  | 89 => ⟨S8x128x128x128, .f32⟩
  | 90 => ⟨S8x8x16x128x128, .f32⟩
  | 91 => ⟨S8x8x1, .f32⟩
  | 92 => ⟨S8x8, .f32⟩
  | 93 => ⟨S8x8x1x1x1, .f32⟩
  | 94 => ⟨S8x8x16x128x128, .f32⟩
  | 95 => ⟨S8x8x16x128x128, .f32⟩
  | 96 => ⟨S8x8x16x128x128, .f32⟩
  | 97 => ⟨S8x128x128x128, .f32⟩
  | 98 => ⟨S8x8x16x128x128, .f32⟩
  | 99 => ⟨S8x8x1, .f32⟩
  | 100 => ⟨S8x8, .f32⟩
  | 101 => ⟨S8x8x1x1x1, .f32⟩
  | 102 => ⟨S8x8x16x128x128, .f32⟩
  | 103 => ⟨S8x8x16x128x128, .f32⟩
  | 104 => ⟨S8x8x16x128x128, .f32⟩
  | 105 => ⟨S8x128x128x128, .f32⟩
  | 106 => ⟨S8x8x16x128x128, .f32⟩
  | 107 => ⟨S8x8x1, .f32⟩
  | 108 => ⟨S8x8, .f32⟩
  | 109 => ⟨S8x8x1x1x1, .f32⟩
  | 110 => ⟨S8x8x16x128x128, .f32⟩
  | 111 => ⟨S8x8x16x128x128, .f32⟩
  | 112 => ⟨S8x8x16x128x128, .f32⟩
  | 113 => ⟨S8x128x128x128, .f32⟩
  | 114 => ⟨S8x8x16x128x128, .f32⟩
  | 115 => ⟨S8x8x1, .f32⟩
  | 116 => ⟨S8x8, .f32⟩
  | 117 => ⟨S8x8x1x1x1, .f32⟩
  | 118 => ⟨S8x8x16x128x128, .f32⟩
  | 119 => ⟨S8x8x16x128x128, .f32⟩
  | 120 => ⟨S8x8x16x128x128, .f32⟩
  | 121 => ⟨S8x128x128x128, .f32⟩
  | 122 => ⟨S8x8x16x128x128, .f32⟩
  | 123 => ⟨S8x8x1, .f32⟩
  | 124 => ⟨S8x8, .f32⟩
  | 125 => ⟨S8x8x1x1x1, .f32⟩
  | 126 => ⟨S8x8x16x128x128, .f32⟩
  | 127 => ⟨S8x8x16x128x128, .f32⟩
  | _ => ⟨S8x128x128x128, .f32⟩

abbrev hbmTy0_1 (i : Nat) : BufTy := match i % 128 with
  | 0 => ⟨S8x8x16x128x128, .f32⟩
  | 1 => ⟨S8x128x128x128, .f32⟩
  | 2 => ⟨S8x8x16x128x128, .f32⟩
  | 3 => ⟨S8x8x1, .f32⟩
  | 4 => ⟨S8x8, .f32⟩
  | 5 => ⟨S8x8x1x1x1, .f32⟩
  | 6 => ⟨S8x8x16x128x128, .f32⟩
  | 7 => ⟨S8x8x16x128x128, .f32⟩
  | 8 => ⟨S8x8x16x128x128, .f32⟩
  | 9 => ⟨S8x128x128x128, .f32⟩
  | 10 => ⟨S8x8x16x128x128, .f32⟩
  | 11 => ⟨S8x8x1, .f32⟩
  | 12 => ⟨S8x8, .f32⟩
  | 13 => ⟨S8x8x1x1x1, .f32⟩
  | 14 => ⟨S8x8x16x128x128, .f32⟩
  | 15 => ⟨S8x8x16x128x128, .f32⟩
  | 16 => ⟨S8x8x16x128x128, .f32⟩
  | 17 => ⟨S8x128x128x128, .f32⟩
  | 18 => ⟨S8x128x128x128, .f32⟩
  | _ => ⟨S8x128x128x128, .f32⟩

abbrev hbmTy (i : Nat) : BufTy := match i / 128 with
  | 0 => hbmTy0_0 i
  | 1 => hbmTy0_1 i
  | _ => ⟨S8x128x128x128, .f32⟩

abbrev bufTy : (tb : Table) → Fin (tcTables nBuf tb) → BufTy
  | .hbm, ⟨i, _⟩ => hbmTy i
  | _, _ => ⟨S8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_v39 : Ref sig .tc := ⟨.hbm, 70, rfl⟩
abbrev main_cst_7 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩

abbrev nD : Nat := 1
abbrev τ : Topo := Topo.v7x

variable {F : FTy → Type} [FloatOps F]

class Facts₀ : Prop where
  reducesTo_S8x128x128x128_S8x128_d2_3 : S8x128x128x128.ReducesTo [2, 3] S8x128
  h_S_ : 0 < S_.numel
  bcast_S_S8x128 : S_.BroadcastsInDim S8x128 (![] : Fin 0 → Fin S8x128.rank)
  bcast_S_S8x72 : S_.BroadcastsInDim S8x72 (![] : Fin 0 → Fin S8x72.rank)
  bcast_S72_S1x72_1 : S72.BroadcastsInDim S1x72 (![1] : Fin 1 → Fin S1x72.rank)
  bcast_S1x72_S8x72_0_1 : S1x72.BroadcastsInDim S8x72 (![0, 1] : Fin 2 → Fin S8x72.rank)
  bcast_S_S72 : S_.BroadcastsInDim S72 (![] : Fin 0 → Fin S72.rank)
  shapeCasts_S8x72_S8x8x9 : S8x72.ShapeCasts S8x8x9
  reducesTo_S8x8x9_S8x8_d2 : S8x8x9.ReducesTo [2] S8x8
  bcast_S_S8x8 : S_.BroadcastsInDim S8x8 (![] : Fin 0 → Fin S8x8.rank)
  bcast_S8x8_S8x8x1_0_1 : S8x8.BroadcastsInDim S8x8x1 (![0, 1] : Fin 2 → Fin S8x8x1.rank)
  bcast_S8x8x1_S8x8x9_0_1_2 : S8x8x1.BroadcastsInDim S8x8x9 (![0, 1, 2] : Fin 3 → Fin S8x8x9.rank)
  slices_S8x128x128x128_S8x128x1x128_0_0_0_0 : S8x128x128x128.Slices ![0, 0, 0, 0] S8x128x1x128
  slices_S8x128x128x128_S8x128x1x128_0_0_1_0 : S8x128x128x128.Slices ![0, 0, 1, 0] S8x128x1x128
  concatenates_S8x128x1x128_S8x128x128x128_S8x128x129x128_d2 : Shape.Concatenates [S8x128x1x128, S8x128x128x128] S8x128x129x128 2
  slices_S8x128x129x128_S8x128x1x128_0_0_128_0 : S8x128x129x128.Slices ![0, 0, 128, 0] S8x128x1x128
  slices_S8x128x129x128_S8x128x1x128_0_0_127_0 : S8x128x129x128.Slices ![0, 0, 127, 0] S8x128x1x128
  concatenates_S8x128x129x128_S8x128x1x128_S8x128x130x128_d2 : Shape.Concatenates [S8x128x129x128, S8x128x1x128] S8x128x130x128 2
  slices_S8x128x130x128_S8x128x130x1_0_0_0_0 : S8x128x130x128.Slices ![0, 0, 0, 0] S8x128x130x1
  slices_S8x128x130x128_S8x128x130x1_0_0_0_1 : S8x128x130x128.Slices ![0, 0, 0, 1] S8x128x130x1
  concatenates_S8x128x130x1_S8x128x130x128_S8x128x130x129_d3 : Shape.Concatenates [S8x128x130x1, S8x128x130x128] S8x128x130x129 3
  slices_S8x128x130x129_S8x128x130x1_0_0_0_128 : S8x128x130x129.Slices ![0, 0, 0, 128] S8x128x130x1
  slices_S8x128x130x129_S8x128x130x1_0_0_0_127 : S8x128x130x129.Slices ![0, 0, 0, 127] S8x128x130x1
  concatenates_S8x128x130x129_S8x128x130x1_S8x128x130x130_d3 : Shape.Concatenates [S8x128x130x129, S8x128x130x1] S8x128x130x130 3
  bcast_S_S8x8x16x128x128 : S_.BroadcastsInDim S8x8x16x128x128 (![] : Fin 0 → Fin S8x8x16x128x128.rank)
  slices_S8x128x130x130_S8x128x128x128_0_0_0_0 : S8x128x130x130.Slices ![0, 0, 0, 0] S8x128x128x128
  shapeCasts_S8x128x128x128_S8x8x16x128x128 : S8x128x128x128.ShapeCasts S8x8x16x128x128
  slices_S8x8x9_S8x8x1_0_0_0 : S8x8x9.Slices ![0, 0, 0] S8x8x1
  shapeCasts_S8x8x1_S8x8 : S8x8x1.ShapeCasts S8x8
  bcast_S8x8_S8x8x1x1x1_0_1 : S8x8.BroadcastsInDim S8x8x1x1x1 (![0, 1] : Fin 2 → Fin S8x8x1x1x1.rank)
  bcast_S8x8x1x1x1_S8x8x16x128x128_0_1_2_3_4 : S8x8x1x1x1.BroadcastsInDim S8x8x16x128x128 (![0, 1, 2, 3, 4] : Fin 5 → Fin S8x8x16x128x128.rank)
  slices_S8x128x130x130_S8x128x128x128_0_0_0_1 : S8x128x130x130.Slices ![0, 0, 0, 1] S8x128x128x128
  slices_S8x8x9_S8x8x1_0_0_1 : S8x8x9.Slices ![0, 0, 1] S8x8x1
  slices_S8x128x130x130_S8x128x128x128_0_0_0_2 : S8x128x130x130.Slices ![0, 0, 0, 2] S8x128x128x128
  slices_S8x8x9_S8x8x1_0_0_2 : S8x8x9.Slices ![0, 0, 2] S8x8x1
  slices_S8x128x130x130_S8x128x128x128_0_0_1_0 : S8x128x130x130.Slices ![0, 0, 1, 0] S8x128x128x128
  slices_S8x8x9_S8x8x1_0_0_3 : S8x8x9.Slices ![0, 0, 3] S8x8x1
  slices_S8x128x130x130_S8x128x128x128_0_0_1_1 : S8x128x130x130.Slices ![0, 0, 1, 1] S8x128x128x128
  slices_S8x8x9_S8x8x1_0_0_4 : S8x8x9.Slices ![0, 0, 4] S8x8x1
  slices_S8x128x130x130_S8x128x128x128_0_0_1_2 : S8x128x130x130.Slices ![0, 0, 1, 2] S8x128x128x128
  slices_S8x8x9_S8x8x1_0_0_5 : S8x8x9.Slices ![0, 0, 5] S8x8x1
  slices_S8x128x130x130_S8x128x128x128_0_0_2_0 : S8x128x130x130.Slices ![0, 0, 2, 0] S8x128x128x128
  slices_S8x8x9_S8x8x1_0_0_6 : S8x8x9.Slices ![0, 0, 6] S8x8x1
  slices_S8x128x130x130_S8x128x128x128_0_0_2_1 : S8x128x130x130.Slices ![0, 0, 2, 1] S8x128x128x128
  slices_S8x8x9_S8x8x1_0_0_7 : S8x8x9.Slices ![0, 0, 7] S8x8x1
  slices_S8x128x130x130_S8x128x128x128_0_0_2_2 : S8x128x130x130.Slices ![0, 0, 2, 2] S8x128x128x128
  slices_S8x8x9_S8x8x1_0_0_8 : S8x8x9.Slices ![0, 0, 8] S8x8x1
  shapeCasts_S8x8x16x128x128_S8x128x128x128 : S8x8x16x128x128.ShapeCasts S8x128x128x128
  dot_S8x128_S72x128_S8x72_1_1_0_0_n_n_wf : DotDims.WF S8x128 S72x128 S8x72 [1] [1] [0] [0] [] []
  dot_S8x72_S72x72_S8x72_1_1_0_0_n_n_wf : DotDims.WF S8x72 S72x72 S8x72 [1] [1] [0] [0] [] []

variable [Facts₀]

def dot_S8x128_S72x128_S8x72_1_1_0_0_n_n : DotDims S8x128 S72x128 S8x72 where
  lhsContracting := [1]
  rhsContracting := [1]
  lhsNonContracting := [0]
  rhsNonContracting := [0]
  lhsBatch := []
  rhsBatch := []
  wf := dot_S8x128_S72x128_S8x72_1_1_0_0_n_n_wf
def dot_S8x72_S72x72_S8x72_1_1_0_0_n_n : DotDims S8x72 S72x72 S8x72 where
  lhsContracting := [1]
  rhsContracting := [1]
  lhsNonContracting := [0]
  rhsNonContracting := [0]
  lhsBatch := []
  rhsBatch := []
  wf := dot_S8x72_S72x72_S8x72_1_1_0_0_n_n_wf

class Facts : Prop extends Facts₀ where

variable [Facts]
-- ==== Proof.Spec.lean ====
/-
  The mathematics of the certificate, stated once over literal shapes and free of either program.

  Input x : [8, 128, 128, 128] (batch, channel, row, column).  The channels form 8 groups of 16.
  * pooled x (n, c) is the mean of channel c of image n over its 128 x 128 pixels, written as the double sum
    times 2^(-14) (the word 0x38800000).
  * filtChain turns the pooled means and the six parameter arrays into a [8, 8, 9] array of filter weights: two
    matrix products, a sigmoid gate, an affine normalisation and a softmax over the last axis.  Both programs apply
    this same chain of array operations, so it is carried as ONE function and never opened.
  * mir is the reflection of a padded coordinate 0 .. 129 onto 0 .. 127 (0 to 1, k to k - 1, 129 to 126); the padded
    image at (hp, wp) is x at (mir hp, mir wp).
  * low x f (n, c, h, w) is the nine-tap sum ((0 + P0 f0) + P1 f1) + .. + P8 f8, accumulated in this order, where
    tap k = 3 i + j reads the padded image at (h + i, w + j) and f_k = f (n, c / 16, k);  high = x - low.
-/
import Idealize.ShloMosaic.PureOps.Ideal
import Idealize.ShloMosaic.Lib.ValueIdx

noncomputable section

namespace Cert.Spec

open Idealize.ShloMosaic Idealize.ShloMosaic.ValueIdx

abbrev X4 : Shape := ⟨4, ![8, 128, 128, 128]⟩
abbrev P2 : Shape := ⟨2, ![8, 128]⟩
abbrev PT2 : Shape := ⟨2, ![128, 8]⟩
abbrev F3 : Shape := ⟨3, ![8, 8, 9]⟩
abbrev A72x128 : Shape := ⟨2, ![72, 128]⟩
abbrev A72x72 : Shape := ⟨2, ![72, 72]⟩
abbrev A72 : Shape := ⟨1, ![72]⟩
abbrev A8x72 : Shape := ⟨2, ![8, 72]⟩
abbrev A1x72 : Shape := ⟨2, ![1, 72]⟩
abbrev A8x8 : Shape := ⟨2, ![8, 8]⟩
abbrev A8x8x1 : Shape := ⟨3, ![8, 8, 1]⟩
abbrev A0 : Shape := ⟨0, ![]⟩

/-! ## The reflected coordinate -/

/-- Reflection of a padded coordinate onto the image: 0 to 1, k to k - 1 for 1 ≤ k ≤ 128, 129 to 126. -/
def mir (k : Nat) : Nat := if k = 0 then 1 else if k ≤ 128 then k - 1 else 126

theorem mir_lt (k : Nat) (h : k < 130) : mir k < 128 := by
  unfold mir; split
  · omega
  · split <;> omega

/-- The reflection as a map of coordinates. -/
def mirF (k : Fin 130) : Fin 128 := ⟨mir k.val, mir_lt k.val k.isLt⟩

/-- Tap k's row in the padded image: h + k / 3. -/
def tapH (h : Fin 128) (k : Fin 9) : Fin 130 := ⟨h.val + k.val / 3, by have := h.isLt; have := k.isLt; omega⟩
/-- Tap k's column in the padded image: w + k % 3. -/
def tapW (w : Fin 128) (k : Fin 9) : Fin 130 := ⟨w.val + k.val % 3, by have := w.isLt; have := k.isLt; omega⟩
/-- The group of a channel: c / 16. -/
def grp (c : Fin 128) : Fin 8 := ⟨c.val / 16, by have := c.isLt; omega⟩

/-! ## The nine-tap sum -/

/-- The float zero both programs start the accumulation from (never evaluated: the same word on both sides). -/
def z0 : EReal := Ideal.ofBits .f32 0x00000000#32

/-- Nine products added to z one after the other, in the order of the taps. -/
def acc9 (z : EReal) (T f : Fin 9 → EReal) : EReal :=
  ((((((((z + T 0 * f 0) + T 1 * f 1) + T 2 * f 2) + T 3 * f 3) + T 4 * f 4) + T 5 * f 5) + T 6 * f 6) + T 7 * f 7) + T 8 * f 8

/-- The low-pass part at (n, c, h, w): tap k is the reflected-padded image at (h + k / 3, w + k % 3) times the
    weight f (n, c / 16, k). -/
def lowAt (x : X4.Idx → EReal) (f : F3.Idx → EReal) (n : Fin 8) (c : Fin 128) (h w : Fin 128) : EReal :=
  acc9 z0 (fun k => x (ix4 n c (mirF (tapH h k)) (mirF (tapW w k)))) (fun k => f (ix3 n (grp c) k))

def low (x : X4.Idx → EReal) (f : F3.Idx → EReal) : X4.Idx → EReal :=
  fun j => lowAt x f (j 0) (j 1) (j 2) (j 3)

/-- The entrywise difference of two arrays. -/
def diff (x y : X4.Idx → EReal) : X4.Idx → EReal := fun j => x j - y j

/-- The high-pass part: the image less its low-pass part. -/
def high (x : X4.Idx → EReal) (f : F3.Idx → EReal) : X4.Idx → EReal :=
  diff x (low x f)

/-! ## The pooled mean -/

/-- The word 0x38800000, the float 2^(-14) = 1 / (128 * 128) (kept as its word). -/
def c14 : EReal := Ideal.ofBits .f32 0x38800000#32

/-- Mean of channel c of image n: the sum over rows of the sums over columns, times 2^(-14). -/
def pooled (x : X4.Idx → EReal) : P2.Idx → EReal :=
  fun j => (∑ h : Fin 128, ∑ w : Fin 128, x (ix4 (j 0) (j 1) h w)) * c14

/-- The same, channel-major ([128, 8]), as the first kernel writes it. -/
def pooledT (x : X4.Idx → EReal) : PT2.Idx → EReal :=
  fun j => (∑ h : Fin 128, ∑ w : Fin 128, x (ix4 (j 1) (j 0) h w)) * c14

/-! ## The shared chain from pooled means to filter weights -/

theorem bc_0_8x72 : A0.BroadcastsInDim A8x72 (![] : Fin 0 → Fin A8x72.rank) := by decide
theorem bc_72_1x72 : A72.BroadcastsInDim A1x72 (![1] : Fin 1 → Fin A1x72.rank) := by decide
theorem bc_1x72_8x72 : A1x72.BroadcastsInDim A8x72 (![0, 1] : Fin 2 → Fin A8x72.rank) := by decide
theorem bc_0_72 : A0.BroadcastsInDim A72 (![] : Fin 0 → Fin A72.rank) := by decide
theorem sc_8x72_8x8x9 : A8x72.ShapeCasts F3 := by decide
theorem red_8x8x9_8x8 : F3.ReducesTo [2] A8x8 := by decide
theorem pos_0 : 0 < A0.numel := by decide
theorem bc_0_8x8 : A0.BroadcastsInDim A8x8 (![] : Fin 0 → Fin A8x8.rank) := by decide
theorem bc_8x8_8x8x1 : A8x8.BroadcastsInDim A8x8x1 (![0, 1] : Fin 2 → Fin A8x8x1.rank) := by decide
theorem bc_8x8x1_8x8x9 : A8x8x1.BroadcastsInDim F3 (![0, 1, 2] : Fin 3 → Fin F3.rank) := by decide
theorem dotA_wf : DotDims.WF P2 A72x128 A8x72 [1] [1] [0] [0] [] [] := by decide
theorem dotB_wf : DotDims.WF A8x72 A72x72 A8x72 [1] [1] [0] [0] [] [] := by decide

/-- [8, 128] x [72, 128] to [8, 72], contracting the second axis of both. -/
def dotA : DotDims P2 A72x128 A8x72 where
  lhsContracting := [1]
  rhsContracting := [1]
  lhsNonContracting := [0]
  rhsNonContracting := [0]
  lhsBatch := []
  rhsBatch := []
  wf := dotA_wf
/-- [8, 72] x [72, 72] to [8, 72], contracting the second axis of both. -/
def dotB : DotDims A8x72 A72x72 A8x72 where
  lhsContracting := [1]
  rhsContracting := [1]
  lhsNonContracting := [0]
  rhsNonContracting := [0]
  lhsBatch := []
  rhsBatch := []
  wf := dotB_wf

/-- A [72] parameter as a row of every batch entry: [72] to [1, 72] to [8, 72]. -/
def rowOf (v : FVec Ideal A72 .f32) : FVec Ideal A8x72 .f32 :=
  broadcastInDim A8x72 ![0, 1] bc_1x72_8x72 (broadcastInDim A1x72 ![1] bc_72_1x72 v)

/-- From the pooled means to the filter weights: lf = pooled · w_convᵀ; gated lf · 1 / (1 + exp (-(lf · w_gateᵀ)));
    normalised ((lf - mean) · rsqrt (var + ε)) · gamma + beta; reshaped [8, 8, 9]; softmax over the last axis
    (exp (v - max v) / Σ exp (v - max v)).  The operations are spelt exactly as both programs print them. -/
def filtChain (p : FVec Ideal P2 .f32) (wc : FVec Ideal A72x128 .f32) (wg : FVec Ideal A72x72 .f32)
    (gamma beta mean var : FVec Ideal A72 .f32) : FVec Ideal F3 .f32 :=
  let lf : FVec Ideal A8x72 .f32 := Host.dotGeneral dotA none p wc
  let gate : FVec Ideal A8x72 .f32 := Host.dotGeneral dotB none lf wg
  let one : FVec Ideal A8x72 .f32 := broadcastInDim A8x72 ![] bc_0_8x72 (constant A0 .f32 0x3F800000#32)
  let sig : FVec Ideal A8x72 .f32 := Host.divf one (addf one (Host.exp (Host.negf gate)))
  let gated : FVec Ideal A8x72 .f32 := mulf lf sig
  let inv : FVec Ideal A72 .f32 := Host.rsqrt (addf var (broadcastInDim A72 ![] bc_0_72 (constant A0 .f32 0x3727C5AC#32)))
  let bn : FVec Ideal A8x72 .f32 := addf (mulf (mulf (subf gated (rowOf mean)) (rowOf inv)) (rowOf gamma)) (rowOf beta)
  let v : FVec Ideal F3 .f32 := shapeCast F3 bn sc_8x72_8x8x9
  let mx : FVec Ideal A8x8 .f32 := maximumf (broadcastInDim A8x8 ![] bc_0_8x8 (constant A0 .f32 0xFF800000#32))
      (Host.reduce FloatOps.maximumf v (constant A0 .f32 0xFF800000#32) red_8x8x9_8x8 pos_0)
  let e : FVec Ideal F3 .f32 := Host.exp (subf v (broadcastInDim F3 ![0, 1, 2] bc_8x8x1_8x8x9 (broadcastInDim A8x8x1 ![0, 1] bc_8x8_8x8x1 mx)))
  let s : FVec Ideal A8x8 .f32 := Host.reduceAdd e (constant A0 .f32 0x00000000#32) red_8x8x9_8x8 pos_0
  Host.divf e (broadcastInDim F3 ![0, 1, 2] bc_8x8x1_8x8x9 (broadcastInDim A8x8x1 ![0, 1] bc_8x8_8x8x1 s))

end Cert.Spec

end
-- ==== Proof.KPool.lean ====
/-
  The first region's result array.

  Region 0 runs the pooling kernel at 8 grid points; point t loads the block of channels 16 t .. 16 t + 15 (all images,
  all pixels) and writes back the [16, 8] block (rows 16 t .. 16 t + 15) of the [128, 8] result: at (c, n) the sum over
  the rows of the sums over the columns of channel 16 t + c of image n, times 2^(-14).  The 8 blocks tile the result,
  so after the region the result array is the channel-major pooled means of the image array as the region found it.
-/
import proofs.«128193_j26018911879615_1_alg».proof.Proof.Gen.KernelIdeal.Frame
import proofs.«128193_j26018911879615_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KPool

open Cert.KernelIdeal Cert.KernelIdeal.Gen Idealize.ShloMosaic Idealize.ShloMosaic.TcCoe Idealize.ShloMosaic.ValueIdx Idealize.SL.Sem
open Idealize.ShloMosaic.Pipeline (Dat Cfg Window)

-- the TensorCore's buffer contents when region 0 is entered
variable (V : (c : Dev nD) → (b : Ref sig .tc) → Buf (Elt Ideal) ((c : Thread nD τ).loc b))

/-! ## The payload at an index -/

/-- The sum over the columns: the reduction over the last axis, at (n, c, h), is the sum over w of the block at (n, c, h, w). -/
theorem sumCols (x0 : Vec Ideal S8x16x128x128 .f32) (n : Fin 8) (c : Fin 16) (h : Fin 128) :
    multiReduction (F := Ideal) .add [3] S8x16x128 x0 0x00000000#32 reduces_S8x16x128x128_S8x16x128 (.inl rfl) rfl (ix3 n c h)
      = ∑ w : Fin 128, x0 (ix4 n c h w) := by
  refine (Ideal.multiReduction_add_single x0 _ reduces_S8x16x128x128_S8x16x128 (.inl rfl) rfl (ix3 n c h)).trans ?_
  refine Finset.sum_congr rfl fun w _ => congrArg x0 ?_
  funext a; apply Fin.ext
  match a with
  | ⟨0, _⟩ => rfl
  | ⟨1, _⟩ => rfl
  | ⟨2, _⟩ => rfl
  | ⟨3, _⟩ => rfl

/-- The sum over the rows: the reduction over the last axis of a [8, 16, 128] array, at (n, c), is the sum over h. -/
theorem sumRows (x1 : Vec Ideal S8x16x128 .f32) (n : Fin 8) (c : Fin 16) :
    multiReduction (F := Ideal) .add [2] S8x16 x1 0x00000000#32 reduces_S8x16x128_S8x16 (.inl rfl) rfl (ix2 n c)
      = ∑ h : Fin 128, x1 (ix3 n c h) := by
  refine (Ideal.multiReduction_add_single x1 _ reduces_S8x16x128_S8x16 (.inl rfl) rfl (ix2 n c)).trans ?_
  refine Finset.sum_congr rfl fun h _ => congrArg x1 ?_
  funext a; apply Fin.ext
  match a with
  | ⟨0, _⟩ => rfl
  | ⟨1, _⟩ => rfl
  | ⟨2, _⟩ => rfl

/-- What the body stores, at (c, n): the sum over the rows of the sums over the columns of channel c of image n of the
    loaded block, times 2^(-14). -/
theorem pay_apply (x0 : Vec Ideal S8x16x128x128 .f32) (c : Fin 16) (n : Fin 8) :
    k0_pay1 (F := Ideal) x0 (ix2 c n) = (∑ h : Fin 128, ∑ w : Fin 128, x0 (ix4 n c h w)) * Cert.Spec.c14 := by
  unfold k0_pay1
  refine (transpose_apply [1, 0] _ transposes_S8x16_p1_0_S16x8 (ix2 c n) (ix2 n c) ?_).trans ?_
  · intro b
    match b with
    | ⟨0, _⟩ => rfl
    | ⟨1, _⟩ => rfl
  refine congrArg₂ (· * ·) ?_ rfl
  refine (sumRows _ n c).trans ?_
  exact Finset.sum_congr rfl fun h _ => sumCols x0 n c h

/-- When the loaded block is channels 16 q .. 16 q + 15 of an array A, what the body stores at j is the pooled mean of
    A at row 16 q + j0, column j1 of the channel-major result. -/
theorem pay_at (x0 : Vec Ideal S8x16x128x128 .f32) (A : S8x128x128x128.Idx → EReal) (q : Nat)
    (j : S16x8.Idx) (i : S128x8.Idx)
    (hi0 : (i 0).val = q * 16 + (j 0).val) (hi1 : (i 1).val = (j 1).val)
    (hx : ∀ (n : Fin 8) (c : Fin 16) (h w : Fin 128) (k : S8x128x128x128.Idx), (k 0).val = n.val →
      (k 1).val = q * 16 + c.val → (k 2).val = h.val → (k 3).val = w.val → x0 (ix4 n c h w) = A k) :
    k0_pay1 (F := Ideal) x0 j = Cert.Spec.pooledT A i := by
  obtain ⟨c, n, rfl⟩ : ∃ (c : Fin 16) (n : Fin 8), j = ix2 c n := ⟨j 0, j 1, eq_ix2 j⟩
  obtain ⟨r, n', rfl⟩ : ∃ (r : Fin 128) (n' : Fin 8), i = ix2 r n' := ⟨i 0, i 1, eq_ix2 i⟩
  obtain rfl : n' = n := Fin.ext hi1
  refine (pay_apply x0 c n').trans ?_
  show _ = (∑ h : Fin 128, ∑ w : Fin 128, A (ix4 n' r h w)) * Cert.Spec.c14
  refine congrArg (· * Cert.Spec.c14) ?_
  exact Finset.sum_congr rfl fun h _ => Finset.sum_congr rfl fun w _ => hx n' c h w _ rfl hi0 rfl rfl

/-! ## From the blocks to the array -/

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- The index maps over the grid: the image window sits at block 0 on every axis but the channel axis, where it moves
    with the result window's row block; the result window sits at column block 0 and its row block is at most 7. -/
theorem idx_facts : ∀ t : Fin cfg0.N, win0_0.index t (0 : Fin 4) = 0
    ∧ win0_0.index t (1 : Fin 4) = win0_1.index t (0 : Fin 2)
    ∧ win0_0.index t (2 : Fin 4) = 0
    ∧ win0_0.index t (3 : Fin 4) = 0
    ∧ win0_1.index t (1 : Fin 2) = 0
    ∧ win0_1.index t (0 : Fin 2) ≤ 7 :=
  (by decide +kernel : ∀ t : Fin grid0.N, _)

/-- Every row block is some point's. -/
theorem idx_onto : ∀ q : Fin 8, ∃ t : Fin cfg0.N, win0_1.index t = ![q.val, 0] :=
  (by decide +kernel : ∀ q : Fin 8, ∃ t : Fin grid0.N, win0_1.index t = ![q.val, 0])

/-- What point t writes back is block t of the channel-major pooled means of the image array. -/
theorem flushed_eq (c : Dev nD) (t : Fin cfg0.N) :
    (dat0 (F := Ideal) V c).flushed 1 t = ((cfg0.win 1).blk t).view.read (Elt Ideal) (Cert.Spec.pooledT (V c main_arg0)) := by
  show (cfg0.win 1).cut (grid0.coords t) ((dat0 V c).after 1 t) = _
  rw [after0_1]
  unfold out0_1
  rw [View.canon_unit_zero zeros2]
  simp only [View.ld_unit_zero (S := S8x16x128x128) zeros4]
  obtain ⟨e0, e1, e2, e3, e4, e5⟩ := idx_facts t
  funext j
  refine pay_at (iblk0 V c 0 t) (V c main_arg0) (win0_1.index t (0 : Fin 2)) ((cfg0.win 1).xinj (grid0.coords t) j)
    (((cfg0.win 1).blk t).view.emb j) ?_ ?_ ?_
  · show win0_1.index t (0 : Fin 2) * 16 + 1 * (j 0).val = win0_1.index t (0 : Fin 2) * 16 + (j 0).val
    omega
  · show win0_1.index t (1 : Fin 2) * 8 + 1 * (j 1).val = (j 1).val
    omega
  · intro n c' h w k hk0 hk1 hk2 hk3
    show V c main_arg0 (((cfg0.win 0).blk t).view.emb (ix4 n c' h w)) = V c main_arg0 k
    refine congrArg (V c main_arg0) (funext fun a => Fin.ext ?_)
    match a with
    | ⟨0, _⟩ => show win0_0.index t (0 : Fin 4) * 8 + 1 * n.val = (k 0).val; omega
    | ⟨1, _⟩ => show win0_0.index t (1 : Fin 4) * 16 + 1 * c'.val = (k 1).val; omega
    | ⟨2, _⟩ => show win0_0.index t (2 : Fin 4) * 128 + 1 * h.val = (k 2).val; omega
    | ⟨3, _⟩ => show win0_0.index t (3 : Fin 4) * 128 + 1 * w.val = (k 3).val; omega

/-- An index of the result array is in point t's block iff each coordinate is in the block's range on its axis. -/
theorem mem_blk (t : Fin cfg0.N) (i : S128x8.Idx) :
    i ∈ ((cfg0.win 1).blk t).view.set ↔ ∀ a : Fin 2, win0_1.index t a * S16x8.size a ≤ (i a).val ∧ (i a).val < win0_1.index t a * S16x8.size a + S16x8.size a := by
  show i ∈ ((View.whole main_v0).slice (win0_1.rect t)).set ↔ _
  rw [View.set_slice_whole, Rect.mem_set_unit]
  exact Iff.rfl

/-- The 8 row blocks cover the result array: row r is in block r / 16. -/
theorem cover (i : S128x8.Idx) : ∃ t : Fin cfg0.N, (cfg0.win 1).flush t = true ∧ i ∈ ((cfg0.win 1).blk t).view.set := by
  have hi0 : (i 0).val < 128 := (i 0).isLt
  have hi1 : (i 1).val < 8 := (i 1).isLt
  obtain ⟨t, ht⟩ := idx_onto ⟨(i 0).val / 16, by omega⟩
  have q0 : win0_1.index t (0 : Fin 2) = (i 0).val / 16 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 16 ≤ (i 0).val ∧ (i 0).val < win0_1.index t (0 : Fin 2) * 16 + 16; omega
  | ⟨1, _⟩ => show win0_1.index t (1 : Fin 2) * 8 ≤ (i 1).val ∧ (i 1).val < win0_1.index t (1 : Fin 2) * 8 + 8; omega

/-- After region 0 its result array holds the channel-major pooled means of the image array at entry. -/
theorem pool_arr (c : Dev nD) :
    ((dat0 (F := Ideal) V c).arrAt 1 cfg0.N : S128x8.Idx → EReal) = Cert.Spec.pooledT (V c main_arg0) :=
  (dat0 (F := Ideal) V c).arrAt_eq_of_cover 1 (Cert.Spec.pooledT (V c main_arg0)) (fun t _ => flushed_eq V c t) cover

end Cert.KernelIdeal.KPool

end
-- ==== Proof.KHost.lean ====
/-
  The host stretch between the two regions, read as values.

  Between the regions @main transposes the first region's [128, 8] result to [8, 128], applies the chain from pooled
  means to filter weights (two matrix products, the gate, the normalisation, the softmax), and reshapes the [8, 8, 9]
  weights to [8, 8, 1, 9].  None of these operations writes an argument array, and region 0 writes only its result
  array, so when region 1 is entered the arguments are as launched and the weight array is that chain of the
  transposed result of region 0.
-/
import proofs.«128193_j26018911879615_1_alg».proof.Proof.Gen.KernelIdeal.Frame
import proofs.«128193_j26018911879615_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KHost

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- Region 1 finds the image array as launched. -/
theorem V2_arg0 (c : Dev nD) : V2 (F := Ideal) m ρ c main_arg0 = m ((c.tc : Thread nD τ).loc main_arg0) := by
  -- no operation of the stretch writes the image array, and region 0 only reads it
  show StableHlo.after hostOps1 (W1 m ρ c) (Proc.devRef .tc main_arg0) = _
  after_results_simp
  exact ((W1_arr m ρ c 0).trans (((dat0 (V0 m ρ) c).arrAt_in 0 rfl _).trans (A_eq0 (V0 m ρ) c 0))).trans rfl

/-- Region 1 finds the weight array at the chain of the transposed result of region 0 and the parameter arrays as
    launched, reshaped to [8, 8, 1, 9]. -/
theorem V2_v38 (c : Dev nD) :
    (V2 (F := Ideal) m ρ c main_v38 : S8x8x1x9.Idx → EReal)
      = shapeCast S8x8x1x9
          (Cert.Spec.filtChain
            (transpose S8x128 [1, 0] ((dat0 (F := Ideal) (V0 m ρ) c).arrAt 1 cfg0.N : S128x8.Idx → EReal) transposes_S128x8_S8x128_1_0)
            (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6)))
          shapeCasts_S8x8x9_S8x8x1x9 := by
  -- at region 0's exit: its result array is what the region left, the six parameter arrays are as launched
  have h0 : W1 m ρ c (Proc.devRef .tc main_v0) = (dat0 (F := Ideal) (V0 m ρ) c).arrAt 1 cfg0.N := W1_arr m ρ c 1
  have h1 : W1 m ρ c (Proc.devRef .tc main_arg1) = m ((c.tc : Thread nD τ).loc main_arg1) := (W1_of_ne m ρ c main_arg1 (by decide)).trans rfl
  have h2 : W1 m ρ c (Proc.devRef .tc main_arg2) = m ((c.tc : Thread nD τ).loc main_arg2) := (W1_of_ne m ρ c main_arg2 (by decide)).trans rfl
  have h3 : W1 m ρ c (Proc.devRef .tc main_arg3) = m ((c.tc : Thread nD τ).loc main_arg3) := (W1_of_ne m ρ c main_arg3 (by decide)).trans rfl
  have h4 : W1 m ρ c (Proc.devRef .tc main_arg4) = m ((c.tc : Thread nD τ).loc main_arg4) := (W1_of_ne m ρ c main_arg4 (by decide)).trans rfl
  have h5 : W1 m ρ c (Proc.devRef .tc main_arg5) = m ((c.tc : Thread nD τ).loc main_arg5) := (W1_of_ne m ρ c main_arg5 (by decide)).trans rfl
  have h6 : W1 m ρ c (Proc.devRef .tc main_arg6) = m ((c.tc : Thread nD τ).loc main_arg6) := (W1_of_ne m ρ c main_arg6 (by decide)).trans rfl
  -- the stretch's operations, composed, over those seven arrays
  show StableHlo.after hostOps1 (W1 m ρ c) (Proc.devRef .tc main_v38) = _
  after_results_simp
  rw [h0, h1, h2, h3, h4, h5, h6]
  -- the composed term is the chain, operation for operation; the seven arrays stay opaque
  generalize (dat0 (F := Ideal) (V0 m ρ) c).arrAt 1 cfg0.N = p
  generalize m ((c.tc : Thread nD τ).loc main_arg1) = a1
  generalize m ((c.tc : Thread nD τ).loc main_arg2) = a2
  generalize m ((c.tc : Thread nD τ).loc main_arg3) = a3
  generalize m ((c.tc : Thread nD τ).loc main_arg4) = a4
  generalize m ((c.tc : Thread nD τ).loc main_arg5) = a5
  generalize m ((c.tc : Thread nD τ).loc main_arg6) = a6
  unfold Cert.Spec.filtChain Cert.Spec.rowOf
  rfl

end Cert.KernelIdeal.KHost

end
-- ==== Proof.KConvPay.lean ====
/-
  The second kernel's arithmetic at one index of its block.

  The body loads a block xb : [1, 16, 128, 128] of the image and the nine weights fb : [1, 1, 1, 9] of its (image, group),
  pads the block by reflection inside the vector registers (row 1 above, row 126 below, then column 1 to the left and
  column 126 to the right of the row-padded block), and adds the nine shifted copies of the padded block, each times
  its weight, to a zero block, in the order of the taps.  Read at (c, h, w): tap k = 3 i + j reads the padded block at
  (h + i, w + j), that is the block at the reflected coordinates, so the sum is the specification's nine-tap sum over
  the block; the second result is the block less that sum.
-/
import proofs.«128193_j26018911879615_1_alg».proof.Proof.Gen.KernelIdeal.Skeleton
import proofs.«128193_j26018911879615_1_alg».proof.Proof.Spec
import Idealize.ShloMosaic.Lib.Pipeline.Value
import Idealize.ShloMosaic.Lib.ValueIdx
import Idealize.ShloMosaic.Lib.ValueLayout

noncomputable section

namespace Cert.KernelIdeal.KConvPay

open Cert.KernelIdeal Cert.KernelIdeal.Gen Idealize.ShloMosaic Idealize.ShloMosaic.ValueIdx

/-- The nine-tap sum over a block: what the specification's low-pass part is on one (image, group). -/
def blockLow (v0 : Vec Ideal S1x16x128x128 .f32) (v8 : Vec Ideal S1x1x1x9 .f32) (c : Fin 16) (h w : Fin 128) : EReal :=
  Cert.Spec.acc9 Cert.Spec.z0
    (fun k => v0 (ix4 (0 : Fin 1) c (Cert.Spec.mirF (Cert.Spec.tapH h k)) (Cert.Spec.mirF (Cert.Spec.tapW w k))))
    (fun k => v8 (ix4 (0 : Fin 1) (0 : Fin 1) (0 : Fin 1) k))

/-! ## The reflection at the three kinds of padded coordinate -/

private theorem mirF_zero (k : Fin 130) (hk : k.val = 0) : Cert.Spec.mirF k = (⟨1, by omega⟩ : Fin 128) := by
  apply Fin.ext
  show Cert.Spec.mir k.val = 1
  unfold Cert.Spec.mir
  rw [if_pos hk]

private theorem mirF_mid (k : Fin 130) (h1 : 1 ≤ k.val) (h2 : k.val ≤ 128) :
    Cert.Spec.mirF k = (⟨k.val - 1, by omega⟩ : Fin 128) := by
  apply Fin.ext
  show Cert.Spec.mir k.val = k.val - 1
  unfold Cert.Spec.mir
  rw [if_neg (by omega), if_pos h2]

private theorem mirF_top (k : Fin 130) (hk : k.val = 129) : Cert.Spec.mirF k = (⟨126, by omega⟩ : Fin 128) := by
  apply Fin.ext
  show Cert.Spec.mir k.val = 126
  unfold Cert.Spec.mir
  rw [if_neg (by omega), if_neg (by omega)]

/-! ## The block without its unit axis, and the block padded along the rows -/

/-- The block with the unit axis dropped, at (c, h, w), is the block at (0, c, h, w). -/
private theorem pay4_apply (v0 : Vec Ideal S1x16x128x128 .f32) (c : Fin 16) (h w : Fin 128) :
    k1_pay4 (F := Ideal) v0 (ix3 c h w) = v0 (ix4 (0 : Fin 1) c h w) :=
  shapeCast_1abc_abc_apply v0 _ c h w

/-- The block padded along the rows: row 1 above, the block, row 126 below. -/
private def rowPad (v0 : Vec Ideal S1x16x128x128 .f32) : FVec Ideal S16x130x128 .f32 :=
  concatenate S16x130x128 1
    [⟨S16x1x128, extractStridedSlice S16x1x128 ![0, 1, 0] (k1_pay4 v0) slices_S16x128x128_o0_1_0_S16x1x128⟩,
     ⟨S16x128x128, k1_pay4 v0⟩,
     ⟨S16x1x128, extractStridedSlice S16x1x128 ![0, 126, 0] (k1_pay4 v0) slices_S16x128x128_o0_126_0_S16x1x128⟩]
    concatenates_S16x1x128_S16x128x128_S16x1x128_S16x130x128_d1

/-- The row-padded block at (c, hp, w) is the block at the reflected row. -/
private theorem rowPad_apply (v0 : Vec Ideal S1x16x128x128 .f32) (c : Fin 16) (hp : Fin 130) (w : Fin 128) :
    rowPad v0 (ix3 c hp w) = v0 (ix4 (0 : Fin 1) c (Cert.Spec.mirF hp) w) := by
  have hlt := hp.isLt
  unfold rowPad
  by_cases h0 : hp.val = 0
  · -- the first piece: row 1 of the block
    refine (concatenate_apply_piece (1 : Fin S16x130x128.rank) _ _ (ix3 c hp w) 0 (by show (0 : Nat) < 3; omega) S16x1x128 _ rfl rfl 0 rfl
      (ix3 c (0 : Fin 1) w) ?_ ?_).trans ?_
    · intro b
      match b with
      | ⟨0, _⟩ => exact fun _ => rfl
      | ⟨1, _⟩ => exact fun hb => absurd rfl hb
      | ⟨2, _⟩ => exact fun _ => rfl
    · show 0 + 0 = hp.val
      omega
    · rw [slice3_axis1_apply 1 (k1_pay4 v0) _ c (0 : Fin 1) w (⟨1, by omega⟩ : Fin 128) rfl, pay4_apply, mirF_zero hp h0]
  · by_cases h129 : hp.val = 129
    · -- the third piece: row 126 of the block
      refine (concatenate_apply_piece (1 : Fin S16x130x128.rank) _ _ (ix3 c hp w) 2 (by show (2 : Nat) < 3; omega) S16x1x128 _ rfl rfl 129 rfl
        (ix3 c (0 : Fin 1) w) ?_ ?_).trans ?_
      · intro b
        match b with
        | ⟨0, _⟩ => exact fun _ => rfl
        | ⟨1, _⟩ => exact fun hb => absurd rfl hb
        | ⟨2, _⟩ => exact fun _ => rfl
      · show 129 + 0 = hp.val
        omega
      · rw [slice3_axis1_apply 126 (k1_pay4 v0) _ c (0 : Fin 1) w (⟨126, by omega⟩ : Fin 128) rfl, pay4_apply, mirF_top hp h129]
    · -- the second piece: the block itself, one row up
      refine (concatenate_apply_piece (1 : Fin S16x130x128.rank) _ _ (ix3 c hp w) 1 (by show (1 : Nat) < 3; omega) S16x128x128 _ rfl rfl 1 rfl
        (ix3 c (⟨hp.val - 1, by omega⟩ : Fin 128) w) ?_ ?_).trans ?_
      · intro b
        match b with
        | ⟨0, _⟩ => exact fun _ => rfl
        | ⟨1, _⟩ => exact fun hb => absurd rfl hb
        | ⟨2, _⟩ => exact fun _ => rfl
      · show 1 + (hp.val - 1) = hp.val
        omega
      · rw [pay4_apply, mirF_mid hp (by omega) (by omega)]

/-! ## The block padded along the rows and the columns -/

/-- The padded block is the row-padded block with its column 1 to the left and its column 126 to the right. -/
private theorem pay5_eq (v0 : Vec Ideal S1x16x128x128 .f32) :
    k1_pay5 (F := Ideal) v0 = concatenate S16x130x130 2
      [⟨S16x130x1, extractStridedSlice S16x130x1 ![0, 0, 1] (rowPad v0) slices_S16x130x128_o0_0_1_S16x130x1⟩,
       ⟨S16x130x128, rowPad v0⟩,
       ⟨S16x130x1, extractStridedSlice S16x130x1 ![0, 0, 126] (rowPad v0) slices_S16x130x128_o0_0_126_S16x130x1⟩]
      concatenates_S16x130x1_S16x130x128_S16x130x1_S16x130x130_d2 := rfl

/-- A column of the row-padded block, cut out as a [16, 130, 1] array. -/
private theorem colSlice_apply (v0 : Vec Ideal S1x16x128x128 .f32) (o : Nat)
    (hs : S16x130x128.Slices ![0, 0, o] S16x130x1) (c : Fin 16) (hp : Fin 130) (k : Fin 128) (hk : k.val = o) :
    extractStridedSlice S16x130x1 ![0, 0, o] (rowPad v0) hs (ix3 c hp (0 : Fin 1)) = rowPad v0 (ix3 c hp k) :=
  extractStridedSlice_apply _ _ _ _ _ (fun ax => by
    match ax with
    | ⟨0, _⟩ => exact (Nat.zero_add _).symm
    | ⟨1, _⟩ => exact (Nat.zero_add _).symm
    | ⟨2, _⟩ => exact hk)

/-- The padded block at (c, hp, wp) is the block at the reflected row and column. -/
private theorem padded_apply (v0 : Vec Ideal S1x16x128x128 .f32) (c : Fin 16) (hp wp : Fin 130) :
    k1_pay5 (F := Ideal) v0 (ix3 c hp wp) = v0 (ix4 (0 : Fin 1) c (Cert.Spec.mirF hp) (Cert.Spec.mirF wp)) := by
  have hlt := wp.isLt
  rw [pay5_eq]
  by_cases h0 : wp.val = 0
  · -- the first piece: column 1 of the row-padded block
    refine (concatenate_apply_piece (2 : Fin S16x130x130.rank) _ _ (ix3 c hp wp) 0 (by show (0 : Nat) < 3; omega) S16x130x1 _ rfl rfl 0 rfl
      (ix3 c hp (0 : Fin 1)) ?_ ?_).trans ?_
    · intro b
      match b with
      | ⟨0, _⟩ => exact fun _ => rfl
      | ⟨1, _⟩ => exact fun _ => rfl
      | ⟨2, _⟩ => exact fun hb => absurd rfl hb
    · show 0 + 0 = wp.val
      omega
    · rw [colSlice_apply v0 1 _ c hp (⟨1, by omega⟩ : Fin 128) rfl, rowPad_apply, mirF_zero wp h0]
  · by_cases h129 : wp.val = 129
    · -- the third piece: column 126 of the row-padded block
      refine (concatenate_apply_piece (2 : Fin S16x130x130.rank) _ _ (ix3 c hp wp) 2 (by show (2 : Nat) < 3; omega) S16x130x1 _ rfl rfl 129 rfl
        (ix3 c hp (0 : Fin 1)) ?_ ?_).trans ?_
      · intro b
        match b with
        | ⟨0, _⟩ => exact fun _ => rfl
        | ⟨1, _⟩ => exact fun _ => rfl
        | ⟨2, _⟩ => exact fun hb => absurd rfl hb
      · show 129 + 0 = wp.val
        omega
      · rw [colSlice_apply v0 126 _ c hp (⟨126, by omega⟩ : Fin 128) rfl, rowPad_apply, mirF_top wp h129]
    · -- the second piece: the row-padded block itself, one column to the left
      refine (concatenate_apply_piece (2 : Fin S16x130x130.rank) _ _ (ix3 c hp wp) 1 (by show (1 : Nat) < 3; omega) S16x130x128 _ rfl rfl 1 rfl
        (ix3 c hp (⟨wp.val - 1, by omega⟩ : Fin 128)) ?_ ?_).trans ?_
      · intro b
        match b with
        | ⟨0, _⟩ => exact fun _ => rfl
        | ⟨1, _⟩ => exact fun _ => rfl
        | ⟨2, _⟩ => exact fun hb => absurd rfl hb
      · show 1 + (wp.val - 1) = wp.val
        omega
      · rw [rowPad_apply, mirF_mid wp (by omega) (by omega)]

/-! ## One tap and one weight -/

/-- Tap k of the padded block at (c, h, w): the block at the reflections of (h + k / 3, w + k % 3). -/
private theorem tap_apply (v0 : Vec Ideal S1x16x128x128 .f32) (c : Fin 16) (h w : Fin 128) (k : Fin 9)
    (hs : S16x130x130.Slices ![0, k.val / 3, k.val % 3] S16x128x128) :
    extractStridedSlice S16x128x128 ![0, k.val / 3, k.val % 3] (k1_pay5 (F := Ideal) v0) hs (ix3 c h w)
      = v0 (ix4 (0 : Fin 1) c (Cert.Spec.mirF (Cert.Spec.tapH h k)) (Cert.Spec.mirF (Cert.Spec.tapW w k))) := by
  refine (extractStridedSlice_apply _ _ hs (ix3 c h w) (ix3 c (Cert.Spec.tapH h k) (Cert.Spec.tapW w k)) (fun ax => ?_)).trans
    (padded_apply v0 c _ _)
  match ax with
  | ⟨0, _⟩ => exact (Nat.zero_add _).symm
  | ⟨1, _⟩ => exact Nat.add_comm _ _
  | ⟨2, _⟩ => exact Nat.add_comm _ _

/-- Weight k as the body reads it: entry k of the [1, 1, 1, 9] block. -/
private theorem weight_apply (v8 : Vec Ideal S1x1x1x9 .f32) (k : Fin 9) (hs : S9.Slices ![k.val] S1) :
    extractAt ![0] (extractStridedSlice S1 ![k.val] (k1_pay6 (F := Ideal) v8) hs) inpos_S1_p0
      = v8 (ix4 (0 : Fin 1) (0 : Fin 1) (0 : Fin 1) k) := by
  unfold extractAt
  refine (extractStridedSlice_apply _ _ hs _ (ix1 k) (fun ax => ?_)).trans ?_
  · match ax with
    | ⟨0, _⟩ => exact (Nat.add_zero _).symm
  · unfold k1_pay6
    refine shapeCast_apply v8 _ _ _ ?_
    rw [Shape.rowMajor_val_four, Shape.rowMajor_val_one]
    show ((0 * 1 + 0) * 1 + 0) * 9 + k.val = k.val
    omega

/-! ## The three payloads -/

/-- The accumulated sum %64 at (c, h, w). -/
theorem pay1_apply (v0 : Vec Ideal S1x16x128x128 .f32) (v8 : Vec Ideal S1x1x1x9 .f32) (c : Fin 16) (h w : Fin 128) :
    k1_pay1 (F := Ideal) (k1_pay5 v0) (k1_pay6 v8) (k1_pay7 v0 v8) (k1_pay8 v0) (k1_pay9 v8) (ix3 c h w) = blockLow v0 v8 c h w := by
  simp only [blockLow, Cert.Spec.acc9]
  rw [← tap_apply v0 c h w 0 slices_S16x130x130_o0_0_0_S16x128x128,
    ← tap_apply v0 c h w 1 slices_S16x130x130_o0_0_1_S16x128x128,
    ← tap_apply v0 c h w 2 slices_S16x130x130_o0_0_2_S16x128x128,
    ← tap_apply v0 c h w 3 slices_S16x130x130_o0_1_0_S16x128x128,
    ← tap_apply v0 c h w 4 slices_S16x130x130_o0_1_1_S16x128x128,
    ← tap_apply v0 c h w 5 slices_S16x130x130_o0_1_2_S16x128x128,
    ← tap_apply v0 c h w 6 slices_S16x130x130_o0_2_0_S16x128x128,
    ← tap_apply v0 c h w 7 slices_S16x130x130_o0_2_1_S16x128x128,
    ← tap_apply v0 c h w 8 slices_S16x130x130_o0_2_2_S16x128x128,
    ← weight_apply v8 0 slices_S9_o0_S1, ← weight_apply v8 1 slices_S9_o1_S1, ← weight_apply v8 2 slices_S9_o2_S1,
    ← weight_apply v8 3 slices_S9_o3_S1, ← weight_apply v8 4 slices_S9_o4_S1, ← weight_apply v8 5 slices_S9_o5_S1,
    ← weight_apply v8 6 slices_S9_o6_S1, ← weight_apply v8 7 slices_S9_o7_S1, ← weight_apply v8 8 slices_S9_o8_S1]
  rfl

/-- What the body stores to the first result block, at (0, c, h, w). -/
theorem pay2_apply (v0 : Vec Ideal S1x16x128x128 .f32) (v8 : Vec Ideal S1x1x1x9 .f32) (c : Fin 16) (h w : Fin 128) :
    k1_pay2 (F := Ideal) (k1_pay5 v0) (k1_pay6 v8) (k1_pay7 v0 v8) (k1_pay8 v0) (k1_pay9 v8) (ix4 (0 : Fin 1) c h w) = blockLow v0 v8 c h w := by
  unfold k1_pay2
  exact (shapeCast_abc_1abc_apply _ _ (0 : Fin 1) c h w).trans (pay1_apply v0 v8 c h w)

/-- What the body stores to the second result block, at (0, c, h, w): the block less the sum. -/
theorem pay3_apply (v0 : Vec Ideal S1x16x128x128 .f32) (v8 : Vec Ideal S1x1x1x9 .f32) (c : Fin 16) (h w : Fin 128) :
    k1_pay3 (F := Ideal) (k1_pay4 v0) (k1_pay5 v0) (k1_pay6 v8) (k1_pay7 v0 v8) (k1_pay8 v0) (k1_pay9 v8) (ix4 (0 : Fin 1) c h w)
      = v0 (ix4 (0 : Fin 1) c h w) - blockLow v0 v8 c h w := by
  unfold k1_pay3
  refine (shapeCast_abc_1abc_apply _ _ (0 : Fin 1) c h w).trans ?_
  rw [subf_apply, pay4_apply, pay1_apply]

end Cert.KernelIdeal.KConvPay

end
-- ==== Proof.KConvArr.lean ====
/-
  The second region's two result arrays.

  Region 1 runs the convolution kernel at the 64 grid points (n, g); the point loads the block (image n, channels
  16 g .. 16 g + 15) of the image array and the nine weights of (n, g), and writes back the blocks of the two results
  at the same place: the nine-tap sum over the block and the block less it.  A block's coordinate is
  index x size + the coordinate inside the block, so at array index (n, 16 g + c, h, w) the first result is the
  specification's low-pass part of the image array with weights f (n, g, k) = the weight array at (n, g, 0, k), and the
  second its high-pass part.  The 64 blocks tile each result.
-/
import proofs.«128193_j26018911879615_1_alg».proof.Proof.Gen.KernelIdeal.Frame
import proofs.«128193_j26018911879615_1_alg».proof.Proof.Spec
import proofs.«128193_j26018911879615_1_alg».proof.Proof.KConvPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KConvArr

open Cert.KernelIdeal Cert.KernelIdeal.Gen Idealize.ShloMosaic Idealize.ShloMosaic.TcCoe Idealize.ShloMosaic.ValueIdx Idealize.SL.Sem
open Idealize.ShloMosaic.Pipeline (Dat Cfg Window)

-- the TensorCore's buffer contents when region 1 is entered
variable (V : (c : Dev nD) → (b : Ref sig .tc) → Buf (Elt Ideal) ((c : Thread nD τ).loc b))

/-- The weights as the specification indexes them: (n, g, k) reads the [8, 8, 1, 9] weight array at (n, g, 0, k). -/
def wts (c : Dev nD) : Cert.Spec.F3.Idx → EReal :=
  fun j => (V c main_v38 : S8x8x1x9.Idx → EReal) (ix4 (j 0) (j 1) (0 : Fin 1) (j 2))

/-- The four zero offsets of a whole-block access, as the constant function. -/
private theorem zero_offsets : (![0, 0, 0, 0] : Fin 4 → Nat) = fun _ => 0 := funext fun a => by fin_cases a <;> rfl

/-- The index maps at the 64 grid points: the image block, the weight block and the second
    result's block sit at the first result's block index, which is (n, g, 0, 0) with n, g ≤ 7. -/
private theorem index_maps : ∀ t : Fin cfg1.N,
    win1_0.index t (0 : Fin 4) = win1_2.index t (0 : Fin 4) ∧ win1_0.index t (1 : Fin 4) = win1_2.index t (1 : Fin 4)
    ∧ win1_0.index t (2 : Fin 4) = 0 ∧ win1_0.index t (3 : Fin 4) = 0
    ∧ win1_1.index t (0 : Fin 4) = win1_2.index t (0 : Fin 4) ∧ win1_1.index t (1 : Fin 4) = win1_2.index t (1 : Fin 4)
    ∧ win1_1.index t (2 : Fin 4) = 0 ∧ win1_1.index t (3 : Fin 4) = 0
    ∧ win1_3.index t (0 : Fin 4) = win1_2.index t (0 : Fin 4) ∧ win1_3.index t (1 : Fin 4) = win1_2.index t (1 : Fin 4)
    ∧ win1_3.index t (2 : Fin 4) = 0 ∧ win1_3.index t (3 : Fin 4) = 0
    ∧ win1_2.index t (0 : Fin 4) ≤ 7 ∧ win1_2.index t (1 : Fin 4) ≤ 7 ∧ win1_2.index t (2 : Fin 4) = 0 ∧ win1_2.index t (3 : Fin 4) = 0 :=
  (by decide +kernel : ∀ t : Fin grid1.N, _)

/-- Every block index (n, g, 0, 0) is some grid point's. -/
private theorem index_onto : ∀ (q0 q1 : Fin 8), ∃ t : Fin cfg1.N, win1_2.index t = ![q0.val, q1.val, 0, 0] :=
  (by decide +kernel : ∀ (q0 q1 : Fin 8), ∃ t : Fin grid1.N, win1_2.index t = ![q0.val, q1.val, 0, 0])

/-- A block v0 that is the image array x at (p + ·, 16 q + ·, ·, ·) and a block v8 that is the weight array f at
    (p, q, ·, ·): the nine-tap sum over the block at (c', h, w) is the low-pass part of x at (p, 16 q + c', h, w), whose
    channel group is q. -/
private theorem blockLow_low (x : S8x128x128x128.Idx → EReal) (f : S8x8x1x9.Idx → EReal)
    (v0 : Vec Ideal S1x16x128x128 .f32) (v8 : Vec Ideal S1x1x1x9 .f32) (p q : Nat)
    (h0 : ∀ (y : S1x16x128x128.Idx) (k : S8x128x128x128.Idx), (k 0).val = p + (y 0).val → (k 1).val = 16 * q + (y 1).val →
      (k 2).val = (y 2).val → (k 3).val = (y 3).val → v0 y = x k)
    (h8 : ∀ (y : S1x1x1x9.Idx) (k : S8x8x1x9.Idx), (k 0).val = p → (k 1).val = q → (k 3).val = (y 3).val → v8 y = f k)
    (n : Fin 8) (cc : Fin 128) (c' : Fin 16) (h w : Fin 128) (e0 : n.val = p) (e1 : cc.val = 16 * q + c'.val) :
    KConvPay.blockLow v0 v8 c' h w
      = Cert.Spec.lowAt x (fun j => f (ix4 (j 0) (j 1) (0 : Fin 1) (j 2))) n cc h w := by
  unfold KConvPay.blockLow Cert.Spec.lowAt
  congr 1 <;> funext t
  · refine h0 _ _ ?_ e1 rfl rfl
    show n.val = p + ((0 : Fin 1) : Nat)
    have : ((0 : Fin 1) : Nat) = 0 := rfl
    omega
  · refine h8 _ _ e0 ?_ rfl
    show cc.val / 16 = q
    have := c'.isLt
    omega

/-- So the first stored value at block index y is the low-pass part at the array index k the block coordinate names. -/
private theorem pay2_low (x : S8x128x128x128.Idx → EReal) (f : S8x8x1x9.Idx → EReal)
    (v0 : Vec Ideal S1x16x128x128 .f32) (v8 : Vec Ideal S1x1x1x9 .f32) (p q : Nat)
    (h0 : ∀ (y : S1x16x128x128.Idx) (k : S8x128x128x128.Idx), (k 0).val = p + (y 0).val → (k 1).val = 16 * q + (y 1).val →
      (k 2).val = (y 2).val → (k 3).val = (y 3).val → v0 y = x k)
    (h8 : ∀ (y : S1x1x1x9.Idx) (k : S8x8x1x9.Idx), (k 0).val = p → (k 1).val = q → (k 3).val = (y 3).val → v8 y = f k)
    (y : S1x16x128x128.Idx) (k : S8x128x128x128.Idx)
    (hk0 : (k 0).val = p + (y 0).val) (hk1 : (k 1).val = 16 * q + (y 1).val) (hk2 : (k 2).val = (y 2).val) (hk3 : (k 3).val = (y 3).val) :
    k1_pay2 (F := Ideal) (k1_pay5 v0) (k1_pay6 v8) (k1_pay7 v0 v8) (k1_pay8 v0) (k1_pay9 v8) y
      = Cert.Spec.low x (fun j => f (ix4 (j 0) (j 1) (0 : Fin 1) (j 2))) k := by
  obtain ⟨a, c', h, w, rfl⟩ : ∃ (a : Fin 1) (c' : Fin 16) (h w : Fin 128), y = ix4 a c' h w := ⟨y 0, y 1, y 2, y 3, eq_ix4 y⟩
  obtain ⟨n, cc, h', w', rfl⟩ : ∃ (n : Fin 8) (cc h' w' : Fin 128), k = ix4 n cc h' w' := ⟨k 0, k 1, k 2, k 3, eq_ix4 k⟩
  have e0 : n.val = p + a.val := hk0
  have e1 : cc.val = 16 * q + c'.val := hk1
  obtain rfl : h' = h := Fin.ext hk2
  obtain rfl : w' = w := Fin.ext hk3
  obtain rfl : a = 0 := Subsingleton.elim _ _
  rw [KConvPay.pay2_apply]
  exact blockLow_low x f v0 v8 p q h0 h8 n cc c' h' w' (by have : ((0 : Fin 1) : Nat) = 0 := rfl; omega) e1

/-- And the second stored value is the image less it: the high-pass part. -/
private theorem pay3_high (x : S8x128x128x128.Idx → EReal) (f : S8x8x1x9.Idx → EReal)
    (v0 : Vec Ideal S1x16x128x128 .f32) (v8 : Vec Ideal S1x1x1x9 .f32) (p q : Nat)
    (h0 : ∀ (y : S1x16x128x128.Idx) (k : S8x128x128x128.Idx), (k 0).val = p + (y 0).val → (k 1).val = 16 * q + (y 1).val →
      (k 2).val = (y 2).val → (k 3).val = (y 3).val → v0 y = x k)
    (h8 : ∀ (y : S1x1x1x9.Idx) (k : S8x8x1x9.Idx), (k 0).val = p → (k 1).val = q → (k 3).val = (y 3).val → v8 y = f k)
    (y : S1x16x128x128.Idx) (k : S8x128x128x128.Idx)
    (hk0 : (k 0).val = p + (y 0).val) (hk1 : (k 1).val = 16 * q + (y 1).val) (hk2 : (k 2).val = (y 2).val) (hk3 : (k 3).val = (y 3).val) :
    k1_pay3 (F := Ideal) (k1_pay4 v0) (k1_pay5 v0) (k1_pay6 v8) (k1_pay7 v0 v8) (k1_pay8 v0) (k1_pay9 v8) y
      = Cert.Spec.high x (fun j => f (ix4 (j 0) (j 1) (0 : Fin 1) (j 2))) k := by
  have hx : v0 y = x k := h0 y k hk0 hk1 hk2 hk3
  obtain ⟨a, c', h, w, rfl⟩ : ∃ (a : Fin 1) (c' : Fin 16) (h w : Fin 128), y = ix4 a c' h w := ⟨y 0, y 1, y 2, y 3, eq_ix4 y⟩
  obtain ⟨n, cc, h', w', rfl⟩ : ∃ (n : Fin 8) (cc h' w' : Fin 128), k = ix4 n cc h' w' := ⟨k 0, k 1, k 2, k 3, eq_ix4 k⟩
  have e0 : n.val = p + a.val := hk0
  have e1 : cc.val = 16 * q + c'.val := hk1
  obtain rfl : h' = h := Fin.ext hk2
  obtain rfl : w' = w := Fin.ext hk3
  obtain rfl : a = 0 := Subsingleton.elim _ _
  rw [KConvPay.pay3_apply, hx]
  show _ - _ = x _ - Cert.Spec.lowAt x _ n cc h' w'
  rw [blockLow_low x f v0 v8 p q h0 h8 n cc c' h' w' (by have : ((0 : Fin 1) : Nat) = 0 := rfl; omega) e1]

/-- The image window's block at a grid point is the image array at (n + ·, 16 g + ·, ·, ·), (n, g, 0, 0) the point's
    block index: a block's coordinate is index x size + the coordinate inside the block. -/
private theorem image_block (c : Dev nD) (t : Fin cfg1.N) (y : S1x16x128x128.Idx) (k : S8x128x128x128.Idx)
    (hk0 : (k 0).val = win1_2.index t (0 : Fin 4) + (y 0).val) (hk1 : (k 1).val = 16 * win1_2.index t (1 : Fin 4) + (y 1).val)
    (hk2 : (k 2).val = (y 2).val) (hk3 : (k 3).val = (y 3).val) :
    (iblk1 (F := Ideal) V c 0 t : Vec Ideal S1x16x128x128 .f32) y = (V c main_arg0 : S8x128x128x128.Idx → EReal) k := by
  obtain ⟨e0, e1, e2, e3, -⟩ := index_maps t
  unfold iblk1
  rw [View.read_apply]
  show V c main_arg0 _ = V c main_arg0 _
  congr 1
  funext a
  apply Fin.ext
  match a with
  | ⟨0, _⟩ => show win1_0.index t (0 : Fin 4) * 1 + 1 * (y 0).val = (k 0).val; omega
  | ⟨1, _⟩ => show win1_0.index t (1 : Fin 4) * 16 + 1 * (y 1).val = (k 1).val; omega
  | ⟨2, _⟩ => show win1_0.index t (2 : Fin 4) * 128 + 1 * (y 2).val = (k 2).val; omega
  | ⟨3, _⟩ => show win1_0.index t (3 : Fin 4) * 128 + 1 * (y 3).val = (k 3).val; omega

/-- The weight window's block at a grid point is the weight array at (n, g, ·, ·). -/
private theorem weight_block (c : Dev nD) (t : Fin cfg1.N) (y : S1x1x1x9.Idx) (k : S8x8x1x9.Idx)
    (hk0 : (k 0).val = win1_2.index t (0 : Fin 4)) (hk1 : (k 1).val = win1_2.index t (1 : Fin 4))
    (hk3 : (k 3).val = (y 3).val) :
    (iblk1 (F := Ideal) V c 1 t : Vec Ideal S1x1x1x9 .f32) y = (V c main_v38 : S8x8x1x9.Idx → EReal) k := by
  obtain ⟨-, -, -, -, e0, e1, e2, e3, -⟩ := index_maps t
  have y0 : (y 0).val = 0 := by have : (y 0).val < 1 := (y 0).isLt; omega
  have y1 : (y 1).val = 0 := by have : (y 1).val < 1 := (y 1).isLt; omega
  have y2 : (y 2).val = 0 := by have : (y 2).val < 1 := (y 2).isLt; omega
  have k2 : (k 2).val = 0 := by have : (k 2).val < 1 := (k 2).isLt; omega
  unfold iblk1
  rw [View.read_apply]
  show V c main_v38 _ = V c main_v38 _
  congr 1
  funext a
  apply Fin.ext
  match a with
  | ⟨0, _⟩ => show win1_1.index t (0 : Fin 4) * 1 + 1 * (y 0).val = (k 0).val; omega
  | ⟨1, _⟩ => show win1_1.index t (1 : Fin 4) * 1 + 1 * (y 1).val = (k 1).val; omega
  | ⟨2, _⟩ => show win1_1.index t (2 : Fin 4) * 1 + 1 * (y 2).val = (k 2).val; omega
  | ⟨3, _⟩ => show win1_1.index t (3 : Fin 4) * 9 + 1 * (y 3).val = (k 3).val; omega

/-- What a grid point writes back to the first result is its block of the low-pass part of the image array. -/
private theorem flushed_low (c : Dev nD) (t : Fin cfg1.N) :
    (dat1 (F := Ideal) V c).flushed 2 t
      = ((cfg1.win 2).blk t).view.read (Elt Ideal) (Cert.Spec.low (V c main_arg0) (wts V c)) := by
  show (cfg1.win 2).cut (grid1.coords t) ((dat1 V c).after 2 t) = _
  rw [after1_2]
  unfold out1_2
  rw [View.canon_unit_zero zero_offsets]
  simp only [View.ld_unit_zero (S := S1x16x128x128) zero_offsets, View.ld_unit_zero (S := S1x1x1x9) zero_offsets]
  obtain ⟨-, -, -, -, -, -, -, -, -, -, -, -, b0, b1, z2, z3⟩ := index_maps t
  funext j
  refine pay2_low (V c main_arg0) (V c main_v38) (iblk1 V c 0 t) (iblk1 V c 1 t) (win1_2.index t (0 : Fin 4)) (win1_2.index t (1 : Fin 4))
    (fun y k a0 a1 a2 a3 => image_block V c t y k a0 a1 a2 a3) (fun y k a0 a1 a3 => weight_block V c t y k a0 a1 a3)
    ((cfg1.win 2).xinj (grid1.coords t) j) (((cfg1.win 2).blk t).view.emb j) ?_ ?_ ?_ ?_
  · show win1_2.index t (0 : Fin 4) * 1 + 1 * (j 0).val = win1_2.index t (0 : Fin 4) + (j 0).val; omega
  · show win1_2.index t (1 : Fin 4) * 16 + 1 * (j 1).val = 16 * win1_2.index t (1 : Fin 4) + (j 1).val; omega
  · show win1_2.index t (2 : Fin 4) * 128 + 1 * (j 2).val = (j 2).val; omega
  · show win1_2.index t (3 : Fin 4) * 128 + 1 * (j 3).val = (j 3).val; omega

/-- What it writes back to the second result is its block of the high-pass part. -/
private theorem flushed_high (c : Dev nD) (t : Fin cfg1.N) :
    (dat1 (F := Ideal) V c).flushed 3 t
      = ((cfg1.win 3).blk t).view.read (Elt Ideal) (Cert.Spec.high (V c main_arg0) (wts V c)) := by
  show (cfg1.win 3).cut (grid1.coords t) ((dat1 V c).after 3 t) = _
  rw [after1_3]
  unfold out1_3
  rw [View.canon_unit_zero zero_offsets]
  simp only [View.ld_unit_zero (S := S1x16x128x128) zero_offsets, View.ld_unit_zero (S := S1x1x1x9) zero_offsets]
  obtain ⟨-, -, -, -, -, -, -, -, e0, e1, e2, e3, b0, b1, z2, z3⟩ := index_maps t
  funext j
  refine pay3_high (V c main_arg0) (V c main_v38) (iblk1 V c 0 t) (iblk1 V c 1 t) (win1_2.index t (0 : Fin 4)) (win1_2.index t (1 : Fin 4))
    (fun y k a0 a1 a2 a3 => image_block V c t y k a0 a1 a2 a3) (fun y k a0 a1 a3 => weight_block V c t y k a0 a1 a3)
    ((cfg1.win 3).xinj (grid1.coords t) j) (((cfg1.win 3).blk t).view.emb j) ?_ ?_ ?_ ?_
  · show win1_3.index t (0 : Fin 4) * 1 + 1 * (j 0).val = win1_2.index t (0 : Fin 4) + (j 0).val; omega
  · show win1_3.index t (1 : Fin 4) * 16 + 1 * (j 1).val = 16 * win1_2.index t (1 : Fin 4) + (j 1).val; omega
  · show win1_3.index t (2 : Fin 4) * 128 + 1 * (j 2).val = (j 2).val; omega
  · show win1_3.index t (3 : Fin 4) * 128 + 1 * (j 3).val = (j 3).val; omega

/-- An index of the first result is in a grid point's block iff each coordinate is in the block's range on its axis. -/
private theorem mem_block_low (t : Fin cfg1.N) (i : S8x128x128x128.Idx) :
    i ∈ ((cfg1.win 2).blk t).view.set ↔ ∀ a : Fin 4, win1_2.index t a * S1x16x128x128.size a ≤ (i a).val
      ∧ (i a).val < win1_2.index t a * S1x16x128x128.size a + S1x16x128x128.size a := by
  show i ∈ ((View.whole main_v39_0).slice (win1_2.rect t)).set ↔ _
  rw [View.set_slice_whole, Rect.mem_set_unit]
  exact Iff.rfl

/-- The same for the second result. -/
private theorem mem_block_high (t : Fin cfg1.N) (i : S8x128x128x128.Idx) :
    i ∈ ((cfg1.win 3).blk t).view.set ↔ ∀ a : Fin 4, win1_3.index t a * S1x16x128x128.size a ≤ (i a).val
      ∧ (i a).val < win1_3.index t a * S1x16x128x128.size a + S1x16x128x128.size a := by
  show i ∈ ((View.whole main_v39_1).slice (win1_3.rect t)).set ↔ _
  rw [View.set_slice_whole, Rect.mem_set_unit]
  exact Iff.rfl

/-- The 64 blocks tile the first result: (n, c, h, w) lies in the block of the point with block index (n, c / 16, 0, 0). -/
private theorem cover_low (i : S8x128x128x128.Idx) :
    ∃ t : Fin cfg1.N, (cfg1.win 2).flush t = true ∧ i ∈ ((cfg1.win 2).blk t).view.set := by
  have hi0 : (i 0).val < 8 := (i 0).isLt
  have hi1 : (i 1).val < 128 := (i 1).isLt
  have hi2 : (i 2).val < 128 := (i 2).isLt
  have hi3 : (i 3).val < 128 := (i 3).isLt
  obtain ⟨t, ht⟩ := index_onto ⟨(i 0).val, hi0⟩ ⟨(i 1).val / 16, by omega⟩
  have q0 : win1_2.index t (0 : Fin 4) = (i 0).val := congrFun ht 0
  have q1 : win1_2.index t (1 : Fin 4) = (i 1).val / 16 := congrFun ht 1
  have q2 : win1_2.index t (2 : Fin 4) = 0 := congrFun ht 2
  have q3 : win1_2.index t (3 : Fin 4) = 0 := congrFun ht 3
  refine ⟨t, flush1_2 t, ?_⟩
  rw [mem_block_low]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 16 ≤ (i 1).val ∧ (i 1).val < win1_2.index t (1 : Fin 4) * 16 + 16; omega
  | ⟨2, _⟩ => show win1_2.index t (2 : Fin 4) * 128 ≤ (i 2).val ∧ (i 2).val < win1_2.index t (2 : Fin 4) * 128 + 128; omega
  | ⟨3, _⟩ => show win1_2.index t (3 : Fin 4) * 128 ≤ (i 3).val ∧ (i 3).val < win1_2.index t (3 : Fin 4) * 128 + 128; omega

/-- And the second. -/
private theorem cover_high (i : S8x128x128x128.Idx) :
    ∃ t : Fin cfg1.N, (cfg1.win 3).flush t = true ∧ i ∈ ((cfg1.win 3).blk t).view.set := by
  have hi0 : (i 0).val < 8 := (i 0).isLt
  have hi1 : (i 1).val < 128 := (i 1).isLt
  have hi2 : (i 2).val < 128 := (i 2).isLt
  have hi3 : (i 3).val < 128 := (i 3).isLt
  obtain ⟨t, ht⟩ := index_onto ⟨(i 0).val, hi0⟩ ⟨(i 1).val / 16, by omega⟩
  obtain ⟨-, -, -, -, -, -, -, -, e0, e1, e2, e3, -⟩ := index_maps t
  have q0 : win1_2.index t (0 : Fin 4) = (i 0).val := congrFun ht 0
  have q1 : win1_2.index t (1 : Fin 4) = (i 1).val / 16 := congrFun ht 1
  refine ⟨t, flush1_3 t, ?_⟩
  rw [mem_block_high]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 16 ≤ (i 1).val ∧ (i 1).val < win1_3.index t (1 : Fin 4) * 16 + 16; omega
  | ⟨2, _⟩ => show win1_3.index t (2 : Fin 4) * 128 ≤ (i 2).val ∧ (i 2).val < win1_3.index t (2 : Fin 4) * 128 + 128; omega
  | ⟨3, _⟩ => show win1_3.index t (3 : Fin 4) * 128 ≤ (i 3).val ∧ (i 3).val < win1_3.index t (3 : Fin 4) * 128 + 128; omega

/-- After region 1 its first result array is the low-pass part of the image array at entry. -/
theorem low_arr (c : Dev nD) :
    ((dat1 (F := Ideal) V c).arrAt 2 cfg1.N : S8x128x128x128.Idx → EReal) = Cert.Spec.low (V c main_arg0) (wts V c) :=
  (dat1 (F := Ideal) V c).arrAt_eq_of_cover 2 (Cert.Spec.low (V c main_arg0) (wts V c)) (fun t _ => flushed_low V c t) cover_low

/-- After region 1 its second result array is the high-pass part of the image array at entry. -/
theorem high_arr (c : Dev nD) :
    ((dat1 (F := Ideal) V c).arrAt 3 cfg1.N : S8x128x128x128.Idx → EReal) = Cert.Spec.high (V c main_arg0) (wts V c) :=
  (dat1 (F := Ideal) V c).arrAt_eq_of_cover 3 (Cert.Spec.high (V c main_arg0) (wts V c)) (fun t _ => flushed_high V c t) cover_high

end Cert.KernelIdeal.KConvArr

end
-- ==== Proof.PoolLaw.lean ====
/-
  The one law that joins the two spellings of the pooled mean.

  The kernel sums a channel's pixels over the columns and then over the rows and multiplies by the float 2^(-14); the
  reference sums over both axes at once, from the initial value 0, and divides by the float 16384.  On the extended
  reals addition is commutative and associative, so the double sum is the sum over the pairs; 0 + s = s; and division
  by the real 16384 is multiplication by its reciprocal, which is the dyadic 2^(-14) exactly.  No finiteness is used.
-/
import proofs.«128193_j26018911879615_1_alg».proof.Proof.Spec
import Idealize.ShloMosaic.PureOps.Ideal.Laws
import Idealize.ShloMosaic.Lib.IdealHost
import Idealize.ShloMosaic.Lib.Pipeline.Value

noncomputable section

namespace Cert.Spec

open Idealize.ShloMosaic Idealize.ShloMosaic.ValueIdx

/-- The word 0x46800000 denotes the real 16384 = 2^14. -/
private theorem ofBits_16384 : Ideal.ofBits .f32 0x46800000#32 = ((16384 : ℝ) : EReal) := by
  simp [Ideal.ofBits, Ideal.ieee, -EReal.coe_mul]; norm_num

/-- The word 0x38800000 denotes the real 1 / 16384 = 2^(-14). -/
private theorem c14_eq : c14 = ((1 / 16384 : ℝ) : EReal) := by
  unfold c14
  simp [Ideal.ofBits, Ideal.ieee, -EReal.coe_mul]; norm_num

/-- Dropping the row and column coordinates of (n, c, h, w) leaves (n, c). -/
private theorem drop_ix4 (h' : X4.ReducesTo [2, 3] P2) (n : Fin 8) (c hh ww : Fin 128) :
    h'.drop (ix4 n c hh ww) = ix2 n c := by
  funext b
  apply Fin.ext
  match b with
  | ⟨0, _⟩ => exact Shape.ReducesTo.drop_apply_val_of_eq h' _ 0 0
  | ⟨1, _⟩ => exact Shape.ReducesTo.drop_apply_val_of_eq h' _ 1 1

/-- An index that drops to (n, c) is (n, c, h, w) for its own row h and column w. -/
private theorem eq_ix4_of_drop (h' : X4.ReducesTo [2, 3] P2) (n : Fin 8) (c : Fin 128) (i : X4.Idx)
    (hi : h'.drop i = ix2 n c) : i = ix4 n c (i 2) (i 3) := by
  have h0 : (i 0).val = n.val := by
    rw [← Shape.ReducesTo.drop_apply_val_of_eq h' i 0 0, hi]
  have h1 : (i 1).val = c.val := by
    rw [← Shape.ReducesTo.drop_apply_val_of_eq h' i 1 1, hi]
  funext a
  match a with
  | ⟨0, _⟩ => exact Fin.ext h0
  | ⟨1, _⟩ => exact Fin.ext h1
  | ⟨2, _⟩ => rfl
  | ⟨3, _⟩ => rfl

/-- The indices that drop to (n, c) are the (n, c, h, w), one for each pair (h, w): the sum over them is the sum over
    the rows of the sums over the columns. -/
private theorem sum_drop (x : X4.Idx → EReal) (h' : X4.ReducesTo [2, 3] P2) (n : Fin 8) (c : Fin 128) :
    ∑ i ∈ Finset.univ.filter (fun i => h'.drop i = ix2 n c), x i
      = ∑ hh : Fin 128, ∑ ww : Fin 128, x (ix4 n c hh ww) := by
  rw [← Fintype.sum_prod_type' (f := fun hh ww => x (ix4 n c hh ww))]
  refine Finset.sum_nbij' (fun i => ((i 2 : Fin 128), (i 3 : Fin 128))) (fun p => ix4 n c p.1 p.2) ?_ ?_ ?_ ?_ ?_
  · intro i _; exact Finset.mem_univ _
  · intro p _; exact Finset.mem_filter.2 ⟨Finset.mem_univ _, drop_ix4 h' n c p.1 p.2⟩
  · intro i hi; exact (eq_ix4_of_drop h' n c i (Finset.mem_filter.1 hi).2).symm
  · intro p _; rfl
  · intro i hi; exact congrArg x (eq_ix4_of_drop h' n c i (Finset.mem_filter.1 hi).2)

/-- The reference's mean (sum over rows and columns at once from 0, divided by 16384) is the specification's. -/
theorem pool_law (x : X4.Idx → EReal) (h' : X4.ReducesTo [2, 3] P2) (hu : 0 < A0.numel)
    (hb : A0.BroadcastsInDim P2 (![] : Fin 0 → Fin P2.rank)) :
    Host.divf (F := Ideal) (φ := .f32) (Host.reduceAdd (F := Ideal) (φ := .f32) x (constant A0 .f32 0x00000000#32) h' hu)
        (broadcastInDim P2 ![] hb (constant (F := Ideal) A0 .f32 0x46800000#32))
      = pooled x := by
  funext j
  obtain ⟨n, c, rfl⟩ : ∃ (n : Fin 8) (c : Fin 128), j = ix2 n c := ⟨j 0, j 1, eq_ix2 j⟩
  rw [hostDivf_apply, broadcastInDim_scalar_apply, constant_apply, hostReduceAdd_apply, constant_apply,
    Ideal.ofBits_zero_f32, ofBits_16384, Ideal.div_coe (by norm_num : (16384 : ℝ) ≠ 0)]
  unfold Ideal.hostReduceAdd pooled
  rw [zero_add, sum_drop x h' n c, c14_eq]

/-- The channel-major pooled means, transposed, are the pooled means. -/
theorem transpose_pooledT (x : X4.Idx → EReal) (h : PT2.Transposes [1, 0] P2) :
    transpose P2 [1, 0] (pooledT x) h = pooled x := by
  funext j
  rw [transpose_apply [1, 0] (pooledT x) h j (ix2 (j 1) (j 0)) (by
    intro b; match b with | ⟨0, _⟩ => rfl | ⟨1, _⟩ => rfl)]
  rfl

end Cert.Spec

end
-- ==== Proof.KValue.lean ====
/-
  The idealized kernel's run with its results as functions of the arguments.

  The launch leaves the two results at what region 1 wrote; region 1 wrote the low-pass and high-pass parts of the image
  array it found, with the weights it found; it found the image as launched and the weights at the chain of the
  transposed result of region 0, reshaped; region 0's result is the channel-major pooled means of the image as launched,
  whose transpose is the pooled means.  Reading the reshape [8, 8, 9] to [8, 8, 1, 9] at (n, g, 0, k) gives back
  (n, g, k): the two positions are equal in row-major order.
-/
import proofs.«128193_j26018911879615_1_alg».proof.Proof.KRun
import proofs.«128193_j26018911879615_1_alg».proof.Proof.KPool
import proofs.«128193_j26018911879615_1_alg».proof.Proof.KHost
import proofs.«128193_j26018911879615_1_alg».proof.Proof.KConvArr
import proofs.«128193_j26018911879615_1_alg».proof.Proof.PoolLaw

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The filter weights as a function of the launch contents. -/
def filt (c : Dev nD) : Cert.Spec.F3.Idx → EReal :=
  Cert.Spec.filtChain (Cert.Spec.pooled (m ((c.tc : Thread nD τ).loc main_arg0))) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))

/-- The weights region 1 finds, indexed (n, g, k), are those filter weights. -/
theorem wts_eq (c : Dev nD) : KConvArr.wts (V2 (F := Ideal) m ρ) c = filt m c := by
  funext j
  obtain ⟨n, g, k, rfl⟩ : ∃ (n : Fin 8) (g : Fin 8) (k : Fin 9), j = ix3 n g k := ⟨j 0, j 1, j 2, eq_ix3 j⟩
  unfold KConvArr.wts filt
  rw [KHost.V2_v38 m ρ c, KPool.pool_arr (V0 m ρ) c, Cert.Spec.transpose_pooledT]
  refine shapeCast_apply _ _ _ (ix3 n g k) ?_
  rw [Shape.rowMajor_val_three, Shape.rowMajor_val_four]
  show ((n.val * 8 + g.val) * 9 + k.val) = (((n.val * 8 + g.val) * 1 + 0) * 9 + k.val)
  omega

theorem out0_eq (c : Dev nD) :
    W3 (F := Ideal) m ρ c (Proc.devRef .tc main_v39_0) = Cert.Spec.low (m ((c.tc : Thread nD τ).loc main_arg0)) (filt m c) := by
  refine (W3_arr m ρ c 2).trans ?_
  rw [KConvArr.low_arr (V2 m ρ) c, KHost.V2_arg0 m ρ c, wts_eq m ρ c]

theorem out1_eq (c : Dev nD) :
    W3 (F := Ideal) m ρ c (Proc.devRef .tc main_v39_1) = Cert.Spec.high (m ((c.tc : Thread nD τ).loc main_arg0)) (filt m c) := by
  refine (W3_arr m ρ c 3).trans ?_
  rw [KConvArr.high_arr (V2 m ρ) c, KHost.V2_arg0 m ρ c, wts_eq m ρ c]

/-- Every weakly fair execution of the idealized kernel's @main terminates with its first result the low-pass part and
    its second the high-pass part of the image, under the filter weights computed from the image's pooled means and the
    parameters; the arguments are unchanged. -/
theorem run : θ_run defs (onTc (τ := τ) (main (F := Ideal))) ⟨m, fun _ => 0, ρ⟩ (fun r => ∀ c : Dev nD,
      r.2.mem ((c.tc : Thread nD τ).loc main_v39_0) = Cert.Spec.low (m ((c.tc : Thread nD τ).loc main_arg0)) (filt m c)
      ∧ r.2.mem ((c.tc : Thread nD τ).loc main_v39_1) = Cert.Spec.high (m ((c.tc : Thread nD τ).loc main_arg0)) (filt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (out0_eq m ρ c), (h c).2.1.trans (out1_eq m ρ c), (h c).2.2⟩)
    (KRun.run_named m ρ)

end Cert.KernelIdeal.KValue

end
-- ==== Proof.RefOps.lean ====
import proofs.«128193_j26018911879615_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- From the arguments to the filter weights %38 (and the constant %c). 48 operations. -/
abbrev opsA : List (HloOp τ sig (Elt F)) :=
  [ StableHlo.nullary main_cst (constant S_ .f32 0x00000000#32),
    StableHlo.binary main_arg0 main_cst main_v0 ((fun x v => Host.reduceAdd x v reducesTo_S8x128x128x128_S8x128_d2_3 h_S_) : (⟨S8x128x128x128, .f32⟩ : BufTy).Contents (Elt F) → (⟨S_, .f32⟩ : BufTy).Contents (Elt F) → (⟨S8x128, .f32⟩ : BufTy).Contents (Elt F)),
    StableHlo.nullary main_cst_0 (constant S_ .f32 0x46800000#32),
    StableHlo.unary main_cst_0 main_v1 (broadcastInDim S8x128 ![] bcast_S_S8x128 : (⟨S_, .f32⟩ : BufTy).Contents (Elt F) → (⟨S8x128, .f32⟩ : BufTy).Contents (Elt F)),
    StableHlo.binary main_v0 main_v1 main_v2 (Host.divf : (⟨S8x128, .f32⟩ : BufTy).Contents (Elt F) → (⟨S8x128, .f32⟩ : BufTy).Contents (Elt F) → (⟨S8x128, .f32⟩ : BufTy).Contents (Elt F)),
    StableHlo.binary main_v2 main_arg1 main_v3 ((fun l r => Host.dotGeneral dot_S8x128_S72x128_S8x72_1_1_0_0_n_n none l r) : (⟨S8x128, .f32⟩ : BufTy).Contents (Elt F) → (⟨S72x128, .f32⟩ : BufTy).Contents (Elt F) → (⟨S8x72, .f32⟩ : BufTy).Contents (Elt F)),
    StableHlo.binary main_v3 main_arg2 main_v4 ((fun l r => Host.dotGeneral dot_S8x72_S72x72_S8x72_1_1_0_0_n_n none l r) : (⟨S8x72, .f32⟩ : BufTy).Contents (Elt F) → (⟨S72x72, .f32⟩ : BufTy).Contents (Elt F) → (⟨S8x72, .f32⟩ : BufTy).Contents (Elt F)),
    StableHlo.unary main_v4 main_v5 (Host.negf : (⟨S8x72, .f32⟩ : BufTy).Contents (Elt F) → (⟨S8x72, .f32⟩ : BufTy).Contents (Elt F)),
    StableHlo.unary main_v5 main_v6 (Host.exp : (⟨S8x72, .f32⟩ : BufTy).Contents (Elt F) → (⟨S8x72, .f32⟩ : BufTy).Contents (Elt F)),
    StableHlo.nullary main_cst_1 (constant S_ .f32 0x3F800000#32),
    StableHlo.unary main_cst_1 main_v7 (broadcastInDim S8x72 ![] bcast_S_S8x72 : (⟨S_, .f32⟩ : BufTy).Contents (Elt F) → (⟨S8x72, .f32⟩ : BufTy).Contents (Elt F)),
    StableHlo.binary main_v7 main_v6 main_v8 (addf : (⟨S8x72, .f32⟩ : BufTy).Contents (Elt F) → (⟨S8x72, .f32⟩ : BufTy).Contents (Elt F) → (⟨S8x72, .f32⟩ : BufTy).Contents (Elt F)),
    StableHlo.nullary main_cst_2 (constant S_ .f32 0x3F800000#32),
    StableHlo.unary main_cst_2 main_v9 (broadcastInDim S8x72 ![] bcast_S_S8x72 : (⟨S_, .f32⟩ : BufTy).Contents (Elt F) → (⟨S8x72, .f32⟩ : BufTy).Contents (Elt F)),
    StableHlo.binary main_v9 main_v8 main_v10 (Host.divf : (⟨S8x72, .f32⟩ : BufTy).Contents (Elt F) → (⟨S8x72, .f32⟩ : BufTy).Contents (Elt F) → (⟨S8x72, .f32⟩ : BufTy).Contents (Elt F)),
    StableHlo.binary main_v3 main_v10 main_v11 (mulf : (⟨S8x72, .f32⟩ : BufTy).Contents (Elt F) → (⟨S8x72, .f32⟩ : BufTy).Contents (Elt F) → (⟨S8x72, .f32⟩ : BufTy).Contents (Elt F)),
    StableHlo.unary main_arg5 main_v12 (broadcastInDim S1x72 ![1] bcast_S72_S1x72_1 : (⟨S72, .f32⟩ : BufTy).Contents (Elt F) → (⟨S1x72, .f32⟩ : BufTy).Contents (Elt F)),
    StableHlo.unary main_v12 main_v13 (broadcastInDim S8x72 ![0, 1] bcast_S1x72_S8x72_0_1 : (⟨S1x72, .f32⟩ : BufTy).Contents (Elt F) → (⟨S8x72, .f32⟩ : BufTy).Contents (Elt F)),
    StableHlo.binary main_v11 main_v13 main_v14 (subf : (⟨S8x72, .f32⟩ : BufTy).Contents (Elt F) → (⟨S8x72, .f32⟩ : BufTy).Contents (Elt F) → (⟨S8x72, .f32⟩ : BufTy).Contents (Elt F)),
    StableHlo.nullary main_cst_3 (constant S_ .f32 0x3727C5AC#32),
    StableHlo.unary main_cst_3 main_v15 (broadcastInDim S72 ![] bcast_S_S72 : (⟨S_, .f32⟩ : BufTy).Contents (Elt F) → (⟨S72, .f32⟩ : BufTy).Contents (Elt F)),
    StableHlo.binary main_arg6 main_v15 main_v16 (addf : (⟨S72, .f32⟩ : BufTy).Contents (Elt F) → (⟨S72, .f32⟩ : BufTy).Contents (Elt F) → (⟨S72, .f32⟩ : BufTy).Contents (Elt F)),
    StableHlo.unary main_v16 main_v17 (Host.rsqrt : (⟨S72, .f32⟩ : BufTy).Contents (Elt F) → (⟨S72, .f32⟩ : BufTy).Contents (Elt F)),
    StableHlo.unary main_v17 main_v18 (broadcastInDim S1x72 ![1] bcast_S72_S1x72_1 : (⟨S72, .f32⟩ : BufTy).Contents (Elt F) → (⟨S1x72, .f32⟩ : BufTy).Contents (Elt F)),
    StableHlo.unary main_v18 main_v19 (broadcastInDim S8x72 ![0, 1] bcast_S1x72_S8x72_0_1 : (⟨S1x72, .f32⟩ : BufTy).Contents (Elt F) → (⟨S8x72, .f32⟩ : BufTy).Contents (Elt F)),
    StableHlo.binary main_v14 main_v19 main_v20 (mulf : (⟨S8x72, .f32⟩ : BufTy).Contents (Elt F) → (⟨S8x72, .f32⟩ : BufTy).Contents (Elt F) → (⟨S8x72, .f32⟩ : BufTy).Contents (Elt F)),
    StableHlo.unary main_arg3 main_v21 (broadcastInDim S1x72 ![1] bcast_S72_S1x72_1 : (⟨S72, .f32⟩ : BufTy).Contents (Elt F) → (⟨S1x72, .f32⟩ : BufTy).Contents (Elt F)),
    StableHlo.unary main_v21 main_v22 (broadcastInDim S8x72 ![0, 1] bcast_S1x72_S8x72_0_1 : (⟨S1x72, .f32⟩ : BufTy).Contents (Elt F) → (⟨S8x72, .f32⟩ : BufTy).Contents (Elt F)),
    StableHlo.binary main_v20 main_v22 main_v23 (mulf : (⟨S8x72, .f32⟩ : BufTy).Contents (Elt F) → (⟨S8x72, .f32⟩ : BufTy).Contents (Elt F) → (⟨S8x72, .f32⟩ : BufTy).Contents (Elt F)),
    StableHlo.unary main_arg4 main_v24 (broadcastInDim S1x72 ![1] bcast_S72_S1x72_1 : (⟨S72, .f32⟩ : BufTy).Contents (Elt F) → (⟨S1x72, .f32⟩ : BufTy).Contents (Elt F)),
    StableHlo.unary main_v24 main_v25 (broadcastInDim S8x72 ![0, 1] bcast_S1x72_S8x72_0_1 : (⟨S1x72, .f32⟩ : BufTy).Contents (Elt F) → (⟨S8x72, .f32⟩ : BufTy).Contents (Elt F)),
    StableHlo.binary main_v23 main_v25 main_v26 (addf : (⟨S8x72, .f32⟩ : BufTy).Contents (Elt F) → (⟨S8x72, .f32⟩ : BufTy).Contents (Elt F) → (⟨S8x72, .f32⟩ : BufTy).Contents (Elt F)),
    StableHlo.reshape main_v26 main_v27 rfl shapeCasts_S8x72_S8x8x9,
    StableHlo.nullary main_cst_4 (constant S_ .f32 0xFF800000#32),
    StableHlo.binary main_v27 main_cst_4 main_v28 ((fun x v => Host.reduce FloatOps.maximumf x v reducesTo_S8x8x9_S8x8_d2 h_S_) : (⟨S8x8x9, .f32⟩ : BufTy).Contents (Elt F) → (⟨S_, .f32⟩ : BufTy).Contents (Elt F) → (⟨S8x8, .f32⟩ : BufTy).Contents (Elt F)),
    StableHlo.nullary main_cst_5 (constant S_ .f32 0xFF800000#32),
    StableHlo.unary main_cst_5 main_v29 (broadcastInDim S8x8 ![] bcast_S_S8x8 : (⟨S_, .f32⟩ : BufTy).Contents (Elt F) → (⟨S8x8, .f32⟩ : BufTy).Contents (Elt F)),
    StableHlo.binary main_v29 main_v28 main_v30 (maximumf : (⟨S8x8, .f32⟩ : BufTy).Contents (Elt F) → (⟨S8x8, .f32⟩ : BufTy).Contents (Elt F) → (⟨S8x8, .f32⟩ : BufTy).Contents (Elt F)),
    StableHlo.unary main_v30 main_v31 (broadcastInDim S8x8x1 ![0, 1] bcast_S8x8_S8x8x1_0_1 : (⟨S8x8, .f32⟩ : BufTy).Contents (Elt F) → (⟨S8x8x1, .f32⟩ : BufTy).Contents (Elt F)),
    StableHlo.unary main_v31 main_v32 (broadcastInDim S8x8x9 ![0, 1, 2] bcast_S8x8x1_S8x8x9_0_1_2 : (⟨S8x8x1, .f32⟩ : BufTy).Contents (Elt F) → (⟨S8x8x9, .f32⟩ : BufTy).Contents (Elt F)),
    StableHlo.binary main_v27 main_v32 main_v33 (subf : (⟨S8x8x9, .f32⟩ : BufTy).Contents (Elt F) → (⟨S8x8x9, .f32⟩ : BufTy).Contents (Elt F) → (⟨S8x8x9, .f32⟩ : BufTy).Contents (Elt F)),
    StableHlo.unary main_v33 main_v34 (Host.exp : (⟨S8x8x9, .f32⟩ : BufTy).Contents (Elt F) → (⟨S8x8x9, .f32⟩ : BufTy).Contents (Elt F)),
    StableHlo.nullary main_cst_6 (constant S_ .f32 0x00000000#32),
    StableHlo.binary main_v34 main_cst_6 main_v35 ((fun x v => Host.reduceAdd x v reducesTo_S8x8x9_S8x8_d2 h_S_) : (⟨S8x8x9, .f32⟩ : BufTy).Contents (Elt F) → (⟨S_, .f32⟩ : BufTy).Contents (Elt F) → (⟨S8x8, .f32⟩ : BufTy).Contents (Elt F)),
    StableHlo.unary main_v35 main_v36 (broadcastInDim S8x8x1 ![0, 1] bcast_S8x8_S8x8x1_0_1 : (⟨S8x8, .f32⟩ : BufTy).Contents (Elt F) → (⟨S8x8x1, .f32⟩ : BufTy).Contents (Elt F)),
    StableHlo.unary main_v36 main_v37 (broadcastInDim S8x8x9 ![0, 1, 2] bcast_S8x8x1_S8x8x9_0_1_2 : (⟨S8x8x1, .f32⟩ : BufTy).Contents (Elt F) → (⟨S8x8x9, .f32⟩ : BufTy).Contents (Elt F)),
    StableHlo.binary main_v34 main_v37 main_v38 (Host.divf : (⟨S8x8x9, .f32⟩ : BufTy).Contents (Elt F) → (⟨S8x8x9, .f32⟩ : BufTy).Contents (Elt F) → (⟨S8x8x9, .f32⟩ : BufTy).Contents (Elt F)),
    StableHlo.nullary main_c (constantI S_ 32 0#32) ]

/-- The reflected padding %39 of the image. 16 operations. -/
abbrev opsB : List (HloOp τ sig (Elt F)) :=
  [ StableHlo.TRef.unary (.of main_arg0 : StableHlo.TRef sig ⟨S8x128x128x128, .f32⟩) main_call0.v0 (extractStridedSlice S8x128x1x128 ![0, 0, 0, 0] · slices_S8x128x128x128_S8x128x1x128_0_0_0_0),
    StableHlo.TRef.unary (.of main_arg0 : StableHlo.TRef sig ⟨S8x128x128x128, .f32⟩) main_call0.v1 (extractStridedSlice S8x128x1x128 ![0, 0, 1, 0] · slices_S8x128x128x128_S8x128x1x128_0_0_1_0),
    StableHlo.TRef.unary main_call0.v1 main_call0.call0.v0 (Host.reverse [2]),
    StableHlo.TRef.binary main_call0.call0.v0 (.of main_arg0 : StableHlo.TRef sig ⟨S8x128x128x128, .f32⟩) main_call0.v3 (fun a b => concatenate S8x128x129x128 2 [⟨S8x128x1x128, a⟩, ⟨S8x128x128x128, b⟩] concatenates_S8x128x1x128_S8x128x128x128_S8x128x129x128_d2),
    StableHlo.TRef.unary main_call0.v3 main_call0.v4 (extractStridedSlice S8x128x1x128 ![0, 0, 128, 0] · slices_S8x128x129x128_S8x128x1x128_0_0_128_0),
    StableHlo.TRef.unary main_call0.v3 main_call0.v5 (extractStridedSlice S8x128x1x128 ![0, 0, 127, 0] · slices_S8x128x129x128_S8x128x1x128_0_0_127_0),
    StableHlo.TRef.unary main_call0.v5 main_call0.call1.v0 (Host.reverse [2]),
    StableHlo.TRef.binary main_call0.v3 main_call0.call1.v0 main_call0.v7 (fun a b => concatenate S8x128x130x128 2 [⟨S8x128x129x128, a⟩, ⟨S8x128x1x128, b⟩] concatenates_S8x128x129x128_S8x128x1x128_S8x128x130x128_d2),
    StableHlo.TRef.unary main_call0.v7 main_call0.v8 (extractStridedSlice S8x128x130x1 ![0, 0, 0, 0] · slices_S8x128x130x128_S8x128x130x1_0_0_0_0),
    StableHlo.TRef.unary main_call0.v7 main_call0.v9 (extractStridedSlice S8x128x130x1 ![0, 0, 0, 1] · slices_S8x128x130x128_S8x128x130x1_0_0_0_1),
    StableHlo.TRef.unary main_call0.v9 main_call0.call2.v0 (Host.reverse [3]),
    StableHlo.TRef.binary main_call0.call2.v0 main_call0.v7 main_call0.v11 (fun a b => concatenate S8x128x130x129 3 [⟨S8x128x130x1, a⟩, ⟨S8x128x130x128, b⟩] concatenates_S8x128x130x1_S8x128x130x128_S8x128x130x129_d3),
    StableHlo.TRef.unary main_call0.v11 main_call0.v12 (extractStridedSlice S8x128x130x1 ![0, 0, 0, 128] · slices_S8x128x130x129_S8x128x130x1_0_0_0_128),
    StableHlo.TRef.unary main_call0.v11 main_call0.v13 (extractStridedSlice S8x128x130x1 ![0, 0, 0, 127] · slices_S8x128x130x129_S8x128x130x1_0_0_0_127),
    StableHlo.TRef.unary main_call0.v13 main_call0.call3.v0 (Host.reverse [3]),
    StableHlo.TRef.binary main_call0.v11 main_call0.call3.v0 main_call0.v15 (fun a b => concatenate S8x128x130x130 3 [⟨S8x128x130x129, a⟩, ⟨S8x128x130x1, b⟩] concatenates_S8x128x130x129_S8x128x130x1_S8x128x130x130_d3) ]

/-- The nine taps, the reshape %113 and the difference %114. 76 operations. -/
abbrev opsC : List (HloOp τ sig (Elt F)) :=
  [ StableHlo.nullary main_cst_7 (constant S_ .f32 0x00000000#32),
    StableHlo.unary main_cst_7 main_v40 (broadcastInDim S8x8x16x128x128 ![] bcast_S_S8x8x16x128x128 : (⟨S_, .f32⟩ : BufTy).Contents (Elt F) → (⟨S8x8x16x128x128, .f32⟩ : BufTy).Contents (Elt F)),
    StableHlo.unary main_v39 main_v41 ((extractStridedSlice S8x128x128x128 ![0, 0, 0, 0] · slices_S8x128x130x130_S8x128x128x128_0_0_0_0) : (⟨S8x128x130x130, .f32⟩ : BufTy).Contents (Elt F) → (⟨S8x128x128x128, .f32⟩ : BufTy).Contents (Elt F)),
    StableHlo.reshape main_v41 main_v42 rfl shapeCasts_S8x128x128x128_S8x8x16x128x128,
    StableHlo.unary main_v38 main_v43 ((extractStridedSlice S8x8x1 ![0, 0, 0] · slices_S8x8x9_S8x8x1_0_0_0) : (⟨S8x8x9, .f32⟩ : BufTy).Contents (Elt F) → (⟨S8x8x1, .f32⟩ : BufTy).Contents (Elt F)),
    StableHlo.reshape main_v43 main_v44 rfl shapeCasts_S8x8x1_S8x8,
    StableHlo.unary main_v44 main_v45 (broadcastInDim S8x8x1x1x1 ![0, 1] bcast_S8x8_S8x8x1x1x1_0_1 : (⟨S8x8, .f32⟩ : BufTy).Contents (Elt F) → (⟨S8x8x1x1x1, .f32⟩ : BufTy).Contents (Elt F)),
    StableHlo.unary main_v45 main_v46 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    StableHlo.binary main_v42 main_v46 main_v47 (mulf : (⟨S8x8x16x128x128, .f32⟩ : BufTy).Contents (Elt F) → (⟨S8x8x16x128x128, .f32⟩ : BufTy).Contents (Elt F) → (⟨S8x8x16x128x128, .f32⟩ : BufTy).Contents (Elt F)),
    StableHlo.binary main_v40 main_v47 main_v48 (addf : (⟨S8x8x16x128x128, .f32⟩ : BufTy).Contents (Elt F) → (⟨S8x8x16x128x128, .f32⟩ : BufTy).Contents (Elt F) → (⟨S8x8x16x128x128, .f32⟩ : BufTy).Contents (Elt F)),
    StableHlo.unary main_v39 main_v49 ((extractStridedSlice S8x128x128x128 ![0, 0, 0, 1] · slices_S8x128x130x130_S8x128x128x128_0_0_0_1) : (⟨S8x128x130x130, .f32⟩ : BufTy).Contents (Elt F) → (⟨S8x128x128x128, .f32⟩ : BufTy).Contents (Elt F)),
    StableHlo.reshape main_v49 main_v50 rfl shapeCasts_S8x128x128x128_S8x8x16x128x128,
    StableHlo.unary main_v38 main_v51 ((extractStridedSlice S8x8x1 ![0, 0, 1] · slices_S8x8x9_S8x8x1_0_0_1) : (⟨S8x8x9, .f32⟩ : BufTy).Contents (Elt F) → (⟨S8x8x1, .f32⟩ : BufTy).Contents (Elt F)),
    StableHlo.reshape main_v51 main_v52 rfl shapeCasts_S8x8x1_S8x8,
    StableHlo.unary main_v52 main_v53 (broadcastInDim S8x8x1x1x1 ![0, 1] bcast_S8x8_S8x8x1x1x1_0_1 : (⟨S8x8, .f32⟩ : BufTy).Contents (Elt F) → (⟨S8x8x1x1x1, .f32⟩ : BufTy).Contents (Elt F)),
    StableHlo.unary main_v53 main_v54 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    StableHlo.binary main_v50 main_v54 main_v55 (mulf : (⟨S8x8x16x128x128, .f32⟩ : BufTy).Contents (Elt F) → (⟨S8x8x16x128x128, .f32⟩ : BufTy).Contents (Elt F) → (⟨S8x8x16x128x128, .f32⟩ : BufTy).Contents (Elt F)),
    StableHlo.binary main_v48 main_v55 main_v56 (addf : (⟨S8x8x16x128x128, .f32⟩ : BufTy).Contents (Elt F) → (⟨S8x8x16x128x128, .f32⟩ : BufTy).Contents (Elt F) → (⟨S8x8x16x128x128, .f32⟩ : BufTy).Contents (Elt F)),
    StableHlo.unary main_v39 main_v57 ((extractStridedSlice S8x128x128x128 ![0, 0, 0, 2] · slices_S8x128x130x130_S8x128x128x128_0_0_0_2) : (⟨S8x128x130x130, .f32⟩ : BufTy).Contents (Elt F) → (⟨S8x128x128x128, .f32⟩ : BufTy).Contents (Elt F)),
    StableHlo.reshape main_v57 main_v58 rfl shapeCasts_S8x128x128x128_S8x8x16x128x128,
    StableHlo.unary main_v38 main_v59 ((extractStridedSlice S8x8x1 ![0, 0, 2] · slices_S8x8x9_S8x8x1_0_0_2) : (⟨S8x8x9, .f32⟩ : BufTy).Contents (Elt F) → (⟨S8x8x1, .f32⟩ : BufTy).Contents (Elt F)),
    StableHlo.reshape main_v59 main_v60 rfl shapeCasts_S8x8x1_S8x8,
    StableHlo.unary main_v60 main_v61 (broadcastInDim S8x8x1x1x1 ![0, 1] bcast_S8x8_S8x8x1x1x1_0_1 : (⟨S8x8, .f32⟩ : BufTy).Contents (Elt F) → (⟨S8x8x1x1x1, .f32⟩ : BufTy).Contents (Elt F)),
    StableHlo.unary main_v61 main_v62 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    StableHlo.binary main_v58 main_v62 main_v63 (mulf : (⟨S8x8x16x128x128, .f32⟩ : BufTy).Contents (Elt F) → (⟨S8x8x16x128x128, .f32⟩ : BufTy).Contents (Elt F) → (⟨S8x8x16x128x128, .f32⟩ : BufTy).Contents (Elt F)),
    StableHlo.binary main_v56 main_v63 main_v64 (addf : (⟨S8x8x16x128x128, .f32⟩ : BufTy).Contents (Elt F) → (⟨S8x8x16x128x128, .f32⟩ : BufTy).Contents (Elt F) → (⟨S8x8x16x128x128, .f32⟩ : BufTy).Contents (Elt F)),
    StableHlo.unary main_v39 main_v65 ((extractStridedSlice S8x128x128x128 ![0, 0, 1, 0] · slices_S8x128x130x130_S8x128x128x128_0_0_1_0) : (⟨S8x128x130x130, .f32⟩ : BufTy).Contents (Elt F) → (⟨S8x128x128x128, .f32⟩ : BufTy).Contents (Elt F)),
    StableHlo.reshape main_v65 main_v66 rfl shapeCasts_S8x128x128x128_S8x8x16x128x128,
    StableHlo.unary main_v38 main_v67 ((extractStridedSlice S8x8x1 ![0, 0, 3] · slices_S8x8x9_S8x8x1_0_0_3) : (⟨S8x8x9, .f32⟩ : BufTy).Contents (Elt F) → (⟨S8x8x1, .f32⟩ : BufTy).Contents (Elt F)),
    StableHlo.reshape main_v67 main_v68 rfl shapeCasts_S8x8x1_S8x8,
    StableHlo.unary main_v68 main_v69 (broadcastInDim S8x8x1x1x1 ![0, 1] bcast_S8x8_S8x8x1x1x1_0_1 : (⟨S8x8, .f32⟩ : BufTy).Contents (Elt F) → (⟨S8x8x1x1x1, .f32⟩ : BufTy).Contents (Elt F)),
    StableHlo.unary main_v69 main_v70 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    StableHlo.binary main_v66 main_v70 main_v71 (mulf : (⟨S8x8x16x128x128, .f32⟩ : BufTy).Contents (Elt F) → (⟨S8x8x16x128x128, .f32⟩ : BufTy).Contents (Elt F) → (⟨S8x8x16x128x128, .f32⟩ : BufTy).Contents (Elt F)),
    StableHlo.binary main_v64 main_v71 main_v72 (addf : (⟨S8x8x16x128x128, .f32⟩ : BufTy).Contents (Elt F) → (⟨S8x8x16x128x128, .f32⟩ : BufTy).Contents (Elt F) → (⟨S8x8x16x128x128, .f32⟩ : BufTy).Contents (Elt F)),
    StableHlo.unary main_v39 main_v73 ((extractStridedSlice S8x128x128x128 ![0, 0, 1, 1] · slices_S8x128x130x130_S8x128x128x128_0_0_1_1) : (⟨S8x128x130x130, .f32⟩ : BufTy).Contents (Elt F) → (⟨S8x128x128x128, .f32⟩ : BufTy).Contents (Elt F)),
    StableHlo.reshape main_v73 main_v74 rfl shapeCasts_S8x128x128x128_S8x8x16x128x128,
    StableHlo.unary main_v38 main_v75 ((extractStridedSlice S8x8x1 ![0, 0, 4] · slices_S8x8x9_S8x8x1_0_0_4) : (⟨S8x8x9, .f32⟩ : BufTy).Contents (Elt F) → (⟨S8x8x1, .f32⟩ : BufTy).Contents (Elt F)),
    StableHlo.reshape main_v75 main_v76 rfl shapeCasts_S8x8x1_S8x8,
    StableHlo.unary main_v76 main_v77 (broadcastInDim S8x8x1x1x1 ![0, 1] bcast_S8x8_S8x8x1x1x1_0_1 : (⟨S8x8, .f32⟩ : BufTy).Contents (Elt F) → (⟨S8x8x1x1x1, .f32⟩ : BufTy).Contents (Elt F)),
    StableHlo.unary main_v77 main_v78 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    StableHlo.binary main_v74 main_v78 main_v79 (mulf : (⟨S8x8x16x128x128, .f32⟩ : BufTy).Contents (Elt F) → (⟨S8x8x16x128x128, .f32⟩ : BufTy).Contents (Elt F) → (⟨S8x8x16x128x128, .f32⟩ : BufTy).Contents (Elt F)),
    StableHlo.binary main_v72 main_v79 main_v80 (addf : (⟨S8x8x16x128x128, .f32⟩ : BufTy).Contents (Elt F) → (⟨S8x8x16x128x128, .f32⟩ : BufTy).Contents (Elt F) → (⟨S8x8x16x128x128, .f32⟩ : BufTy).Contents (Elt F)),
    StableHlo.unary main_v39 main_v81 ((extractStridedSlice S8x128x128x128 ![0, 0, 1, 2] · slices_S8x128x130x130_S8x128x128x128_0_0_1_2) : (⟨S8x128x130x130, .f32⟩ : BufTy).Contents (Elt F) → (⟨S8x128x128x128, .f32⟩ : BufTy).Contents (Elt F)),
    StableHlo.reshape main_v81 main_v82 rfl shapeCasts_S8x128x128x128_S8x8x16x128x128,
    StableHlo.unary main_v38 main_v83 ((extractStridedSlice S8x8x1 ![0, 0, 5] · slices_S8x8x9_S8x8x1_0_0_5) : (⟨S8x8x9, .f32⟩ : BufTy).Contents (Elt F) → (⟨S8x8x1, .f32⟩ : BufTy).Contents (Elt F)),
    StableHlo.reshape main_v83 main_v84 rfl shapeCasts_S8x8x1_S8x8,
    StableHlo.unary main_v84 main_v85 (broadcastInDim S8x8x1x1x1 ![0, 1] bcast_S8x8_S8x8x1x1x1_0_1 : (⟨S8x8, .f32⟩ : BufTy).Contents (Elt F) → (⟨S8x8x1x1x1, .f32⟩ : BufTy).Contents (Elt F)),
    StableHlo.unary main_v85 main_v86 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    StableHlo.binary main_v82 main_v86 main_v87 (mulf : (⟨S8x8x16x128x128, .f32⟩ : BufTy).Contents (Elt F) → (⟨S8x8x16x128x128, .f32⟩ : BufTy).Contents (Elt F) → (⟨S8x8x16x128x128, .f32⟩ : BufTy).Contents (Elt F)),
    StableHlo.binary main_v80 main_v87 main_v88 (addf : (⟨S8x8x16x128x128, .f32⟩ : BufTy).Contents (Elt F) → (⟨S8x8x16x128x128, .f32⟩ : BufTy).Contents (Elt F) → (⟨S8x8x16x128x128, .f32⟩ : BufTy).Contents (Elt F)),
    StableHlo.unary main_v39 main_v89 ((extractStridedSlice S8x128x128x128 ![0, 0, 2, 0] · slices_S8x128x130x130_S8x128x128x128_0_0_2_0) : (⟨S8x128x130x130, .f32⟩ : BufTy).Contents (Elt F) → (⟨S8x128x128x128, .f32⟩ : BufTy).Contents (Elt F)),
    StableHlo.reshape main_v89 main_v90 rfl shapeCasts_S8x128x128x128_S8x8x16x128x128,
    StableHlo.unary main_v38 main_v91 ((extractStridedSlice S8x8x1 ![0, 0, 6] · slices_S8x8x9_S8x8x1_0_0_6) : (⟨S8x8x9, .f32⟩ : BufTy).Contents (Elt F) → (⟨S8x8x1, .f32⟩ : BufTy).Contents (Elt F)),
    StableHlo.reshape main_v91 main_v92 rfl shapeCasts_S8x8x1_S8x8,
    StableHlo.unary main_v92 main_v93 (broadcastInDim S8x8x1x1x1 ![0, 1] bcast_S8x8_S8x8x1x1x1_0_1 : (⟨S8x8, .f32⟩ : BufTy).Contents (Elt F) → (⟨S8x8x1x1x1, .f32⟩ : BufTy).Contents (Elt F)),
    StableHlo.unary main_v93 main_v94 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    StableHlo.binary main_v90 main_v94 main_v95 (mulf : (⟨S8x8x16x128x128, .f32⟩ : BufTy).Contents (Elt F) → (⟨S8x8x16x128x128, .f32⟩ : BufTy).Contents (Elt F) → (⟨S8x8x16x128x128, .f32⟩ : BufTy).Contents (Elt F)),
    StableHlo.binary main_v88 main_v95 main_v96 (addf : (⟨S8x8x16x128x128, .f32⟩ : BufTy).Contents (Elt F) → (⟨S8x8x16x128x128, .f32⟩ : BufTy).Contents (Elt F) → (⟨S8x8x16x128x128, .f32⟩ : BufTy).Contents (Elt F)),
    StableHlo.unary main_v39 main_v97 ((extractStridedSlice S8x128x128x128 ![0, 0, 2, 1] · slices_S8x128x130x130_S8x128x128x128_0_0_2_1) : (⟨S8x128x130x130, .f32⟩ : BufTy).Contents (Elt F) → (⟨S8x128x128x128, .f32⟩ : BufTy).Contents (Elt F)),
    StableHlo.reshape main_v97 main_v98 rfl shapeCasts_S8x128x128x128_S8x8x16x128x128,
    StableHlo.unary main_v38 main_v99 ((extractStridedSlice S8x8x1 ![0, 0, 7] · slices_S8x8x9_S8x8x1_0_0_7) : (⟨S8x8x9, .f32⟩ : BufTy).Contents (Elt F) → (⟨S8x8x1, .f32⟩ : BufTy).Contents (Elt F)),
    StableHlo.reshape main_v99 main_v100 rfl shapeCasts_S8x8x1_S8x8,
    StableHlo.unary main_v100 main_v101 (broadcastInDim S8x8x1x1x1 ![0, 1] bcast_S8x8_S8x8x1x1x1_0_1 : (⟨S8x8, .f32⟩ : BufTy).Contents (Elt F) → (⟨S8x8x1x1x1, .f32⟩ : BufTy).Contents (Elt F)),
    StableHlo.unary main_v101 main_v102 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    StableHlo.binary main_v98 main_v102 main_v103 (mulf : (⟨S8x8x16x128x128, .f32⟩ : BufTy).Contents (Elt F) → (⟨S8x8x16x128x128, .f32⟩ : BufTy).Contents (Elt F) → (⟨S8x8x16x128x128, .f32⟩ : BufTy).Contents (Elt F)),
    StableHlo.binary main_v96 main_v103 main_v104 (addf : (⟨S8x8x16x128x128, .f32⟩ : BufTy).Contents (Elt F) → (⟨S8x8x16x128x128, .f32⟩ : BufTy).Contents (Elt F) → (⟨S8x8x16x128x128, .f32⟩ : BufTy).Contents (Elt F)),
    StableHlo.unary main_v39 main_v105 ((extractStridedSlice S8x128x128x128 ![0, 0, 2, 2] · slices_S8x128x130x130_S8x128x128x128_0_0_2_2) : (⟨S8x128x130x130, .f32⟩ : BufTy).Contents (Elt F) → (⟨S8x128x128x128, .f32⟩ : BufTy).Contents (Elt F)),
    StableHlo.reshape main_v105 main_v106 rfl shapeCasts_S8x128x128x128_S8x8x16x128x128,
    StableHlo.unary main_v38 main_v107 ((extractStridedSlice S8x8x1 ![0, 0, 8] · slices_S8x8x9_S8x8x1_0_0_8) : (⟨S8x8x9, .f32⟩ : BufTy).Contents (Elt F) → (⟨S8x8x1, .f32⟩ : BufTy).Contents (Elt F)),
    StableHlo.reshape main_v107 main_v108 rfl shapeCasts_S8x8x1_S8x8,
    StableHlo.unary main_v108 main_v109 (broadcastInDim S8x8x1x1x1 ![0, 1] bcast_S8x8_S8x8x1x1x1_0_1 : (⟨S8x8, .f32⟩ : BufTy).Contents (Elt F) → (⟨S8x8x1x1x1, .f32⟩ : BufTy).Contents (Elt F)),
    StableHlo.unary main_v109 main_v110 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    StableHlo.binary main_v106 main_v110 main_v111 (mulf : (⟨S8x8x16x128x128, .f32⟩ : BufTy).Contents (Elt F) → (⟨S8x8x16x128x128, .f32⟩ : BufTy).Contents (Elt F) → (⟨S8x8x16x128x128, .f32⟩ : BufTy).Contents (Elt F)),
    StableHlo.binary main_v104 main_v111 main_v112 (addf : (⟨S8x8x16x128x128, .f32⟩ : BufTy).Contents (Elt F) → (⟨S8x8x16x128x128, .f32⟩ : BufTy).Contents (Elt F) → (⟨S8x8x16x128x128, .f32⟩ : BufTy).Contents (Elt F)),
    StableHlo.reshape main_v112 main_v113 rfl shapeCasts_S8x8x16x128x128_S8x128x128x128,
    StableHlo.binary main_arg0 main_v113 main_v114 (subf : (⟨S8x128x128x128, .f32⟩ : BufTy).Contents (Elt F) → (⟨S8x128x128x128, .f32⟩ : BufTy).Contents (Elt F) → (⟨S8x128x128x128, .f32⟩ : BufTy).Contents (Elt F)) ]

/-- The whole of @main, in order: 140 operations. -/
abbrev ops : List (HloOp τ sig (Elt F)) :=
  [ StableHlo.nullary main_cst (constant S_ .f32 0x00000000#32),
    StableHlo.binary main_arg0 main_cst main_v0 ((fun x v => Host.reduceAdd x v reducesTo_S8x128x128x128_S8x128_d2_3 h_S_) : (⟨S8x128x128x128, .f32⟩ : BufTy).Contents (Elt F) → (⟨S_, .f32⟩ : BufTy).Contents (Elt F) → (⟨S8x128, .f32⟩ : BufTy).Contents (Elt F)),
    StableHlo.nullary main_cst_0 (constant S_ .f32 0x46800000#32),
    StableHlo.unary main_cst_0 main_v1 (broadcastInDim S8x128 ![] bcast_S_S8x128 : (⟨S_, .f32⟩ : BufTy).Contents (Elt F) → (⟨S8x128, .f32⟩ : BufTy).Contents (Elt F)),
    StableHlo.binary main_v0 main_v1 main_v2 (Host.divf : (⟨S8x128, .f32⟩ : BufTy).Contents (Elt F) → (⟨S8x128, .f32⟩ : BufTy).Contents (Elt F) → (⟨S8x128, .f32⟩ : BufTy).Contents (Elt F)),
    StableHlo.binary main_v2 main_arg1 main_v3 ((fun l r => Host.dotGeneral dot_S8x128_S72x128_S8x72_1_1_0_0_n_n none l r) : (⟨S8x128, .f32⟩ : BufTy).Contents (Elt F) → (⟨S72x128, .f32⟩ : BufTy).Contents (Elt F) → (⟨S8x72, .f32⟩ : BufTy).Contents (Elt F)),
    StableHlo.binary main_v3 main_arg2 main_v4 ((fun l r => Host.dotGeneral dot_S8x72_S72x72_S8x72_1_1_0_0_n_n none l r) : (⟨S8x72, .f32⟩ : BufTy).Contents (Elt F) → (⟨S72x72, .f32⟩ : BufTy).Contents (Elt F) → (⟨S8x72, .f32⟩ : BufTy).Contents (Elt F)),
    StableHlo.unary main_v4 main_v5 (Host.negf : (⟨S8x72, .f32⟩ : BufTy).Contents (Elt F) → (⟨S8x72, .f32⟩ : BufTy).Contents (Elt F)),
    StableHlo.unary main_v5 main_v6 (Host.exp : (⟨S8x72, .f32⟩ : BufTy).Contents (Elt F) → (⟨S8x72, .f32⟩ : BufTy).Contents (Elt F)),
    StableHlo.nullary main_cst_1 (constant S_ .f32 0x3F800000#32),
    StableHlo.unary main_cst_1 main_v7 (broadcastInDim S8x72 ![] bcast_S_S8x72 : (⟨S_, .f32⟩ : BufTy).Contents (Elt F) → (⟨S8x72, .f32⟩ : BufTy).Contents (Elt F)),
    StableHlo.binary main_v7 main_v6 main_v8 (addf : (⟨S8x72, .f32⟩ : BufTy).Contents (Elt F) → (⟨S8x72, .f32⟩ : BufTy).Contents (Elt F) → (⟨S8x72, .f32⟩ : BufTy).Contents (Elt F)),
    StableHlo.nullary main_cst_2 (constant S_ .f32 0x3F800000#32),
    StableHlo.unary main_cst_2 main_v9 (broadcastInDim S8x72 ![] bcast_S_S8x72 : (⟨S_, .f32⟩ : BufTy).Contents (Elt F) → (⟨S8x72, .f32⟩ : BufTy).Contents (Elt F)),
    StableHlo.binary main_v9 main_v8 main_v10 (Host.divf : (⟨S8x72, .f32⟩ : BufTy).Contents (Elt F) → (⟨S8x72, .f32⟩ : BufTy).Contents (Elt F) → (⟨S8x72, .f32⟩ : BufTy).Contents (Elt F)),
    StableHlo.binary main_v3 main_v10 main_v11 (mulf : (⟨S8x72, .f32⟩ : BufTy).Contents (Elt F) → (⟨S8x72, .f32⟩ : BufTy).Contents (Elt F) → (⟨S8x72, .f32⟩ : BufTy).Contents (Elt F)),
    StableHlo.unary main_arg5 main_v12 (broadcastInDim S1x72 ![1] bcast_S72_S1x72_1 : (⟨S72, .f32⟩ : BufTy).Contents (Elt F) → (⟨S1x72, .f32⟩ : BufTy).Contents (Elt F)),
    StableHlo.unary main_v12 main_v13 (broadcastInDim S8x72 ![0, 1] bcast_S1x72_S8x72_0_1 : (⟨S1x72, .f32⟩ : BufTy).Contents (Elt F) → (⟨S8x72, .f32⟩ : BufTy).Contents (Elt F)),
    StableHlo.binary main_v11 main_v13 main_v14 (subf : (⟨S8x72, .f32⟩ : BufTy).Contents (Elt F) → (⟨S8x72, .f32⟩ : BufTy).Contents (Elt F) → (⟨S8x72, .f32⟩ : BufTy).Contents (Elt F)),
    StableHlo.nullary main_cst_3 (constant S_ .f32 0x3727C5AC#32),
    StableHlo.unary main_cst_3 main_v15 (broadcastInDim S72 ![] bcast_S_S72 : (⟨S_, .f32⟩ : BufTy).Contents (Elt F) → (⟨S72, .f32⟩ : BufTy).Contents (Elt F)),
    StableHlo.binary main_arg6 main_v15 main_v16 (addf : (⟨S72, .f32⟩ : BufTy).Contents (Elt F) → (⟨S72, .f32⟩ : BufTy).Contents (Elt F) → (⟨S72, .f32⟩ : BufTy).Contents (Elt F)),
    StableHlo.unary main_v16 main_v17 (Host.rsqrt : (⟨S72, .f32⟩ : BufTy).Contents (Elt F) → (⟨S72, .f32⟩ : BufTy).Contents (Elt F)),
    StableHlo.unary main_v17 main_v18 (broadcastInDim S1x72 ![1] bcast_S72_S1x72_1 : (⟨S72, .f32⟩ : BufTy).Contents (Elt F) → (⟨S1x72, .f32⟩ : BufTy).Contents (Elt F)),
    StableHlo.unary main_v18 main_v19 (broadcastInDim S8x72 ![0, 1] bcast_S1x72_S8x72_0_1 : (⟨S1x72, .f32⟩ : BufTy).Contents (Elt F) → (⟨S8x72, .f32⟩ : BufTy).Contents (Elt F)),
    StableHlo.binary main_v14 main_v19 main_v20 (mulf : (⟨S8x72, .f32⟩ : BufTy).Contents (Elt F) → (⟨S8x72, .f32⟩ : BufTy).Contents (Elt F) → (⟨S8x72, .f32⟩ : BufTy).Contents (Elt F)),
    StableHlo.unary main_arg3 main_v21 (broadcastInDim S1x72 ![1] bcast_S72_S1x72_1 : (⟨S72, .f32⟩ : BufTy).Contents (Elt F) → (⟨S1x72, .f32⟩ : BufTy).Contents (Elt F)),
    StableHlo.unary main_v21 main_v22 (broadcastInDim S8x72 ![0, 1] bcast_S1x72_S8x72_0_1 : (⟨S1x72, .f32⟩ : BufTy).Contents (Elt F) → (⟨S8x72, .f32⟩ : BufTy).Contents (Elt F)),
    StableHlo.binary main_v20 main_v22 main_v23 (mulf : (⟨S8x72, .f32⟩ : BufTy).Contents (Elt F) → (⟨S8x72, .f32⟩ : BufTy).Contents (Elt F) → (⟨S8x72, .f32⟩ : BufTy).Contents (Elt F)),
    StableHlo.unary main_arg4 main_v24 (broadcastInDim S1x72 ![1] bcast_S72_S1x72_1 : (⟨S72, .f32⟩ : BufTy).Contents (Elt F) → (⟨S1x72, .f32⟩ : BufTy).Contents (Elt F)),
    StableHlo.unary main_v24 main_v25 (broadcastInDim S8x72 ![0, 1] bcast_S1x72_S8x72_0_1 : (⟨S1x72, .f32⟩ : BufTy).Contents (Elt F) → (⟨S8x72, .f32⟩ : BufTy).Contents (Elt F)),
    StableHlo.binary main_v23 main_v25 main_v26 (addf : (⟨S8x72, .f32⟩ : BufTy).Contents (Elt F) → (⟨S8x72, .f32⟩ : BufTy).Contents (Elt F) → (⟨S8x72, .f32⟩ : BufTy).Contents (Elt F)),
    StableHlo.reshape main_v26 main_v27 rfl shapeCasts_S8x72_S8x8x9,
    StableHlo.nullary main_cst_4 (constant S_ .f32 0xFF800000#32),
    StableHlo.binary main_v27 main_cst_4 main_v28 ((fun x v => Host.reduce FloatOps.maximumf x v reducesTo_S8x8x9_S8x8_d2 h_S_) : (⟨S8x8x9, .f32⟩ : BufTy).Contents (Elt F) → (⟨S_, .f32⟩ : BufTy).Contents (Elt F) → (⟨S8x8, .f32⟩ : BufTy).Contents (Elt F)),
    StableHlo.nullary main_cst_5 (constant S_ .f32 0xFF800000#32),
    StableHlo.unary main_cst_5 main_v29 (broadcastInDim S8x8 ![] bcast_S_S8x8 : (⟨S_, .f32⟩ : BufTy).Contents (Elt F) → (⟨S8x8, .f32⟩ : BufTy).Contents (Elt F)),
    StableHlo.binary main_v29 main_v28 main_v30 (maximumf : (⟨S8x8, .f32⟩ : BufTy).Contents (Elt F) → (⟨S8x8, .f32⟩ : BufTy).Contents (Elt F) → (⟨S8x8, .f32⟩ : BufTy).Contents (Elt F)),
    StableHlo.unary main_v30 main_v31 (broadcastInDim S8x8x1 ![0, 1] bcast_S8x8_S8x8x1_0_1 : (⟨S8x8, .f32⟩ : BufTy).Contents (Elt F) → (⟨S8x8x1, .f32⟩ : BufTy).Contents (Elt F)),
    StableHlo.unary main_v31 main_v32 (broadcastInDim S8x8x9 ![0, 1, 2] bcast_S8x8x1_S8x8x9_0_1_2 : (⟨S8x8x1, .f32⟩ : BufTy).Contents (Elt F) → (⟨S8x8x9, .f32⟩ : BufTy).Contents (Elt F)),
    StableHlo.binary main_v27 main_v32 main_v33 (subf : (⟨S8x8x9, .f32⟩ : BufTy).Contents (Elt F) → (⟨S8x8x9, .f32⟩ : BufTy).Contents (Elt F) → (⟨S8x8x9, .f32⟩ : BufTy).Contents (Elt F)),
    StableHlo.unary main_v33 main_v34 (Host.exp : (⟨S8x8x9, .f32⟩ : BufTy).Contents (Elt F) → (⟨S8x8x9, .f32⟩ : BufTy).Contents (Elt F)),
    StableHlo.nullary main_cst_6 (constant S_ .f32 0x00000000#32),
    StableHlo.binary main_v34 main_cst_6 main_v35 ((fun x v => Host.reduceAdd x v reducesTo_S8x8x9_S8x8_d2 h_S_) : (⟨S8x8x9, .f32⟩ : BufTy).Contents (Elt F) → (⟨S_, .f32⟩ : BufTy).Contents (Elt F) → (⟨S8x8, .f32⟩ : BufTy).Contents (Elt F)),
    StableHlo.unary main_v35 main_v36 (broadcastInDim S8x8x1 ![0, 1] bcast_S8x8_S8x8x1_0_1 : (⟨S8x8, .f32⟩ : BufTy).Contents (Elt F) → (⟨S8x8x1, .f32⟩ : BufTy).Contents (Elt F)),
    StableHlo.unary main_v36 main_v37 (broadcastInDim S8x8x9 ![0, 1, 2] bcast_S8x8x1_S8x8x9_0_1_2 : (⟨S8x8x1, .f32⟩ : BufTy).Contents (Elt F) → (⟨S8x8x9, .f32⟩ : BufTy).Contents (Elt F)),
    StableHlo.binary main_v34 main_v37 main_v38 (Host.divf : (⟨S8x8x9, .f32⟩ : BufTy).Contents (Elt F) → (⟨S8x8x9, .f32⟩ : BufTy).Contents (Elt F) → (⟨S8x8x9, .f32⟩ : BufTy).Contents (Elt F)),
    StableHlo.nullary main_c (constantI S_ 32 0#32),
    StableHlo.TRef.unary (.of main_arg0 : StableHlo.TRef sig ⟨S8x128x128x128, .f32⟩) main_call0.v0 (extractStridedSlice S8x128x1x128 ![0, 0, 0, 0] · slices_S8x128x128x128_S8x128x1x128_0_0_0_0),
    StableHlo.TRef.unary (.of main_arg0 : StableHlo.TRef sig ⟨S8x128x128x128, .f32⟩) main_call0.v1 (extractStridedSlice S8x128x1x128 ![0, 0, 1, 0] · slices_S8x128x128x128_S8x128x1x128_0_0_1_0),
    StableHlo.TRef.unary main_call0.v1 main_call0.call0.v0 (Host.reverse [2]),
    StableHlo.TRef.binary main_call0.call0.v0 (.of main_arg0 : StableHlo.TRef sig ⟨S8x128x128x128, .f32⟩) main_call0.v3 (fun a b => concatenate S8x128x129x128 2 [⟨S8x128x1x128, a⟩, ⟨S8x128x128x128, b⟩] concatenates_S8x128x1x128_S8x128x128x128_S8x128x129x128_d2),
    StableHlo.TRef.unary main_call0.v3 main_call0.v4 (extractStridedSlice S8x128x1x128 ![0, 0, 128, 0] · slices_S8x128x129x128_S8x128x1x128_0_0_128_0),
    StableHlo.TRef.unary main_call0.v3 main_call0.v5 (extractStridedSlice S8x128x1x128 ![0, 0, 127, 0] · slices_S8x128x129x128_S8x128x1x128_0_0_127_0),
    StableHlo.TRef.unary main_call0.v5 main_call0.call1.v0 (Host.reverse [2]),
    StableHlo.TRef.binary main_call0.v3 main_call0.call1.v0 main_call0.v7 (fun a b => concatenate S8x128x130x128 2 [⟨S8x128x129x128, a⟩, ⟨S8x128x1x128, b⟩] concatenates_S8x128x129x128_S8x128x1x128_S8x128x130x128_d2),
    StableHlo.TRef.unary main_call0.v7 main_call0.v8 (extractStridedSlice S8x128x130x1 ![0, 0, 0, 0] · slices_S8x128x130x128_S8x128x130x1_0_0_0_0),
    StableHlo.TRef.unary main_call0.v7 main_call0.v9 (extractStridedSlice S8x128x130x1 ![0, 0, 0, 1] · slices_S8x128x130x128_S8x128x130x1_0_0_0_1),
    StableHlo.TRef.unary main_call0.v9 main_call0.call2.v0 (Host.reverse [3]),
    StableHlo.TRef.binary main_call0.call2.v0 main_call0.v7 main_call0.v11 (fun a b => concatenate S8x128x130x129 3 [⟨S8x128x130x1, a⟩, ⟨S8x128x130x128, b⟩] concatenates_S8x128x130x1_S8x128x130x128_S8x128x130x129_d3),
    StableHlo.TRef.unary main_call0.v11 main_call0.v12 (extractStridedSlice S8x128x130x1 ![0, 0, 0, 128] · slices_S8x128x130x129_S8x128x130x1_0_0_0_128),
    StableHlo.TRef.unary main_call0.v11 main_call0.v13 (extractStridedSlice S8x128x130x1 ![0, 0, 0, 127] · slices_S8x128x130x129_S8x128x130x1_0_0_0_127),
    StableHlo.TRef.unary main_call0.v13 main_call0.call3.v0 (Host.reverse [3]),
    StableHlo.TRef.binary main_call0.v11 main_call0.call3.v0 main_call0.v15 (fun a b => concatenate S8x128x130x130 3 [⟨S8x128x130x129, a⟩, ⟨S8x128x130x1, b⟩] concatenates_S8x128x130x129_S8x128x130x1_S8x128x130x130_d3),
    StableHlo.nullary main_cst_7 (constant S_ .f32 0x00000000#32),
    StableHlo.unary main_cst_7 main_v40 (broadcastInDim S8x8x16x128x128 ![] bcast_S_S8x8x16x128x128 : (⟨S_, .f32⟩ : BufTy).Contents (Elt F) → (⟨S8x8x16x128x128, .f32⟩ : BufTy).Contents (Elt F)),
    StableHlo.unary main_v39 main_v41 ((extractStridedSlice S8x128x128x128 ![0, 0, 0, 0] · slices_S8x128x130x130_S8x128x128x128_0_0_0_0) : (⟨S8x128x130x130, .f32⟩ : BufTy).Contents (Elt F) → (⟨S8x128x128x128, .f32⟩ : BufTy).Contents (Elt F)),
    StableHlo.reshape main_v41 main_v42 rfl shapeCasts_S8x128x128x128_S8x8x16x128x128,
    StableHlo.unary main_v38 main_v43 ((extractStridedSlice S8x8x1 ![0, 0, 0] · slices_S8x8x9_S8x8x1_0_0_0) : (⟨S8x8x9, .f32⟩ : BufTy).Contents (Elt F) → (⟨S8x8x1, .f32⟩ : BufTy).Contents (Elt F)),
    StableHlo.reshape main_v43 main_v44 rfl shapeCasts_S8x8x1_S8x8,
    StableHlo.unary main_v44 main_v45 (broadcastInDim S8x8x1x1x1 ![0, 1] bcast_S8x8_S8x8x1x1x1_0_1 : (⟨S8x8, .f32⟩ : BufTy).Contents (Elt F) → (⟨S8x8x1x1x1, .f32⟩ : BufTy).Contents (Elt F)),
    StableHlo.unary main_v45 main_v46 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    StableHlo.binary main_v42 main_v46 main_v47 (mulf : (⟨S8x8x16x128x128, .f32⟩ : BufTy).Contents (Elt F) → (⟨S8x8x16x128x128, .f32⟩ : BufTy).Contents (Elt F) → (⟨S8x8x16x128x128, .f32⟩ : BufTy).Contents (Elt F)),
    StableHlo.binary main_v40 main_v47 main_v48 (addf : (⟨S8x8x16x128x128, .f32⟩ : BufTy).Contents (Elt F) → (⟨S8x8x16x128x128, .f32⟩ : BufTy).Contents (Elt F) → (⟨S8x8x16x128x128, .f32⟩ : BufTy).Contents (Elt F)),
    StableHlo.unary main_v39 main_v49 ((extractStridedSlice S8x128x128x128 ![0, 0, 0, 1] · slices_S8x128x130x130_S8x128x128x128_0_0_0_1) : (⟨S8x128x130x130, .f32⟩ : BufTy).Contents (Elt F) → (⟨S8x128x128x128, .f32⟩ : BufTy).Contents (Elt F)),
    StableHlo.reshape main_v49 main_v50 rfl shapeCasts_S8x128x128x128_S8x8x16x128x128,
    StableHlo.unary main_v38 main_v51 ((extractStridedSlice S8x8x1 ![0, 0, 1] · slices_S8x8x9_S8x8x1_0_0_1) : (⟨S8x8x9, .f32⟩ : BufTy).Contents (Elt F) → (⟨S8x8x1, .f32⟩ : BufTy).Contents (Elt F)),
    StableHlo.reshape main_v51 main_v52 rfl shapeCasts_S8x8x1_S8x8,
    StableHlo.unary main_v52 main_v53 (broadcastInDim S8x8x1x1x1 ![0, 1] bcast_S8x8_S8x8x1x1x1_0_1 : (⟨S8x8, .f32⟩ : BufTy).Contents (Elt F) → (⟨S8x8x1x1x1, .f32⟩ : BufTy).Contents (Elt F)),
    StableHlo.unary main_v53 main_v54 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    StableHlo.binary main_v50 main_v54 main_v55 (mulf : (⟨S8x8x16x128x128, .f32⟩ : BufTy).Contents (Elt F) → (⟨S8x8x16x128x128, .f32⟩ : BufTy).Contents (Elt F) → (⟨S8x8x16x128x128, .f32⟩ : BufTy).Contents (Elt F)),
    StableHlo.binary main_v48 main_v55 main_v56 (addf : (⟨S8x8x16x128x128, .f32⟩ : BufTy).Contents (Elt F) → (⟨S8x8x16x128x128, .f32⟩ : BufTy).Contents (Elt F) → (⟨S8x8x16x128x128, .f32⟩ : BufTy).Contents (Elt F)),
    StableHlo.unary main_v39 main_v57 ((extractStridedSlice S8x128x128x128 ![0, 0, 0, 2] · slices_S8x128x130x130_S8x128x128x128_0_0_0_2) : (⟨S8x128x130x130, .f32⟩ : BufTy).Contents (Elt F) → (⟨S8x128x128x128, .f32⟩ : BufTy).Contents (Elt F)),
    StableHlo.reshape main_v57 main_v58 rfl shapeCasts_S8x128x128x128_S8x8x16x128x128,
    StableHlo.unary main_v38 main_v59 ((extractStridedSlice S8x8x1 ![0, 0, 2] · slices_S8x8x9_S8x8x1_0_0_2) : (⟨S8x8x9, .f32⟩ : BufTy).Contents (Elt F) → (⟨S8x8x1, .f32⟩ : BufTy).Contents (Elt F)),
    StableHlo.reshape main_v59 main_v60 rfl shapeCasts_S8x8x1_S8x8,
    StableHlo.unary main_v60 main_v61 (broadcastInDim S8x8x1x1x1 ![0, 1] bcast_S8x8_S8x8x1x1x1_0_1 : (⟨S8x8, .f32⟩ : BufTy).Contents (Elt F) → (⟨S8x8x1x1x1, .f32⟩ : BufTy).Contents (Elt F)),
    StableHlo.unary main_v61 main_v62 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    StableHlo.binary main_v58 main_v62 main_v63 (mulf : (⟨S8x8x16x128x128, .f32⟩ : BufTy).Contents (Elt F) → (⟨S8x8x16x128x128, .f32⟩ : BufTy).Contents (Elt F) → (⟨S8x8x16x128x128, .f32⟩ : BufTy).Contents (Elt F)),
    StableHlo.binary main_v56 main_v63 main_v64 (addf : (⟨S8x8x16x128x128, .f32⟩ : BufTy).Contents (Elt F) → (⟨S8x8x16x128x128, .f32⟩ : BufTy).Contents (Elt F) → (⟨S8x8x16x128x128, .f32⟩ : BufTy).Contents (Elt F)),
    StableHlo.unary main_v39 main_v65 ((extractStridedSlice S8x128x128x128 ![0, 0, 1, 0] · slices_S8x128x130x130_S8x128x128x128_0_0_1_0) : (⟨S8x128x130x130, .f32⟩ : BufTy).Contents (Elt F) → (⟨S8x128x128x128, .f32⟩ : BufTy).Contents (Elt F)),
    StableHlo.reshape main_v65 main_v66 rfl shapeCasts_S8x128x128x128_S8x8x16x128x128,
    StableHlo.unary main_v38 main_v67 ((extractStridedSlice S8x8x1 ![0, 0, 3] · slices_S8x8x9_S8x8x1_0_0_3) : (⟨S8x8x9, .f32⟩ : BufTy).Contents (Elt F) → (⟨S8x8x1, .f32⟩ : BufTy).Contents (Elt F)),
    StableHlo.reshape main_v67 main_v68 rfl shapeCasts_S8x8x1_S8x8,
    StableHlo.unary main_v68 main_v69 (broadcastInDim S8x8x1x1x1 ![0, 1] bcast_S8x8_S8x8x1x1x1_0_1 : (⟨S8x8, .f32⟩ : BufTy).Contents (Elt F) → (⟨S8x8x1x1x1, .f32⟩ : BufTy).Contents (Elt F)),
    StableHlo.unary main_v69 main_v70 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    StableHlo.binary main_v66 main_v70 main_v71 (mulf : (⟨S8x8x16x128x128, .f32⟩ : BufTy).Contents (Elt F) → (⟨S8x8x16x128x128, .f32⟩ : BufTy).Contents (Elt F) → (⟨S8x8x16x128x128, .f32⟩ : BufTy).Contents (Elt F)),
    StableHlo.binary main_v64 main_v71 main_v72 (addf : (⟨S8x8x16x128x128, .f32⟩ : BufTy).Contents (Elt F) → (⟨S8x8x16x128x128, .f32⟩ : BufTy).Contents (Elt F) → (⟨S8x8x16x128x128, .f32⟩ : BufTy).Contents (Elt F)),
    StableHlo.unary main_v39 main_v73 ((extractStridedSlice S8x128x128x128 ![0, 0, 1, 1] · slices_S8x128x130x130_S8x128x128x128_0_0_1_1) : (⟨S8x128x130x130, .f32⟩ : BufTy).Contents (Elt F) → (⟨S8x128x128x128, .f32⟩ : BufTy).Contents (Elt F)),
    StableHlo.reshape main_v73 main_v74 rfl shapeCasts_S8x128x128x128_S8x8x16x128x128,
    StableHlo.unary main_v38 main_v75 ((extractStridedSlice S8x8x1 ![0, 0, 4] · slices_S8x8x9_S8x8x1_0_0_4) : (⟨S8x8x9, .f32⟩ : BufTy).Contents (Elt F) → (⟨S8x8x1, .f32⟩ : BufTy).Contents (Elt F)),
    StableHlo.reshape main_v75 main_v76 rfl shapeCasts_S8x8x1_S8x8,
    StableHlo.unary main_v76 main_v77 (broadcastInDim S8x8x1x1x1 ![0, 1] bcast_S8x8_S8x8x1x1x1_0_1 : (⟨S8x8, .f32⟩ : BufTy).Contents (Elt F) → (⟨S8x8x1x1x1, .f32⟩ : BufTy).Contents (Elt F)),
    StableHlo.unary main_v77 main_v78 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    StableHlo.binary main_v74 main_v78 main_v79 (mulf : (⟨S8x8x16x128x128, .f32⟩ : BufTy).Contents (Elt F) → (⟨S8x8x16x128x128, .f32⟩ : BufTy).Contents (Elt F) → (⟨S8x8x16x128x128, .f32⟩ : BufTy).Contents (Elt F)),
    StableHlo.binary main_v72 main_v79 main_v80 (addf : (⟨S8x8x16x128x128, .f32⟩ : BufTy).Contents (Elt F) → (⟨S8x8x16x128x128, .f32⟩ : BufTy).Contents (Elt F) → (⟨S8x8x16x128x128, .f32⟩ : BufTy).Contents (Elt F)),
    StableHlo.unary main_v39 main_v81 ((extractStridedSlice S8x128x128x128 ![0, 0, 1, 2] · slices_S8x128x130x130_S8x128x128x128_0_0_1_2) : (⟨S8x128x130x130, .f32⟩ : BufTy).Contents (Elt F) → (⟨S8x128x128x128, .f32⟩ : BufTy).Contents (Elt F)),
    StableHlo.reshape main_v81 main_v82 rfl shapeCasts_S8x128x128x128_S8x8x16x128x128,
    StableHlo.unary main_v38 main_v83 ((extractStridedSlice S8x8x1 ![0, 0, 5] · slices_S8x8x9_S8x8x1_0_0_5) : (⟨S8x8x9, .f32⟩ : BufTy).Contents (Elt F) → (⟨S8x8x1, .f32⟩ : BufTy).Contents (Elt F)),
    StableHlo.reshape main_v83 main_v84 rfl shapeCasts_S8x8x1_S8x8,
    StableHlo.unary main_v84 main_v85 (broadcastInDim S8x8x1x1x1 ![0, 1] bcast_S8x8_S8x8x1x1x1_0_1 : (⟨S8x8, .f32⟩ : BufTy).Contents (Elt F) → (⟨S8x8x1x1x1, .f32⟩ : BufTy).Contents (Elt F)),
    StableHlo.unary main_v85 main_v86 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    StableHlo.binary main_v82 main_v86 main_v87 (mulf : (⟨S8x8x16x128x128, .f32⟩ : BufTy).Contents (Elt F) → (⟨S8x8x16x128x128, .f32⟩ : BufTy).Contents (Elt F) → (⟨S8x8x16x128x128, .f32⟩ : BufTy).Contents (Elt F)),
    StableHlo.binary main_v80 main_v87 main_v88 (addf : (⟨S8x8x16x128x128, .f32⟩ : BufTy).Contents (Elt F) → (⟨S8x8x16x128x128, .f32⟩ : BufTy).Contents (Elt F) → (⟨S8x8x16x128x128, .f32⟩ : BufTy).Contents (Elt F)),
    StableHlo.unary main_v39 main_v89 ((extractStridedSlice S8x128x128x128 ![0, 0, 2, 0] · slices_S8x128x130x130_S8x128x128x128_0_0_2_0) : (⟨S8x128x130x130, .f32⟩ : BufTy).Contents (Elt F) → (⟨S8x128x128x128, .f32⟩ : BufTy).Contents (Elt F)),
    StableHlo.reshape main_v89 main_v90 rfl shapeCasts_S8x128x128x128_S8x8x16x128x128,
    StableHlo.unary main_v38 main_v91 ((extractStridedSlice S8x8x1 ![0, 0, 6] · slices_S8x8x9_S8x8x1_0_0_6) : (⟨S8x8x9, .f32⟩ : BufTy).Contents (Elt F) → (⟨S8x8x1, .f32⟩ : BufTy).Contents (Elt F)),
    StableHlo.reshape main_v91 main_v92 rfl shapeCasts_S8x8x1_S8x8,
    StableHlo.unary main_v92 main_v93 (broadcastInDim S8x8x1x1x1 ![0, 1] bcast_S8x8_S8x8x1x1x1_0_1 : (⟨S8x8, .f32⟩ : BufTy).Contents (Elt F) → (⟨S8x8x1x1x1, .f32⟩ : BufTy).Contents (Elt F)),
    StableHlo.unary main_v93 main_v94 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    StableHlo.binary main_v90 main_v94 main_v95 (mulf : (⟨S8x8x16x128x128, .f32⟩ : BufTy).Contents (Elt F) → (⟨S8x8x16x128x128, .f32⟩ : BufTy).Contents (Elt F) → (⟨S8x8x16x128x128, .f32⟩ : BufTy).Contents (Elt F)),
    StableHlo.binary main_v88 main_v95 main_v96 (addf : (⟨S8x8x16x128x128, .f32⟩ : BufTy).Contents (Elt F) → (⟨S8x8x16x128x128, .f32⟩ : BufTy).Contents (Elt F) → (⟨S8x8x16x128x128, .f32⟩ : BufTy).Contents (Elt F)),
    StableHlo.unary main_v39 main_v97 ((extractStridedSlice S8x128x128x128 ![0, 0, 2, 1] · slices_S8x128x130x130_S8x128x128x128_0_0_2_1) : (⟨S8x128x130x130, .f32⟩ : BufTy).Contents (Elt F) → (⟨S8x128x128x128, .f32⟩ : BufTy).Contents (Elt F)),
    StableHlo.reshape main_v97 main_v98 rfl shapeCasts_S8x128x128x128_S8x8x16x128x128,
    StableHlo.unary main_v38 main_v99 ((extractStridedSlice S8x8x1 ![0, 0, 7] · slices_S8x8x9_S8x8x1_0_0_7) : (⟨S8x8x9, .f32⟩ : BufTy).Contents (Elt F) → (⟨S8x8x1, .f32⟩ : BufTy).Contents (Elt F)),
    StableHlo.reshape main_v99 main_v100 rfl shapeCasts_S8x8x1_S8x8,
    StableHlo.unary main_v100 main_v101 (broadcastInDim S8x8x1x1x1 ![0, 1] bcast_S8x8_S8x8x1x1x1_0_1 : (⟨S8x8, .f32⟩ : BufTy).Contents (Elt F) → (⟨S8x8x1x1x1, .f32⟩ : BufTy).Contents (Elt F)),
    StableHlo.unary main_v101 main_v102 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    StableHlo.binary main_v98 main_v102 main_v103 (mulf : (⟨S8x8x16x128x128, .f32⟩ : BufTy).Contents (Elt F) → (⟨S8x8x16x128x128, .f32⟩ : BufTy).Contents (Elt F) → (⟨S8x8x16x128x128, .f32⟩ : BufTy).Contents (Elt F)),
    StableHlo.binary main_v96 main_v103 main_v104 (addf : (⟨S8x8x16x128x128, .f32⟩ : BufTy).Contents (Elt F) → (⟨S8x8x16x128x128, .f32⟩ : BufTy).Contents (Elt F) → (⟨S8x8x16x128x128, .f32⟩ : BufTy).Contents (Elt F)),
    StableHlo.unary main_v39 main_v105 ((extractStridedSlice S8x128x128x128 ![0, 0, 2, 2] · slices_S8x128x130x130_S8x128x128x128_0_0_2_2) : (⟨S8x128x130x130, .f32⟩ : BufTy).Contents (Elt F) → (⟨S8x128x128x128, .f32⟩ : BufTy).Contents (Elt F)),
    StableHlo.reshape main_v105 main_v106 rfl shapeCasts_S8x128x128x128_S8x8x16x128x128,
    StableHlo.unary main_v38 main_v107 ((extractStridedSlice S8x8x1 ![0, 0, 8] · slices_S8x8x9_S8x8x1_0_0_8) : (⟨S8x8x9, .f32⟩ : BufTy).Contents (Elt F) → (⟨S8x8x1, .f32⟩ : BufTy).Contents (Elt F)),
    StableHlo.reshape main_v107 main_v108 rfl shapeCasts_S8x8x1_S8x8,
    StableHlo.unary main_v108 main_v109 (broadcastInDim S8x8x1x1x1 ![0, 1] bcast_S8x8_S8x8x1x1x1_0_1 : (⟨S8x8, .f32⟩ : BufTy).Contents (Elt F) → (⟨S8x8x1x1x1, .f32⟩ : BufTy).Contents (Elt F)),
    StableHlo.unary main_v109 main_v110 (broadcastInDim S8x8x16x128x128 ![0, 1, 2, 3, 4] bcast_S8x8x1x1x1_S8x8x16x128x128_0_1_2_3_4 : (⟨S8x8x1x1x1, .f32⟩ : BufTy).Contents (Elt F) → (⟨S8x8x16x128x128, .f32⟩ : BufTy).Contents (Elt F)),
    StableHlo.binary main_v106 main_v110 main_v111 (mulf : (⟨S8x8x16x128x128, .f32⟩ : BufTy).Contents (Elt F) → (⟨S8x8x16x128x128, .f32⟩ : BufTy).Contents (Elt F) → (⟨S8x8x16x128x128, .f32⟩ : BufTy).Contents (Elt F)),
    StableHlo.binary main_v104 main_v111 main_v112 (addf : (⟨S8x8x16x128x128, .f32⟩ : BufTy).Contents (Elt F) → (⟨S8x8x16x128x128, .f32⟩ : BufTy).Contents (Elt F) → (⟨S8x8x16x128x128, .f32⟩ : BufTy).Contents (Elt F)),
    StableHlo.reshape main_v112 main_v113 rfl shapeCasts_S8x8x16x128x128_S8x128x128x128,
    StableHlo.binary main_arg0 main_v113 main_v114 (subf : (⟨S8x128x128x128, .f32⟩ : BufTy).Contents (Elt F) → (⟨S8x128x128x128, .f32⟩ : BufTy).Contents (Elt F) → (⟨S8x128x128x128, .f32⟩ : BufTy).Contents (Elt F)) ]

/-- Every operation touches TensorCore buffers only: one library fact per operation, by its kind. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., reshape_bufs_sub .., binary_bufs_sub ..⟩

end Cert.ReferenceIdeal.RefOps

end
-- ==== Proof.RRun.lean ====
/-
  The reference program's run, read back: @main is the straight line of its 140 host operations (the padding function
  and its flips written out at their call sites), so every weakly fair execution terminates with each buffer at the
  operations' fold over the launch contents; the fold is taken in three stretches (filter weights, padding, taps).
-/
import proofs.«128193_j26018911879615_1_alg».proof.Proof.RefOps

noncomputable section

namespace Cert.ReferenceIdeal.RRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-- The fold over a concatenated line is the fold over its second part from the fold over its first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

theorem ops_eq : (ops : List (HloOp τ sig (Elt F))) = opsA ++ (opsB ++ opsC) := rfl

-- 140 binds re-associated: the rewrite under the chain recurses once per statement
set_option maxRecDepth 8192 in
set_option maxHeartbeats 2000000 in
/-- @main is that straight line: the three windows and the called functions unfolded, sequencing reassociated. -/
theorem main_eq (c : Dev nD) : main (F := F) c = seq ops := by
  simp only [main, main_part0, main_part1, main_part2, fn_pad.body, fn_flip.body, fn_flip_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- At the compiled mesh, from any memory with zero counters: every weakly fair execution of @main terminates, and every
    final state has each buffer at the fold of the taps over the fold of the padding over the fold of the filter chain
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsC (after opsB (after opsA (launchContents m c))) (b : DevRef τ sig) := by
  have h := run_seq scopedRefs_eq scopedSems_eq defs main (fun _ => ops) main_eq (fun _ => ops_sub) m ρ
  refine (θ_run defs _ _).mono (fun r hr c b => ?_) h
  rw [hr c b, ops_eq, after_append, after_append]

end Cert.ReferenceIdeal.RRun

end
-- ==== Proof.RFilt.lean ====
/-
  The reference's first stretch, read as values: the mean over the pixels (one sum over rows and columns from 0, divided
  by 16384) followed by the chain from pooled means to filter weights.  The mean is the specification's pooled mean by
  the pooling law; the chain is the specification's chain, operation by operation.  No argument array is written.
-/
import proofs.«128193_j26018911879615_1_alg».proof.Proof.RefOps
import proofs.«128193_j26018911879615_1_alg».proof.Proof.Spec
import proofs.«128193_j26018911879615_1_alg».proof.Proof.PoolLaw
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.ReferenceIdeal.RFilt

open Cert.ReferenceIdeal Cert.ReferenceIdeal.Gen Cert.ReferenceIdeal.RefOps Idealize.ShloMosaic Idealize.ShloMosaic.TcCoe Idealize.ShloMosaic.ValueIdx Idealize.SL.Sem Idealize.ShloMosaic.StableHlo

-- the buffer contents the stretch starts from
variable (V : Valuation τ sig (Elt Ideal))

-- the sums and the running maximum are compared as whole operations and never evaluated
attribute [local irreducible] Host.reduce Host.reduceAdd in
/-- After the first stretch the weight array %38 is the chain of the pooled means of the image and the parameters. -/
theorem v38_eq :
    (after opsA V (main_v38 : DevRef τ sig) : S8x8x9.Idx → EReal)
      = Cert.Spec.filtChain (Cert.Spec.pooled (V (main_arg0 : DevRef τ sig))) (V (main_arg1 : DevRef τ sig)) (V (main_arg2 : DevRef τ sig))
          (V (main_arg3 : DevRef τ sig)) (V (main_arg4 : DevRef τ sig)) (V (main_arg5 : DevRef τ sig)) (V (main_arg6 : DevRef τ sig)) := by
  -- the weight array as the nested operations over the seven arguments
  after_results_simp
  -- its innermost part, the sum over rows and columns from 0 divided by 16384, is the pooled mean
  rw [Cert.Spec.pool_law]
  -- what remains is the chain itself: the same operations on the same operands, the reshape read entry by entry
  rfl

/-! No operation of the stretch writes an argument array: each keeps its contents. -/

theorem arg0_kept : after opsA V (main_arg0 : DevRef τ sig) = V (main_arg0 : DevRef τ sig) := by
  after_results_simp
theorem arg1_kept : after opsA V (main_arg1 : DevRef τ sig) = V (main_arg1 : DevRef τ sig) := by
  after_results_simp
theorem arg2_kept : after opsA V (main_arg2 : DevRef τ sig) = V (main_arg2 : DevRef τ sig) := by
  after_results_simp
theorem arg3_kept : after opsA V (main_arg3 : DevRef τ sig) = V (main_arg3 : DevRef τ sig) := by
  after_results_simp
theorem arg4_kept : after opsA V (main_arg4 : DevRef τ sig) = V (main_arg4 : DevRef τ sig) := by
  after_results_simp
theorem arg5_kept : after opsA V (main_arg5 : DevRef τ sig) = V (main_arg5 : DevRef τ sig) := by
  after_results_simp
theorem arg6_kept : after opsA V (main_arg6 : DevRef τ sig) = V (main_arg6 : DevRef τ sig) := by
  after_results_simp

end Cert.ReferenceIdeal.RFilt

end
-- ==== Proof.RPad.lean ====
/-
  The reference's second stretch, read at an index: the image padded by reflection, one row above (row 1) and one below
  (row 126), then one column to the left (column 1) and one to the right (column 126) of the row-padded array.  Each pad
  is a slice of one row or column, reversed along that axis of extent one (which changes nothing), and a concatenation.
  At (n, c, hp, wp) the padded array is the image at the reflected coordinates.  Nothing else is written.
-/
import proofs.«128193_j26018911879615_1_alg».proof.Proof.RefOps
import proofs.«128193_j26018911879615_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.ReferenceIdeal.RPad

open Cert.ReferenceIdeal Cert.ReferenceIdeal.Gen Cert.ReferenceIdeal.RefOps Idealize.ShloMosaic Idealize.ShloMosaic.TcCoe Idealize.ShloMosaic.ValueIdx Idealize.SL.Sem Idealize.ShloMosaic.StableHlo

-- the buffer contents the stretch starts from
variable (V : Valuation τ sig (Elt Ideal))

/-! ## The four pads as array functions -/

section Pure

/-- Row 1 of the array, reversed along its one row, put above the array: [8,128,128,128] to [8,128,129,128]. -/
private def addTop (x : S8x128x128x128.Idx → EReal) : S8x128x129x128.Idx → EReal :=
  concatenate S8x128x129x128 2
    [⟨S8x128x1x128, Host.reverse [2] (extractStridedSlice S8x128x1x128 ![0, 0, 1, 0] x slices_S8x128x128x128_S8x128x1x128_0_0_1_0)⟩,
     ⟨S8x128x128x128, x⟩] concatenates_S8x128x1x128_S8x128x128x128_S8x128x129x128_d2

/-- Row 127 of the array, reversed along its one row, put below the array: [8,128,129,128] to [8,128,130,128]. -/
private def addBottom (y : S8x128x129x128.Idx → EReal) : S8x128x130x128.Idx → EReal :=
  concatenate S8x128x130x128 2
    [⟨S8x128x129x128, y⟩,
     ⟨S8x128x1x128, Host.reverse [2] (extractStridedSlice S8x128x1x128 ![0, 0, 127, 0] y slices_S8x128x129x128_S8x128x1x128_0_0_127_0)⟩]
    concatenates_S8x128x129x128_S8x128x1x128_S8x128x130x128_d2

/-- Column 1 of the array, reversed along its one column, put left of the array: [8,128,130,128] to [8,128,130,129]. -/
private def addLeft (y : S8x128x130x128.Idx → EReal) : S8x128x130x129.Idx → EReal :=
  concatenate S8x128x130x129 3
    [⟨S8x128x130x1, Host.reverse [3] (extractStridedSlice S8x128x130x1 ![0, 0, 0, 1] y slices_S8x128x130x128_S8x128x130x1_0_0_0_1)⟩,
     ⟨S8x128x130x128, y⟩] concatenates_S8x128x130x1_S8x128x130x128_S8x128x130x129_d3

/-- Column 127 of the array, reversed along its one column, put right of the array: [8,128,130,129] to [8,128,130,130]. -/
private def addRight (y : S8x128x130x129.Idx → EReal) : S8x128x130x130.Idx → EReal :=
  concatenate S8x128x130x130 3
    [⟨S8x128x130x129, y⟩,
     ⟨S8x128x130x1, Host.reverse [3] (extractStridedSlice S8x128x130x1 ![0, 0, 0, 127] y slices_S8x128x130x129_S8x128x130x1_0_0_0_127)⟩]
    concatenates_S8x128x130x129_S8x128x130x1_S8x128x130x130_d3

/-- The padded array as a function of the image. -/
private def padOf (x : S8x128x128x128.Idx → EReal) : S8x128x130x130.Idx → EReal :=
  addRight (addLeft (addBottom (addTop x)))

/-- Row 0 of the top-padded array is row 1 of the array, row h ≥ 1 is row h - 1.  (A reversal along an axis of
    extent one moves nothing: the one coordinate 0 reverses to 0.) -/
private theorem addTop_apply (x : S8x128x128x128.Idx → EReal) (n : Fin 8) (c : Fin 128) (h : Fin 129) (w : Fin 128) (h' : Fin 128)
    (hh : h'.val = if h.val = 0 then 1 else h.val - 1) :
    addTop x (ix4 n c h w) = x (ix4 n c h' w) := by
  unfold addTop
  by_cases h0 : h.val = 0
  · rw [if_pos h0] at hh
    refine (concatenate_pair_apply_left (t := S8x128x129x128) (s₁ := S8x128x1x128) (s₂ := S8x128x128x128) 2 _ _ _
      (ix4 n c h w) rfl (ix4 n c (0 : Fin 1) w) ?_).trans ?_
    · intro b
      match b with
      | ⟨0, _⟩ => rfl
      | ⟨1, _⟩ => rfl
      | ⟨2, _⟩ => exact h0.symm
      | ⟨3, _⟩ => rfl
    · unfold Host.reverse
      refine extractStridedSlice_apply _ x _ _ (ix4 n c h' w) ?_
      intro a
      match a with
      | ⟨0, _⟩ => rw [if_neg (by simp [Fin.ext_iff])]; exact (Nat.zero_add _).symm
      | ⟨1, _⟩ => rw [if_neg (by simp [Fin.ext_iff])]; exact (Nat.zero_add _).symm
      | ⟨2, _⟩ => rw [if_pos (by simp [Fin.ext_iff])]; exact hh
      | ⟨3, _⟩ => rw [if_neg (by simp [Fin.ext_iff])]; exact (Nat.zero_add _).symm
  · rw [if_neg h0] at hh
    refine concatenate_pair_apply_right (t := S8x128x129x128) (s₁ := S8x128x1x128) (s₂ := S8x128x128x128) 2 _ _ _
      (ix4 n c h w) rfl rfl (ix4 n c h' w) ?_ ?_
    · intro b hb
      match b with
      | ⟨0, _⟩ => rfl
      | ⟨1, _⟩ => rfl
      | ⟨2, _⟩ => exact absurd rfl hb
      | ⟨3, _⟩ => rfl
    · show h'.val + 1 = h.val
      omega

/-- Rows 0 .. 128 of the bottom-padded array are the array's, row 129 is its row 127. -/
private theorem addBottom_apply (y : S8x128x129x128.Idx → EReal) (n : Fin 8) (c : Fin 128) (h : Fin 130) (w : Fin 128) (h' : Fin 129)
    (hh : h'.val = if h.val < 129 then h.val else 127) :
    addBottom y (ix4 n c h w) = y (ix4 n c h' w) := by
  unfold addBottom
  by_cases h0 : h.val < 129
  · rw [if_pos h0] at hh
    refine concatenate_pair_apply_left (t := S8x128x130x128) (s₁ := S8x128x129x128) (s₂ := S8x128x1x128) 2 _ _ _
      (ix4 n c h w) rfl (ix4 n c h' w) ?_
    intro b
    match b with
    | ⟨0, _⟩ => rfl
    | ⟨1, _⟩ => rfl
    | ⟨2, _⟩ => exact hh
    | ⟨3, _⟩ => rfl
  · rw [if_neg h0] at hh
    refine (concatenate_pair_apply_right (t := S8x128x130x128) (s₁ := S8x128x129x128) (s₂ := S8x128x1x128) 2 _ _ _
      (ix4 n c h w) rfl rfl (ix4 n c (0 : Fin 1) w) ?_ ?_).trans ?_
    · intro b hb
      match b with
      | ⟨0, _⟩ => rfl
      | ⟨1, _⟩ => rfl
      | ⟨2, _⟩ => exact absurd rfl hb
      | ⟨3, _⟩ => rfl
    · show 0 + 129 = h.val
      have := h.isLt
      omega
    · unfold Host.reverse
      refine extractStridedSlice_apply _ y _ _ (ix4 n c h' w) ?_
      intro a
      match a with
      | ⟨0, _⟩ => rw [if_neg (by simp [Fin.ext_iff])]; exact (Nat.zero_add _).symm
      | ⟨1, _⟩ => rw [if_neg (by simp [Fin.ext_iff])]; exact (Nat.zero_add _).symm
      | ⟨2, _⟩ => rw [if_pos (by simp [Fin.ext_iff])]; exact hh
      | ⟨3, _⟩ => rw [if_neg (by simp [Fin.ext_iff])]; exact (Nat.zero_add _).symm

/-- Column 0 of the left-padded array is column 1 of the array, column w ≥ 1 is column w - 1. -/
private theorem addLeft_apply (y : S8x128x130x128.Idx → EReal) (n : Fin 8) (c : Fin 128) (h : Fin 130) (w : Fin 129) (w' : Fin 128)
    (hw : w'.val = if w.val = 0 then 1 else w.val - 1) :
    addLeft y (ix4 n c h w) = y (ix4 n c h w') := by
  unfold addLeft
  by_cases w0 : w.val = 0
  · rw [if_pos w0] at hw
    refine (concatenate_pair_apply_left (t := S8x128x130x129) (s₁ := S8x128x130x1) (s₂ := S8x128x130x128) 3 _ _ _
      (ix4 n c h w) rfl (ix4 n c h (0 : Fin 1)) ?_).trans ?_
    · intro b
      match b with
      | ⟨0, _⟩ => rfl
      | ⟨1, _⟩ => rfl
      | ⟨2, _⟩ => rfl
      | ⟨3, _⟩ => exact w0.symm
    · unfold Host.reverse
      refine extractStridedSlice_apply _ y _ _ (ix4 n c h w') ?_
      intro a
      match a with
      | ⟨0, _⟩ => rw [if_neg (by simp [Fin.ext_iff])]; exact (Nat.zero_add _).symm
      | ⟨1, _⟩ => rw [if_neg (by simp [Fin.ext_iff])]; exact (Nat.zero_add _).symm
      | ⟨2, _⟩ => rw [if_neg (by simp [Fin.ext_iff])]; exact (Nat.zero_add _).symm
      | ⟨3, _⟩ => rw [if_pos (by simp [Fin.ext_iff])]; exact hw
  · rw [if_neg w0] at hw
    refine concatenate_pair_apply_right (t := S8x128x130x129) (s₁ := S8x128x130x1) (s₂ := S8x128x130x128) 3 _ _ _
      (ix4 n c h w) rfl rfl (ix4 n c h w') ?_ ?_
    · intro b hb
      match b with
      | ⟨0, _⟩ => rfl
      | ⟨1, _⟩ => rfl
      | ⟨2, _⟩ => rfl
      | ⟨3, _⟩ => exact absurd rfl hb
    · show w'.val + 1 = w.val
      omega

/-- Columns 0 .. 128 of the right-padded array are the array's, column 129 is its column 127. -/
private theorem addRight_apply (y : S8x128x130x129.Idx → EReal) (n : Fin 8) (c : Fin 128) (h : Fin 130) (w : Fin 130) (w' : Fin 129)
    (hw : w'.val = if w.val < 129 then w.val else 127) :
    addRight y (ix4 n c h w) = y (ix4 n c h w') := by
  unfold addRight
  by_cases w0 : w.val < 129
  · rw [if_pos w0] at hw
    refine concatenate_pair_apply_left (t := S8x128x130x130) (s₁ := S8x128x130x129) (s₂ := S8x128x130x1) 3 _ _ _
      (ix4 n c h w) rfl (ix4 n c h w') ?_
    intro b
    match b with
    | ⟨0, _⟩ => rfl
    | ⟨1, _⟩ => rfl
    | ⟨2, _⟩ => rfl
    | ⟨3, _⟩ => exact hw
  · rw [if_neg w0] at hw
    refine (concatenate_pair_apply_right (t := S8x128x130x130) (s₁ := S8x128x130x129) (s₂ := S8x128x130x1) 3 _ _ _
      (ix4 n c h w) rfl rfl (ix4 n c h (0 : Fin 1)) ?_ ?_).trans ?_
    · intro b hb
      match b with
      | ⟨0, _⟩ => rfl
      | ⟨1, _⟩ => rfl
      | ⟨2, _⟩ => rfl
      | ⟨3, _⟩ => exact absurd rfl hb
    · show 0 + 129 = w.val
      have := w.isLt
      omega
    · unfold Host.reverse
      refine extractStridedSlice_apply _ y _ _ (ix4 n c h w') ?_
      intro a
      match a with
      | ⟨0, _⟩ => rw [if_neg (by simp [Fin.ext_iff])]; exact (Nat.zero_add _).symm
      | ⟨1, _⟩ => rw [if_neg (by simp [Fin.ext_iff])]; exact (Nat.zero_add _).symm
      | ⟨2, _⟩ => rw [if_neg (by simp [Fin.ext_iff])]; exact (Nat.zero_add _).symm
      | ⟨3, _⟩ => rw [if_pos (by simp [Fin.ext_iff])]; exact hw

/-- The reflection in two steps: first 129 goes to 127 (the right or bottom pad), then 0 goes to 1 and every other
    k to k - 1 (the left or top pad). -/
private theorem mir_eq (k : Nat) :
    Cert.Spec.mir k = if (if k < 129 then k else 127) = 0 then 1 else (if k < 129 then k else 127) - 1 := by
  unfold Cert.Spec.mir
  by_cases h1 : k < 129
  · rw [if_pos h1]
    by_cases h2 : k = 0
    · rw [if_pos h2, if_pos h2]
    · rw [if_neg h2, if_neg h2, if_pos (by omega)]
  · rw [if_neg h1, if_neg (by omega : ¬ k = 0), if_neg (by omega : ¬ k ≤ 128)]
    rfl

/-- The padded array at (n, c, hp, wp) is the image at the reflected coordinates: the column pads take wp to
    min wp 128 or 127, then to mir wp; the row pads take hp to mir hp the same way. -/
private theorem padOf_apply (x : S8x128x128x128.Idx → EReal) (n : Fin 8) (c : Fin 128) (hp wp : Fin 130) :
    padOf x (ix4 n c hp wp) = x (ix4 n c (Cert.Spec.mirF hp) (Cert.Spec.mirF wp)) := by
  have hpl := hp.isLt
  have wpl := wp.isLt
  unfold padOf
  refine (addRight_apply _ n c hp wp ⟨if wp.val < 129 then wp.val else 127, by split <;> omega⟩ rfl).trans ?_
  refine (addLeft_apply _ n c hp _ (Cert.Spec.mirF wp) ?_).trans ?_
  · exact mir_eq wp.val
  refine (addBottom_apply _ n c hp _ ⟨if hp.val < 129 then hp.val else 127, by split <;> omega⟩ rfl).trans ?_
  refine addTop_apply x n c _ _ (Cert.Spec.mirF hp) ?_
  exact mir_eq hp.val

end Pure

/-! ## The stretch's results -/

/-- The sixteen operations leave the padded array of the image in %39. -/
private theorem v39_eq : (after opsB V (main_v39 : DevRef τ sig) : S8x128x130x130.Idx → EReal)
    = padOf (V (main_arg0 : DevRef τ sig) : S8x128x128x128.Idx → EReal) := by
  after_results
  simp only [TRef.ofBuf, TRef.toBuf, cast_cast, cast_eq]
  rfl

/-- The padded array %39 at (n, c, hp, wp) is the image at (n, c, mir hp, mir wp). -/
theorem v39_apply (n : Fin 8) (c : Fin 128) (hp wp : Fin 130) :
    (after opsB V (main_v39 : DevRef τ sig) : S8x128x130x130.Idx → EReal) (ix4 n c hp wp)
      = (V (main_arg0 : DevRef τ sig) : S8x128x128x128.Idx → EReal) (ix4 n c (Cert.Spec.mirF hp) (Cert.Spec.mirF wp)) := by
  rw [v39_eq]
  exact padOf_apply _ n c hp wp

theorem v38_kept : after opsB V (main_v38 : DevRef τ sig) = V (main_v38 : DevRef τ sig) := by
  after_results
theorem arg0_kept : after opsB V (main_arg0 : DevRef τ sig) = V (main_arg0 : DevRef τ sig) := by
  after_results
theorem arg1_kept : after opsB V (main_arg1 : DevRef τ sig) = V (main_arg1 : DevRef τ sig) := by
  after_results
theorem arg2_kept : after opsB V (main_arg2 : DevRef τ sig) = V (main_arg2 : DevRef τ sig) := by
  after_results
theorem arg3_kept : after opsB V (main_arg3 : DevRef τ sig) = V (main_arg3 : DevRef τ sig) := by
  after_results
theorem arg4_kept : after opsB V (main_arg4 : DevRef τ sig) = V (main_arg4 : DevRef τ sig) := by
  after_results
theorem arg5_kept : after opsB V (main_arg5 : DevRef τ sig) = V (main_arg5 : DevRef τ sig) := by
  after_results
theorem arg6_kept : after opsB V (main_arg6 : DevRef τ sig) = V (main_arg6 : DevRef τ sig) := by
  after_results

end Cert.ReferenceIdeal.RPad

end
-- ==== Proof.RConv.lean ====
/-
  The reference's third stretch, read at an index: nine times, a 128 x 128 window of the padded array (offset (i, j)),
  viewed as [8, 8, 16, 128, 128] (channel 16 g + c' at (g, c')), is multiplied by the weight of (image, group, tap)
  broadcast over the group's channels and pixels and added to the running sum, which starts at zero; the sum is viewed
  back as [8, 128, 128, 128], and the second result is the image less it.  At (n, c, h, w) the first result is the
  nine-tap sum over the padded array with the weights of (n, c / 16).

  The stretch's first result is one array expression in the padded array and the weights (conv9).  One tap of it, read
  at (n, g, c', h, w), is the padded array at (n, 16 g + c', h + i, w + j) times the weight at (n, g, k): the view by
  groups keeps the row-major position, the window shifts the pixel by the offsets, and the two broadcasts of the weight
  forget c', h and w.  The view back at (n, c, h, w) reads position (n, c / 16, c % 16, h, w), since
  c = 16 (c / 16) + c % 16, and a sum of arrays is read summand by summand.  The second result is written by the last
  operation alone, so it is the difference of what the operations before it leave in the image and in the first result.
-/
import proofs.«128193_j26018911879615_1_alg».proof.Proof.RefOps
import proofs.«128193_j26018911879615_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.ReferenceIdeal.RConv

open Cert.ReferenceIdeal Cert.ReferenceIdeal.Gen Cert.ReferenceIdeal.RefOps Idealize.ShloMosaic Idealize.ShloMosaic.TcCoe Idealize.ShloMosaic.ValueIdx Idealize.SL.Sem Idealize.ShloMosaic.StableHlo

/-! ## The nine-tap expression on arrays -/

/-- One tap as an array: the window of the padded array at the offsets, viewed by groups of 16 channels, times the
    weight of (image, group) at the tap, repeated over the group's channels and the pixels. -/
def tapTerm (off : Fin S8x128x130x130.rank → Nat) (offk : Fin S8x8x9.rank → Nat)
    (hs : S8x128x130x130.Slices off S8x128x128x128) (hs' : S8x8x9.Slices offk S8x8x1)
    (xp : S8x128x130x130.Idx → EReal) (f : S8x8x9.Idx → EReal) : FVec Ideal S8x8x16x128x128 .f32 :=
  mulf (shapeCast S8x8x16x128x128 (extractStridedSlice S8x128x128x128 off xp hs) shapeCasts_S8x128x128x128_S8x8x16x128x128)
    (broadcastInDim S8x8x16x128x128 ![0, 1, 2, 3, 4] bcast_S8x8x1x1x1_S8x8x16x128x128_0_1_2_3_4
      (broadcastInDim S8x8x1x1x1 ![0, 1] bcast_S8x8_S8x8x1x1x1_0_1
        (shapeCast S8x8 (extractStridedSlice S8x8x1 offk f hs') shapeCasts_S8x8x1_S8x8)))

/-- The nine taps added to zero one after the other, viewed back as [8, 128, 128, 128]. -/
def conv9 (xp : S8x128x130x130.Idx → EReal) (f : S8x8x9.Idx → EReal) : S8x128x128x128.Idx → EReal :=
  shapeCast S8x128x128x128
    (addf (addf (addf (addf (addf (addf (addf (addf (addf (broadcastInDim S8x8x16x128x128 ![] bcast_S_S8x8x16x128x128 (constant (F := Ideal) S_ .f32 0x00000000#32))
      (tapTerm ![0, 0, 0, 0] ![0, 0, 0] slices_S8x128x130x130_S8x128x128x128_0_0_0_0 slices_S8x8x9_S8x8x1_0_0_0 xp f))
      (tapTerm ![0, 0, 0, 1] ![0, 0, 1] slices_S8x128x130x130_S8x128x128x128_0_0_0_1 slices_S8x8x9_S8x8x1_0_0_1 xp f))
      (tapTerm ![0, 0, 0, 2] ![0, 0, 2] slices_S8x128x130x130_S8x128x128x128_0_0_0_2 slices_S8x8x9_S8x8x1_0_0_2 xp f))
      (tapTerm ![0, 0, 1, 0] ![0, 0, 3] slices_S8x128x130x130_S8x128x128x128_0_0_1_0 slices_S8x8x9_S8x8x1_0_0_3 xp f))
      (tapTerm ![0, 0, 1, 1] ![0, 0, 4] slices_S8x128x130x130_S8x128x128x128_0_0_1_1 slices_S8x8x9_S8x8x1_0_0_4 xp f))
      (tapTerm ![0, 0, 1, 2] ![0, 0, 5] slices_S8x128x130x130_S8x128x128x128_0_0_1_2 slices_S8x8x9_S8x8x1_0_0_5 xp f))
      (tapTerm ![0, 0, 2, 0] ![0, 0, 6] slices_S8x128x130x130_S8x128x128x128_0_0_2_0 slices_S8x8x9_S8x8x1_0_0_6 xp f))
      (tapTerm ![0, 0, 2, 1] ![0, 0, 7] slices_S8x128x130x130_S8x128x128x128_0_0_2_1 slices_S8x8x9_S8x8x1_0_0_7 xp f))
      (tapTerm ![0, 0, 2, 2] ![0, 0, 8] slices_S8x128x130x130_S8x128x128x128_0_0_2_2 slices_S8x8x9_S8x8x1_0_0_8 xp f))
    shapeCasts_S8x8x16x128x128_S8x128x128x128

/-- One tap read at (n, g, c', h, w): the padded array at channel 16 g + c' and pixel (h + i, w + j), times the weight
    of (n, g) at tap k. -/
theorem tapTerm_apply (i j k : Nat)
    (hs : S8x128x130x130.Slices ![0, 0, i, j] S8x128x128x128) (hs' : S8x8x9.Slices ![0, 0, k] S8x8x1)
    (xp : S8x128x130x130.Idx → EReal) (f : S8x8x9.Idx → EReal)
    (n g : Fin 8) (c' : Fin 16) (h w : Fin 128) (c : Fin 128) (hh ww : Fin 130) (kk : Fin 9)
    (hc : c.val = 16 * g.val + c'.val) (hhh : hh.val = h.val + i) (hww : ww.val = w.val + j) (hkk : kk.val = k) :
    tapTerm ![0, 0, i, j] ![0, 0, k] hs hs' xp f (ix5 n g c' h w) = xp (ix4 n c hh ww) * f (ix3 n g kk) := by
  unfold tapTerm
  rw [mulf_apply]
  congr 1
  · refine (shapeCast_apply _ _ (ix5 n g c' h w) (ix4 n c h w) ?_).trans ?_
    · rw [Shape.rowMajor_val_four, Shape.rowMajor_val_five]
      show ((n.val * 128 + c.val) * 128 + h.val) * 128 + w.val
        = (((n.val * 8 + g.val) * 16 + c'.val) * 128 + h.val) * 128 + w.val
      omega
    · refine extractStridedSlice_apply _ _ _ _ _ ?_
      intro a
      match a with
      | ⟨0, _⟩ => show n.val = 0 + n.val; omega
      | ⟨1, _⟩ => show c.val = 0 + c.val; omega
      | ⟨2, _⟩ => show hh.val = i + h.val; omega
      | ⟨3, _⟩ => show ww.val = j + w.val; omega
  · refine (broadcastInDim_apply _ _ _ (ix5 n g c' h w) (ix5 n g (0 : Fin 1) (0 : Fin 1) (0 : Fin 1)) ?_).trans ?_
    · intro a
      match a with
      | ⟨0, _⟩ => rfl
      | ⟨1, _⟩ => rfl
      | ⟨2, _⟩ => rfl
      | ⟨3, _⟩ => rfl
      | ⟨4, _⟩ => rfl
    refine (broadcastInDim_apply _ _ _ _ (ix2 n g) ?_).trans ?_
    · intro a
      match a with
      | ⟨0, _⟩ => rfl
      | ⟨1, _⟩ => rfl
    refine (shapeCast_apply _ _ (ix2 n g) (ix3 n g (0 : Fin 1)) ?_).trans ?_
    · rw [Shape.rowMajor_val_three, Shape.rowMajor_val_two]
      show (n.val * 8 + g.val) * 1 + 0 = n.val * 8 + g.val
      omega
    refine extractStridedSlice_apply _ _ _ _ _ ?_
    intro a
    match a with
    | ⟨0, _⟩ => show n.val = 0 + n.val; omega
    | ⟨1, _⟩ => show g.val = 0 + g.val; omega
    | ⟨2, _⟩ => show kk.val = k + 0; omega

/-- A sum of two arrays read at an index, each summand known there. -/
private theorem addf_at (A B : FVec Ideal S8x8x16x128x128 .f32) (q : S8x8x16x128x128.Idx) (a b : EReal)
    (hA : A q = a) (hB : B q = b) : addf A B q = a + b := by
  rw [addf_apply, hA, hB]

/-- The nine-tap array at (n, c, h, w): position (n, c / 16, c % 16, h, w) of the five-axis view, where the sum is
    zero plus the nine taps in order. -/
theorem conv9_apply (xp : S8x128x130x130.Idx → EReal) (f : S8x8x9.Idx → EReal)
    (n : Fin 8) (c : Fin 128) (h w : Fin 128) :
    conv9 xp f (ix4 n c h w)
      = Cert.Spec.acc9 Cert.Spec.z0
          (fun k => xp (ix4 n c (Cert.Spec.tapH h k) (Cert.Spec.tapW w k)))
          (fun k => f (ix3 n (Cert.Spec.grp c) k)) := by
  have hc16 : c.val % 16 < 16 := Nat.mod_lt _ (by decide)
  unfold conv9
  refine (shapeCast_apply _ _ (ix4 n c h w) (ix5 n (Cert.Spec.grp c) (⟨c.val % 16, hc16⟩ : Fin 16) h w) ?_).trans ?_
  · rw [Shape.rowMajor_val_five, Shape.rowMajor_val_four]
    show (((n.val * 8 + c.val / 16) * 16 + c.val % 16) * 128 + h.val) * 128 + w.val
      = ((n.val * 128 + c.val) * 128 + h.val) * 128 + w.val
    omega
  have T : ∀ (i j k : Nat) (hs : S8x128x130x130.Slices ![0, 0, i, j] S8x128x128x128) (hs' : S8x8x9.Slices ![0, 0, k] S8x8x1)
      (kk : Fin 9) (hi : kk.val / 3 = i) (hj : kk.val % 3 = j) (hk : kk.val = k),
      tapTerm ![0, 0, i, j] ![0, 0, k] hs hs' xp f (ix5 n (Cert.Spec.grp c) (⟨c.val % 16, hc16⟩ : Fin 16) h w)
        = xp (ix4 n c (Cert.Spec.tapH h kk) (Cert.Spec.tapW w kk)) * f (ix3 n (Cert.Spec.grp c) kk) := by
    intro i j k hs hs' kk hi hj hk
    refine tapTerm_apply i j k hs hs' xp f n (Cert.Spec.grp c) _ h w c _ _ kk ?_ ?_ ?_ hk
    · show c.val = 16 * (c.val / 16) + c.val % 16
      omega
    · show h.val + kk.val / 3 = h.val + i
      omega
    · show w.val + kk.val % 3 = w.val + j
      omega
  have hz : (broadcastInDim S8x8x16x128x128 ![] bcast_S_S8x8x16x128x128 (constant (F := Ideal) S_ .f32 0x00000000#32) : FVec Ideal S8x8x16x128x128 .f32)
      (ix5 n (Cert.Spec.grp c) (⟨c.val % 16, hc16⟩ : Fin 16) h w) = Cert.Spec.z0 := rfl
  unfold Cert.Spec.acc9
  exact (addf_at _ _ _ _ _ (addf_at _ _ _ _ _ (addf_at _ _ _ _ _ (addf_at _ _ _ _ _ (addf_at _ _ _ _ _ (addf_at _ _ _ _ _ (addf_at _ _ _ _ _ (addf_at _ _ _ _ _ (addf_at _ _ _ _ _ hz
      (T 0 0 0 slices_S8x128x130x130_S8x128x128x128_0_0_0_0 slices_S8x8x9_S8x8x1_0_0_0 0 rfl rfl rfl))
      (T 0 1 1 slices_S8x128x130x130_S8x128x128x128_0_0_0_1 slices_S8x8x9_S8x8x1_0_0_1 1 rfl rfl rfl))
      (T 0 2 2 slices_S8x128x130x130_S8x128x128x128_0_0_0_2 slices_S8x8x9_S8x8x1_0_0_2 2 rfl rfl rfl))
      (T 1 0 3 slices_S8x128x130x130_S8x128x128x128_0_0_1_0 slices_S8x8x9_S8x8x1_0_0_3 3 rfl rfl rfl))
      (T 1 1 4 slices_S8x128x130x130_S8x128x128x128_0_0_1_1 slices_S8x8x9_S8x8x1_0_0_4 4 rfl rfl rfl))
      (T 1 2 5 slices_S8x128x130x130_S8x128x128x128_0_0_1_2 slices_S8x8x9_S8x8x1_0_0_5 5 rfl rfl rfl))
      (T 2 0 6 slices_S8x128x130x130_S8x128x128x128_0_0_2_0 slices_S8x8x9_S8x8x1_0_0_6 6 rfl rfl rfl))
      (T 2 1 7 slices_S8x128x130x130_S8x128x128x128_0_0_2_1 slices_S8x8x9_S8x8x1_0_0_7 7 rfl rfl rfl))
      (T 2 2 8 slices_S8x128x130x130_S8x128x128x128_0_0_2_2 slices_S8x8x9_S8x8x1_0_0_8 8 rfl rfl rfl))

/-! ## The stretch on buffer contents -/

-- the buffer contents the stretch starts from
variable (V : Valuation τ sig (Elt Ideal))

/-- The contents after a list of operations are those after its first k operations followed by the rest. -/
private theorem after_split (k : Nat) : ∀ (l : List (HloOp τ sig (Elt Ideal))) (W : Valuation τ sig (Elt Ideal)),
    after l W = after (l.drop k) (after (l.take k) W) := by
  induction k with
  | zero => intro l W; rfl
  | succ k ih =>
    intro l W
    cases l with
    | nil => rfl
    | cons op l => exact ih l (op.result W)

set_option maxHeartbeats 4000000 in
/-- The first result %113 as an array: the nine-tap expression over the padded array %39 and the weights %38. -/
theorem v113_eq : (after opsC V (main_v113 : DevRef τ sig) : S8x128x128x128.Idx → EReal)
    = conv9 (V (main_v39 : DevRef τ sig)) (V (main_v38 : DevRef τ sig)) := by
  after_results_simp
  rfl

/-- The first result %113 at (n, c, h, w): the nine-tap sum over the padded array %39 with the weights %38 of (n, c / 16). -/
theorem v113_apply (n : Fin 8) (c : Fin 128) (h w : Fin 128) :
    (after opsC V (main_v113 : DevRef τ sig) : S8x128x128x128.Idx → EReal) (ix4 n c h w)
      = Cert.Spec.acc9 Cert.Spec.z0
          (fun k => (V (main_v39 : DevRef τ sig) : S8x128x130x130.Idx → EReal) (ix4 n c (Cert.Spec.tapH h k) (Cert.Spec.tapW w k)))
          (fun k => (V (main_v38 : DevRef τ sig) : S8x8x9.Idx → EReal) (ix3 n (Cert.Spec.grp c) k)) :=
  (congrFun (v113_eq V) (ix4 n c h w)).trans (conv9_apply _ _ n c h w)

theorem arg0_kept : after opsC V (main_arg0 : DevRef τ sig) = V (main_arg0 : DevRef τ sig) := by
  after_results_simp
theorem arg1_kept : after opsC V (main_arg1 : DevRef τ sig) = V (main_arg1 : DevRef τ sig) := by
  after_results_simp
theorem arg2_kept : after opsC V (main_arg2 : DevRef τ sig) = V (main_arg2 : DevRef τ sig) := by
  after_results_simp
theorem arg3_kept : after opsC V (main_arg3 : DevRef τ sig) = V (main_arg3 : DevRef τ sig) := by
  after_results_simp
theorem arg4_kept : after opsC V (main_arg4 : DevRef τ sig) = V (main_arg4 : DevRef τ sig) := by
  after_results_simp
theorem arg5_kept : after opsC V (main_arg5 : DevRef τ sig) = V (main_arg5 : DevRef τ sig) := by
  after_results_simp
theorem arg6_kept : after opsC V (main_arg6 : DevRef τ sig) = V (main_arg6 : DevRef τ sig) := by
  after_results_simp

/-- The second result %114 is the image less the first, entry by entry. -/
theorem v114_eq :
    (after opsC V (main_v114 : DevRef τ sig) : S8x128x128x128.Idx → EReal)
      = Cert.Spec.diff (V (main_arg0 : DevRef τ sig)) (after opsC V (main_v113 : DevRef τ sig)) := by
  rw [← arg0_kept V, after_split 75 opsC V]
  generalize after (List.take 75 opsC) V = W
  show (after [_] W (main_v114 : DevRef τ sig) : S8x128x128x128.Idx → EReal)
    = Cert.Spec.diff (after [_] W (main_arg0 : DevRef τ sig)) (after [_] W (main_v113 : DevRef τ sig))
  after_results
  rfl

end Cert.ReferenceIdeal.RConv

end
-- ==== Proof.RValue.lean ====
/-
  The idealized reference's run with its results as functions of the arguments.

  The three stretches compose: the first result at (n, c, h, w) is the nine-tap sum over the padded array with the
  weights of (n, c / 16); the padded array at (n, c, hp, wp) is the image at the reflected coordinates; the weights are
  the chain of the pooled means; no stretch writes an argument, and the padding does not write the weights.  So the
  first result is the specification's low-pass part and the second, the image less it, the high-pass part.
-/
import proofs.«128193_j26018911879615_1_alg».proof.Proof.RRun
import proofs.«128193_j26018911879615_1_alg».proof.Proof.RFilt
import proofs.«128193_j26018911879615_1_alg».proof.Proof.RPad
import proofs.«128193_j26018911879615_1_alg».proof.Proof.RConv

set_option maxRecDepth 16384

noncomputable section

namespace Cert.ReferenceIdeal.RValue

open Cert.ReferenceIdeal Cert.ReferenceIdeal.Gen Cert.ReferenceIdeal.RefOps Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The filter weights as a function of the launch contents. -/
def filt (c : Dev nD) : Cert.Spec.F3.Idx → EReal :=
  Cert.Spec.filtChain (Cert.Spec.pooled (m ((c.tc : Thread nD τ).loc main_arg0))) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))

/-- The buffer contents after the three stretches, from the launch contents. -/
abbrev fin (c : Dev nD) : Valuation τ sig (Elt Ideal) := after opsC (after opsB (after opsA (launchContents m c)))

theorem out0_eq (c : Dev nD) :
    (fin m c (main_v113 : DevRef τ sig) : S8x128x128x128.Idx → EReal) = Cert.Spec.low (m ((c.tc : Thread nD τ).loc main_arg0)) (filt m c) := by
  funext j
  obtain ⟨n, ch, h, w, rfl⟩ : ∃ (n : Fin 8) (ch : Fin 128) (h : Fin 128) (w : Fin 128), j = ix4 n ch h w :=
    ⟨j 0, j 1, j 2, j 3, eq_ix4 j⟩
  -- the padded array at a tap is the image, as launched, at the reflected coordinates
  have e1 : (fun k : Fin 9 => (after opsB (after opsA (launchContents m c)) (main_v39 : DevRef τ sig) : S8x128x130x130.Idx → EReal)
        (ix4 n ch (Cert.Spec.tapH h k) (Cert.Spec.tapW w k)))
      = fun k : Fin 9 => (m ((c.tc : Thread nD τ).loc main_arg0) : S8x128x128x128.Idx → EReal)
        (ix4 n ch (Cert.Spec.mirF (Cert.Spec.tapH h k)) (Cert.Spec.mirF (Cert.Spec.tapW w k))) :=
    funext fun k => by rw [RPad.v39_apply, RFilt.arg0_kept]
  -- the weights the taps read are the chain of the pooled means
  have e2 : (after opsB (after opsA (launchContents m c)) (main_v38 : DevRef τ sig) : S8x8x9.Idx → EReal) = filt m c := by
    rw [RPad.v38_kept, RFilt.v38_eq]; rfl
  unfold fin
  rw [RConv.v113_apply, e1, e2]
  rfl

theorem out1_eq (c : Dev nD) :
    (fin m c (main_v114 : DevRef τ sig) : S8x128x128x128.Idx → EReal) = Cert.Spec.high (m ((c.tc : Thread nD τ).loc main_arg0)) (filt m c) := by
  have h0 := out0_eq m c
  unfold fin at h0 ⊢
  rw [RConv.v114_eq, RPad.arg0_kept, RFilt.arg0_kept]
  unfold Cert.Spec.high
  exact congrArg (Cert.Spec.diff _) h0

theorem arg_eq (c : Dev nD) (b : Ref sig .tc)
    (hC : ∀ V : Valuation τ sig (Elt Ideal), after opsC V (b : DevRef τ sig) = V (b : DevRef τ sig))
    (hB : ∀ V : Valuation τ sig (Elt Ideal), after opsB V (b : DevRef τ sig) = V (b : DevRef τ sig))
    (hA : ∀ V : Valuation τ sig (Elt Ideal), after opsA V (b : DevRef τ sig) = V (b : DevRef τ sig)) :
    fin m c (b : DevRef τ sig) = m ((c.tc : Thread nD τ).loc b) := by
  unfold fin
  rw [hC, hB, hA]

/-- Every weakly fair execution of the idealized reference's @main terminates with its first result the low-pass part
    and its second the high-pass part of the image, under the filter weights computed from the image's pooled means and
    the parameters; the arguments are unchanged. -/
theorem run : θ_run defs (onTc (τ := τ) (main (F := Ideal))) ⟨m, fun _ => 0, ρ⟩ (fun r => ∀ c : Dev nD,
      r.2.mem ((c.tc : Thread nD τ).loc main_v113) = Cert.Spec.low (m ((c.tc : Thread nD τ).loc main_arg0)) (filt m c)
      ∧ r.2.mem ((c.tc : Thread nD τ).loc main_v114) = Cert.Spec.high (m ((c.tc : Thread nD τ).loc main_arg0)) (filt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨(h c main_v113).trans (out0_eq m c), (h c main_v114).trans (out1_eq m c),
       (h c main_arg0).trans (arg_eq m c main_arg0 (RConv.arg0_kept) (RPad.arg0_kept) (RFilt.arg0_kept)),
       (h c main_arg1).trans (arg_eq m c main_arg1 (RConv.arg1_kept) (RPad.arg1_kept) (RFilt.arg1_kept)),
       (h c main_arg2).trans (arg_eq m c main_arg2 (RConv.arg2_kept) (RPad.arg2_kept) (RFilt.arg2_kept)),
       (h c main_arg3).trans (arg_eq m c main_arg3 (RConv.arg3_kept) (RPad.arg3_kept) (RFilt.arg3_kept)),
       (h c main_arg4).trans (arg_eq m c main_arg4 (RConv.arg4_kept) (RPad.arg4_kept) (RFilt.arg4_kept)),
       (h c main_arg5).trans (arg_eq m c main_arg5 (RConv.arg5_kept) (RPad.arg5_kept) (RFilt.arg5_kept)),
       (h c main_arg6).trans (arg_eq m c main_arg6 (RConv.arg6_kept) (RPad.arg6_kept) (RFilt.arg6_kept))⟩)
    (RRun.run_main m ρ)

end Cert.ReferenceIdeal.RValue

end
-- ==== Proof.lean ====
/-
  The claim: the kernel (a pooling region, a host stretch and a convolution region) against its reference.

  Both idealized programs end with the same two arrays: the low-pass part of the image, a nine-tap sum over the image
  padded by reflection with the softmax filter weights of the image's pooled channel means, and the image less it.  The
  kernel's run is read off its two regions and the host stretch between them; the reference's off its straight line of
  host operations.  The two differ in one law only, the pooled mean: a double sum times 2^(-14) against a sum over both
  axes divided by 16384, equal on the extended reals; the chain from pooled means to weights is the same operations
  on both sides, and the nine products are added in the same order.  The precondition is not used by the value claim.
  The frames of the two kernel programs are the generated ones; the reference's frame is its run with the results
  dropped; the idealization rewrote nothing, so there is nothing to preserve.
-/
import proofs.«128193_j26018911879615_1_alg».proof.Defs
import proofs.«128193_j26018911879615_1_alg».proof.Proof.Gen.Kernel
import proofs.«128193_j26018911879615_1_alg».proof.Proof.Gen.Kernel.Frame
import proofs.«128193_j26018911879615_1_alg».proof.Proof.Gen.KernelIdeal
import proofs.«128193_j26018911879615_1_alg».proof.Proof.Gen.KernelIdeal.Frame
import proofs.«128193_j26018911879615_1_alg».proof.Proof.Gen.ReferenceIdeal
import proofs.«128193_j26018911879615_1_alg».proof.Proof.Gen.Pre_finite_inputs
import proofs.«128193_j26018911879615_1_alg».proof.Proof.KValue
import proofs.«128193_j26018911879615_1_alg».proof.Proof.RValue

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame: its run, the two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.RValue.run m ρ)

/-- From memories that agree on the seven arguments both runs end at the same low-pass and high-pass arrays: each run
    states its results as the specification's functions of its own arguments, and the arguments agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.low (m ((c.tc : Thread Cert.KernelIdeal.nD Cert.KernelIdeal.τ).loc Cert.KernelIdeal.main_arg0)) (Cert.KernelIdeal.KValue.filt m c),
    fun c => Cert.Spec.high (m ((c.tc : Thread Cert.KernelIdeal.nD Cert.KernelIdeal.τ).loc Cert.KernelIdeal.main_arg0)) (Cert.KernelIdeal.KValue.filt m c),
    Cert.KernelIdeal.KValue.run m ρ, ?_⟩
  refine (θ_run Cert.ReferenceIdeal.defs _ _).mono (fun r h c => ?_) (Cert.ReferenceIdeal.RValue.run m' ρ')
  have hf : Cert.ReferenceIdeal.RValue.filt m' c = Cert.KernelIdeal.KValue.filt m c := by
    unfold Cert.ReferenceIdeal.RValue.filt Cert.KernelIdeal.KValue.filt
    rw [(hagree c).1, (hagree c).2.1, (hagree c).2.2.1, (hagree c).2.2.2.1, (hagree c).2.2.2.2.1, (hagree c).2.2.2.2.2.1,
      (hagree c).2.2.2.2.2.2]
  refine ⟨(h c).1.trans ?_, (h c).2.1.trans ?_, (h c).2.2⟩
  · rw [hf, (hagree c).1]
  · rw [hf, (hagree c).1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
